-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x8000 : Shape := ⟨3, ![16, 512, 8000]⟩
abbrev S16x512 : Shape := ⟨2, ![16, 512]⟩
abbrev S16 : Shape := ⟨1, ![16]⟩
abbrev S_ : Shape := ⟨0, ![]⟩

class Facts : Prop where
  bcast_S_S16x512x8000 : S_.BroadcastsInDim S16x512x8000 (![] : Fin 0 → Fin S16x512x8000.rank)
  reducesTo_S16x512x8000_S_d0_1_2 : S16x512x8000.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x512x8000 .f32) (main_arg1 : IVec S16x512 32) (main_arg2 : FVec F S16x512x8000 .f32) (main_arg3 : IVec S16x512 32) (main_arg4 : IVec S16 32) (main_arg5 : IVec S16 32) : IVec S_ 1 :=
  let main_v0 : FVec F S16x512x8000 .f32 := Host.absf main_arg0
  let main_cst : FVec F S_ .f32 := constant S_ .f32 0x7F800000#32
  let main_v1 : FVec F S16x512x8000 .f32 := broadcastInDim S16x512x8000 ![] bcast_S_S16x512x8000 main_cst
  let main_v2 : IVec S16x512x8000 1 := cmpf .olt main_v0 main_v1
  let main_c : IVec S_ 1 := constantI S_ 1 1#1
  let main_v3 : IVec S_ 1 := (fun x v => Host.reduce IntOp.andi x v reducesTo_S16x512x8000_S_d0_1_2 h_S_) main_v2 main_c
  let main_v4 : FVec F S16x512x8000 .f32 := Host.absf main_arg2
  let main_cst_0 : FVec F S_ .f32 := constant S_ .f32 0x7F800000#32
  let main_v5 : FVec F S16x512x8000 .f32 := broadcastInDim S16x512x8000 ![] bcast_S_S16x512x8000 main_cst_0
  let main_v6 : IVec S16x512x8000 1 := cmpf .olt main_v4 main_v5
  let main_c_1 : IVec S_ 1 := constantI S_ 1 1#1
  let main_v7 : IVec S_ 1 := (fun x v => Host.reduce IntOp.andi x v reducesTo_S16x512x8000_S_d0_1_2 h_S_) main_v6 main_c_1
  let main_v8 : IVec S_ 1 := andi main_v3 main_v7
  let main_c_2 : IVec S_ 32 := constantI S_ 32 0#32
  let main_v9 : IVec S16x512 32 := broadcastInDim S16x512 ![] bcast_S_S16x512 main_c_2
  let main_v10 : IVec S16x512 1 := cmpi .sge main_arg1 main_v9
  let main_c_3 : IVec S_ 1 := constantI S_ 1 1#1
  let main_v11 : IVec S_ 1 := (fun x v => Host.reduce IntOp.andi x v reducesTo_S16x512_S_d0_1 h_S_) main_v10 main_c_3
  let main_v12 : IVec S_ 1 := andi main_v8 main_v11
  let main_c_4 : IVec S_ 32 := constantI S_ 32 8000#32
  let main_v13 : IVec S16x512 32 := broadcastInDim S16x512 ![] bcast_S_S16x512 main_c_4
  let main_v14 : IVec S16x512 1 := cmpi .slt main_arg1 main_v13
  let main_c_5 : IVec S_ 1 := constantI S_ 1 1#1
  let main_v15 : IVec S_ 1 := (fun x v => Host.reduce IntOp.andi x v reducesTo_S16x512_S_d0_1 h_S_) main_v14 main_c_5
  fn_part1 (F := F) main_v12 main_v15
-- ==== Kernel.lean ====
abbrev S16x512x8000 : Shape := ⟨3, ![16, 512, 8000]⟩
abbrev S16x512 : Shape := ⟨2, ![16, 512]⟩
abbrev S16 : Shape := ⟨1, ![16]⟩
abbrev S512 : Shape := ⟨1, ![512]⟩
abbrev S1x512 : Shape := ⟨2, ![1, 512]⟩
abbrev S16x1 : Shape := ⟨2, ![16, 1]⟩
abbrev S_ : Shape := ⟨0, ![]⟩
abbrev S16x511 : Shape := ⟨2, ![16, 511]⟩
abbrev S16x512x1 : Shape := ⟨3, ![16, 512, 1]⟩
abbrev S1 : Shape := ⟨1, ![1]⟩
abbrev S1x1x1 : Shape := ⟨3, ![1, 1, 1]⟩
abbrev S1x1x512 : Shape := ⟨3, ![1, 1, 512]⟩
abbrev S16x512x512 : Shape := ⟨3, ![16, 512, 512]⟩
abbrev S16x1x1 : Shape := ⟨3, ![16, 1, 1]⟩
abbrev S1x64x8000 : Shape := ⟨3, ![1, 64, 8000]⟩
abbrev S1x512x8000 : Shape := ⟨3, ![1, 512, 8000]⟩
abbrev S1x64x512 : Shape := ⟨3, ![1, 64, 512]⟩
abbrev S1x64x1 : Shape := ⟨3, ![1, 64, 1]⟩
abbrev S64x8000 : Shape := ⟨2, ![64, 8000]⟩
abbrev S64x512 : Shape := ⟨2, ![64, 512]⟩
abbrev S512x8000 : Shape := ⟨2, ![512, 8000]⟩
abbrev S64 : Shape := ⟨1, ![64]⟩
abbrev S64x1 : Shape := ⟨2, ![64, 1]⟩

abbrev nBuf : Space → Nat
  | .hbm => 89
  | .vmem => 13
  | .smem => 0
  | _ => 0

abbrev bufTy : (tb : Table) → Fin (tcTables nBuf tb) → BufTy
  | .hbm, ⟨0, _⟩ => ⟨S16x512x8000, .f32⟩
  | .hbm, ⟨1, _⟩ => ⟨S16x512, .i32⟩
  | .hbm, ⟨2, _⟩ => ⟨S16x512x8000, .f32⟩
  | .hbm, ⟨3, _⟩ => ⟨S16x512, .i32⟩
  | .hbm, ⟨4, _⟩ => ⟨S16, .i32⟩
  | .hbm, ⟨5, _⟩ => ⟨S16, .i32⟩
  | .hbm, ⟨6, _⟩ => ⟨S512, .i32⟩
  | .hbm, ⟨7, _⟩ => ⟨S1x512, .i32⟩
  | .hbm, ⟨8, _⟩ => ⟨S16x1, .i32⟩
  | .hbm, ⟨9, _⟩ => ⟨S16x512, .i32⟩
  | .hbm, ⟨10, _⟩ => ⟨S16x512, .i32⟩
  | .hbm, ⟨11, _⟩ => ⟨S16x512, .i1⟩
  | .hbm, ⟨12, _⟩ => ⟨S_, .i32⟩
  | .hbm, ⟨13, _⟩ => ⟨S_, .i32⟩
  | .hbm, ⟨14, _⟩ => ⟨S16x512, .i32⟩
  | .hbm, ⟨15, _⟩ => ⟨S16x512, .i32⟩
  | .hbm, ⟨16, _⟩ => ⟨S_, .i32⟩
  | .hbm, ⟨17, _⟩ => ⟨S16x512, .i32⟩
  | .hbm, ⟨18, _⟩ => ⟨S16x512, .i1⟩
  | .hbm, ⟨19, _⟩ => ⟨S16x511, .i32⟩
  | .hbm, ⟨20, _⟩ => ⟨S_, .i32⟩
  | .hbm, ⟨21, _⟩ => ⟨S_, .i32⟩
  | .hbm, ⟨22, _⟩ => ⟨S16x512, .i32⟩
  | .hbm, ⟨23, _⟩ => ⟨S16x512, .i1⟩
  | .hbm, ⟨24, _⟩ => ⟨S16x512, .i1⟩
  | .hbm, ⟨25, _⟩ => ⟨S16x512, .i32⟩
  | .hbm, ⟨26, _⟩ => ⟨S_, .i32⟩
  | .hbm, ⟨27, _⟩ => ⟨S_, .i32⟩
  | .hbm, ⟨28, _⟩ => ⟨S16x512, .i32⟩
  | .hbm, ⟨29, _⟩ => ⟨S_, .i32⟩
  | .hbm, ⟨30, _⟩ => ⟨S16x512, .i32⟩
  | .hbm, ⟨31, _⟩ => ⟨S16x512, .i32⟩
  | .hbm, ⟨32, _⟩ => ⟨S_, .i32⟩
  | .hbm, ⟨33, _⟩ => ⟨S16x512, .i32⟩
  | .hbm, ⟨34, _⟩ => ⟨S16x512, .i32⟩
  | .hbm, ⟨35, _⟩ => ⟨S16x512, .i32⟩
  | .hbm, ⟨36, _⟩ => ⟨S_, .i32⟩
  | .hbm, ⟨37, _⟩ => ⟨S16, .i32⟩
  | .hbm, ⟨38, _⟩ => ⟨S16, .f32⟩
  | .hbm, ⟨39, _⟩ => ⟨S_, .i32⟩
  | .hbm, ⟨40, _⟩ => ⟨S16x512, .i32⟩
  | .hbm, ⟨41, _⟩ => ⟨S16x512, .i1⟩
  | .hbm, ⟨42, _⟩ => ⟨S_, .i32⟩
  | .hbm, ⟨43, _⟩ => ⟨S16x512, .i32⟩
  | .hbm, ⟨44, _⟩ => ⟨S16x512, .i32⟩
  | .hbm, ⟨45, _⟩ => ⟨S16x512, .i32⟩
  | .hbm, ⟨46, _⟩ => ⟨S16x512x1, .i32⟩
  | .hbm, ⟨47, _⟩ => ⟨S1, .i32⟩
  | .hbm, ⟨48, _⟩ => ⟨S_, .i32⟩
  | .hbm, ⟨49, _⟩ => ⟨S16x512x1, .i32⟩
  | .hbm, ⟨50, _⟩ => ⟨S16x512x1, .i1⟩
  | .hbm, ⟨51, _⟩ => ⟨S1x1x1, .i32⟩
  | .hbm, ⟨52, _⟩ => ⟨S16x512x1, .i32⟩
  | .hbm, ⟨53, _⟩ => ⟨S16x512x1, .i1⟩
  | .hbm, ⟨54, _⟩ => ⟨S16x512x1, .i1⟩
  | .hbm, ⟨55, _⟩ => ⟨S_, .i1⟩
  | .hbm, ⟨56, _⟩ => ⟨S16x512, .i1⟩
  | .hbm, ⟨57, _⟩ => ⟨S16x512, .i32⟩
  | .hbm, ⟨58, _⟩ => ⟨S_, .i32⟩
  | .hbm, ⟨59, _⟩ => ⟨S16x512, .i32⟩
  | .hbm, ⟨60, _⟩ => ⟨S16x512, .i32⟩
  | .hbm, ⟨61, _⟩ => ⟨S512, .i32⟩
  | .hbm, ⟨62, _⟩ => ⟨S1x1x512, .i32⟩
  | .hbm, ⟨63, _⟩ => ⟨S16x512x1, .i32⟩
  | .hbm, ⟨64, _⟩ => ⟨S16x512x512, .i32⟩
  | .hbm, ⟨65, _⟩ => ⟨S16x512x512, .i32⟩
  | .hbm, ⟨66, _⟩ => ⟨S16x512x512, .i1⟩
  | .hbm, ⟨67, _⟩ => ⟨S16x512x512, .bf16⟩
  | .hbm, ⟨68, _⟩ => ⟨S16x512, .f32⟩
  | .hbm, ⟨69, _⟩ => ⟨S16x512x1, .i32⟩
  | .hbm, ⟨70, _⟩ => ⟨S16x512x1, .f32⟩
  | .hbm, ⟨71, _⟩ => ⟨S16x1x1, .f32⟩
  | .hbm, ⟨72, _⟩ => ⟨S16x1x1, .f32⟩
  | .hbm, ⟨73, _⟩ => ⟨S16, .f32⟩
  | .hbm, ⟨74, _⟩ => ⟨S16, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16, .f32⟩
  | .hbm, ⟨79, _⟩ => ⟨S16, .f32⟩
  | .hbm, ⟨80, _⟩ => ⟨S_, .f32⟩
  | .hbm, ⟨81, _⟩ => ⟨S16, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .local _ .vmem, ⟨0, _⟩ => ⟨S1x64x8000, .f32⟩
  | .local _ .vmem, ⟨1, _⟩ => ⟨S1x64x8000, .f32⟩
  | .local _ .vmem, ⟨2, _⟩ => ⟨S1x512x8000, .f32⟩
  | .local _ .vmem, ⟨3, _⟩ => ⟨S1x64x512, .bf16⟩
  | .local _ .vmem, ⟨4, _⟩ => ⟨S1x64x512, .bf16⟩
  | .local _ .vmem, ⟨5, _⟩ => ⟨S1x64x1, .i32⟩
  | .local _ .vmem, ⟨6, _⟩ => ⟨S1x64x1, .i32⟩
  | .local _ .vmem, ⟨7, _⟩ => ⟨S1x64x1, .f32⟩
  | .local _ .vmem, ⟨8, _⟩ => ⟨S1x64x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | _, _ => ⟨S16x512x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_call3_c : Ref sig .tc := ⟨.hbm, 39, rfl⟩
abbrev main_call3_v0 : Ref sig .tc := ⟨.hbm, 40, rfl⟩
abbrev main_call3_v1 : Ref sig .tc := ⟨.hbm, 41, rfl⟩
abbrev main_call3_c_0 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_c_1 : Ref sig .tc := ⟨.hbm, 47, rfl⟩
abbrev main_call3_c_2 : Ref sig .tc := ⟨.hbm, 48, rfl⟩
abbrev main_call3_v6 : Ref sig .tc := ⟨.hbm, 49, rfl⟩
abbrev main_call3_v7 : Ref sig .tc := ⟨.hbm, 50, rfl⟩
abbrev main_call3_v8 : Ref sig .tc := ⟨.hbm, 51, rfl⟩
abbrev main_call3_v9 : Ref sig .tc := ⟨.hbm, 52, rfl⟩
abbrev main_call3_v10 : Ref sig .tc := ⟨.hbm, 53, rfl⟩
abbrev main_call3_v11 : Ref sig .tc := ⟨.hbm, 54, rfl⟩
abbrev main_call3_c_3 : Ref sig .tc := ⟨.hbm, 55, rfl⟩
abbrev main_call3_v12 : Ref sig .tc := ⟨.hbm, 56, rfl⟩
abbrev main_call3_v13 : Ref sig .tc := ⟨.hbm, 57, rfl⟩
abbrev main_call3_c_4 : Ref sig .tc := ⟨.hbm, 58, rfl⟩
abbrev main_call3_v14 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33_0 : Ref sig .tc := ⟨.hbm, 71, rfl⟩
abbrev main_v33_1 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst : Ref sig .tc := ⟨.hbm, 77, rfl⟩
abbrev main_v38 : Ref sig .tc := ⟨.hbm, 78, rfl⟩
abbrev main_v39 : Ref sig .tc := ⟨.hbm, 79, rfl⟩
abbrev main_cst_5 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_6 : Ref sig .tc := ⟨.hbm, 84, rfl⟩
abbrev main_v43 : Ref sig .tc := ⟨.hbm, 85, rfl⟩
abbrev main_cst_7 : Ref sig .tc := ⟨.hbm, 86, rfl⟩
abbrev main_v44 : Ref sig .tc := ⟨.hbm, 87, rfl⟩
abbrev main_v45 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512x8000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S_S16x512 : S_.BroadcastsInDim S16x512 (![] : Fin 0 → Fin S16x512.rank)
  slices_S16x512_S16x511_0_0 : S16x512.Slices ![0, 0] S16x511
  pads_S16x511_S16x512_000_100 : S16x511.Pads (![0, 1] : Fin 2 → Nat) ![0, 0] ![0, 0] S16x512
  h_S_ : 0 < S_.numel
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  reducesTo_S16x512_S16_d1 : S16x512.ReducesTo [1] S16
  shapeCasts_S16x512_S16x512x1 : S16x512.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  bcast_S512_S1x1x512_2 : S512.BroadcastsInDim S1x1x512 (![2] : Fin 1 → Fin S1x1x512.rank)
  bcast_S16x512_S16x512x1_0_1 : S16x512.BroadcastsInDim S16x512x1 (![0, 1] : Fin 2 → Fin S16x512x1.rank)
  bcast_S16x512x1_S16x512x512_0_1_2 : S16x512x1.BroadcastsInDim S16x512x512 (![0, 1, 2] : Fin 3 → Fin S16x512x512.rank)
  bcast_S1x1x512_S16x512x512_0_1_2 : S1x1x512.BroadcastsInDim S16x512x512 (![0, 1, 2] : Fin 3 → Fin S16x512x512.rank)
  inb_S1x1x1_S1x1x1_0_0_0 : ∀ a, (![0, 0, 0] : Fin 3 → Nat) a + S1x1x1.size a ≤ S1x1x1.size a
  h_S1x1x1 : 0 < S1x1x1.numel
  inb_S1x64x8000_S1x64x8000_0_0_0 : ∀ a, (![0, 0, 0] : Fin 3 → Nat) a + S1x64x8000.size a ≤ S1x64x8000.size a
  h_S1x64x8000 : 0 < S1x64x8000.numel
  shapeCasts_S1x64x8000_S64x8000 : S1x64x8000.ShapeCasts S64x8000
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x8000_S1x512x8000_0_0_0 : ∀ a, (![0, 0, 0] : Fin 3 → Nat) a + S1x512x8000.size a ≤ S1x512x8000.size a
  h_S1x512x8000 : 0 < S1x512x8000.numel
  shapeCasts_S1x512x8000_S512x8000 : S1x512x8000.ShapeCasts S512x8000
  bitsLt_bf16_f32 : FTy.bits .bf16 < FTy.bits .f32
  reduces_S64x8000_S64 : S64x8000.Reduces [1] S64
  shapeCasts_S64_S64x1 : S64.ShapeCasts S64x1
  broadcasts_S64x1_S64x8000 : S64x1.Broadcasts S64x8000
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S64x8000_d1_w32 : S64x8000.Iotas .tc 32 [1]
  shapeCasts_S64x1_S1x64x1 : S64x1.ShapeCasts S1x64x1
  reduces_S1x64x1_S1 : S1x64x1.Reduces [1, 2] S1
  shapeCasts_S1_S1x1x1 : S1.ShapeCasts S1x1x1
  inpos_S1x1x1_p0_0_0 : ∀ a, (![0, 0, 0] : Fin 3 → Nat) a < S1x1x1.size a
  shapeCasts_S1x1x1_S1x1x1 : S1x1x1.ShapeCasts S1x1x1
  shapeCasts_S16x1x1_S16 : S16x1x1.ShapeCasts S16
  bcast_S_S16 : S_.BroadcastsInDim S16 (![] : Fin 0 → Fin S16.rank)
  reducesTo_S16_S_d0 : S16.ReducesTo [0] S_
  gather_S16x512_S16x512x1_S16x512_n_1_0_0_1_2_11_wf : GatherDims.WF S16x512 S16x512x1 S16x512 [] [1] [0] [1] [0] 2 ![1, 1]
  dot_S64x512_S512x8000_S64x8000_1_0_0_1_n_n_wf : DotDims.WF S64x512 S512x8000 S64x8000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8000.size a ≤ S16x512x8000.size a
  hwx0_0 : ∀ i : grid0.Coords, EltTy.bits .f32 = 32 ∨ (Rect.block (s := S16x512x8000) S1x64x8000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512x8000.size a ≤ S16x512x8000.size a
  hwx0_1 : ∀ i : grid0.Coords, EltTy.bits .f32 = 32 ∨ (Rect.block (s := S16x512x8000) S1x512x8000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S16x512x512.size a
  hwx0_2 : ∀ i : grid0.Coords, EltTy.bits .bf16 = 32 ∨ (Rect.block (s := S16x512x512) S1x64x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S16x512x1.size a
  hwx0_3 : ∀ i : grid0.Coords, EltTy.bits .i32 = 32 ∨ (Rect.block (s := S16x512x1) S1x64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S16x512x1.size a
  hwx0_4 : ∀ i : grid0.Coords, EltTy.bits .f32 = 32 ∨ (Rect.block (s := S16x512x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S16x1x1.size a
  hwx0_5 : ∀ i : grid0.Coords, EltTy.bits .f32 = 32 ∨ (Rect.block (s := S16x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S16x1x1.size a
  hwx0_6 : ∀ i : grid0.Coords, EltTy.bits .f32 = 32 ∨ (Rect.block (s := S16x1x1) S1x1x1.size (cc0_transform_6 i) (hinb0_6 i)).WholeWords (EltTy.packing .f32)

variable [Facts₀]

def gather_S16x512_S16x512x1_S16x512_n_1_0_0_1_2_11 : GatherDims S16x512 S16x512x1 S16x512 where
  offsetDims := []
  collapsedSliceDims := [1]
  operandBatchingDims := [0]
  startIndicesBatchingDims := [0]
  startIndexMap := [1]
  indexVectorDim := 2
  sliceSizes := ![1, 1]
  wf := gather_S16x512_S16x512x1_S16x512_n_1_0_0_1_2_11_wf
def dot_S64x512_S512x8000_S64x8000_1_0_0_1_n_n : DotDims S64x512 S512x8000 S64x8000 where
  lhsContracting := [1]
  rhsContracting := [0]
  lhsNonContracting := [0]
  rhsNonContracting := [1]
  lhsBatch := []
  rhsBatch := []
  wf := dot_S64x512_S512x8000_S64x8000_1_0_0_1_n_n_wf

abbrev win0_0 : Pipeline.Window sig grid0 :=
  Pipeline.Window.ofSpec (Memref.whole main_arg0) S1x64x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x8000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_0) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33_1) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x512x8000 : Shape := ⟨3, ![16, 512, 8000]⟩
abbrev S16x512 : Shape := ⟨2, ![16, 512]⟩
abbrev S16 : Shape := ⟨1, ![16]⟩
abbrev S512 : Shape := ⟨1, ![512]⟩
abbrev S1x512 : Shape := ⟨2, ![1, 512]⟩
abbrev S16x1 : Shape := ⟨2, ![16, 1]⟩
abbrev S_ : Shape := ⟨0, ![]⟩
abbrev S16x511 : Shape := ⟨2, ![16, 511]⟩
abbrev S16x512x1 : Shape := ⟨3, ![16, 512, 1]⟩
abbrev S1 : Shape := ⟨1, ![1]⟩
abbrev S1x1x1 : Shape := ⟨3, ![1, 1, 1]⟩
abbrev S16x512x1x1 : Shape := ⟨4, ![16, 512, 1, 1]⟩
abbrev S1x1x1x1 : Shape := ⟨4, ![1, 1, 1, 1]⟩

abbrev nBuf : Space → Nat
  | .hbm => 162
  | .vmem => 0
  | .smem => 0
  | _ => 0

abbrev hbmTy0_0 (i : Nat) : BufTy := match i % 128 with
  | 0 => ⟨S16x512x8000, .f32⟩
  | 1 => ⟨S16x512, .i32⟩
  | 2 => ⟨S16x512x8000, .f32⟩
  | 3 => ⟨S16x512, .i32⟩
  | 4 => ⟨S16, .i32⟩
  | 5 => ⟨S16, .i32⟩
  | 6 => ⟨S512, .i32⟩
  | 7 => ⟨S1x512, .i32⟩
  | 8 => ⟨S16x1, .i32⟩
  | 9 => ⟨S16x512, .i32⟩
  | 10 => ⟨S16x512, .i32⟩
  | 11 => ⟨S16x512, .i1⟩
  | 12 => ⟨S_, .i32⟩
  | 13 => ⟨S_, .i32⟩
  | 14 => ⟨S16x512, .i32⟩
  | 15 => ⟨S16x512, .i32⟩
  | 16 => ⟨S_, .i32⟩
  | 17 => ⟨S16x512, .i32⟩
  | 18 => ⟨S16x512, .i1⟩
  | 19 => ⟨S16x511, .i32⟩
  | 20 => ⟨S_, .i32⟩
  | 21 => ⟨S_, .i32⟩
  | 22 => ⟨S16x512, .i32⟩
  | 23 => ⟨S16x512, .i1⟩
  | 24 => ⟨S16x512, .i1⟩
  | 25 => ⟨S16x512, .i32⟩
  | 26 => ⟨S_, .i32⟩
  | 27 => ⟨S_, .i32⟩
  | 28 => ⟨S16x512, .i32⟩
  | 29 => ⟨S_, .i32⟩
  | 30 => ⟨S16x512, .i32⟩
  | 31 => ⟨S16x512, .i32⟩
  | 32 => ⟨S_, .i32⟩
  | 33 => ⟨S16x512, .i32⟩
  | 34 => ⟨S16x512, .i32⟩
  | 35 => ⟨S_, .f32⟩
  | 36 => ⟨S16x512, .f32⟩
  | 37 => ⟨S_, .f32⟩
  | 38 => ⟨S16x512, .f32⟩
  | 39 => ⟨S16x512, .f32⟩
  | 40 => ⟨S16x512x1, .f32⟩
  | 41 => ⟨S16x512x8000, .f32⟩
  | 42 => ⟨S16x512x8000, .f32⟩
  | 43 => ⟨S16x512x8000, .f32⟩
  | 44 => ⟨S_, .f32⟩
  | 45 => ⟨S16x512, .f32⟩
  | 46 => ⟨S16x512x1, .f32⟩
  | 47 => ⟨S16x512x1, .f32⟩
  | 48 => ⟨S16x512x8000, .f32⟩
  | 49 => ⟨S16x512x8000, .f32⟩
  | 50 => ⟨S16x512, .i32⟩
  | 51 => ⟨S_, .i32⟩
  | 52 => ⟨S16, .i32⟩
  | 53 => ⟨S16, .f32⟩
  | 54 => ⟨S16x512x1, .i32⟩
  | 55 => ⟨S_, .i32⟩
  | 56 => ⟨S16x512x1, .i32⟩
  | 57 => ⟨S16x512x1, .i1⟩
  | 58 => ⟨S_, .i32⟩
  | 59 => ⟨S16x512x1, .i32⟩
  | 60 => ⟨S16x512x1, .i32⟩
  | 61 => ⟨S16x512x1, .i32⟩
  | 62 => ⟨S1, .i32⟩
  | 63 => ⟨S_, .i32⟩
  | 64 => ⟨S16x512x1, .i32⟩
  | 65 => ⟨S16x512x1, .i1⟩
  | 66 => ⟨S1x1x1, .i32⟩
  | 67 => ⟨S16x512x1, .i32⟩
  | 68 => ⟨S16x512x1, .i1⟩
  | 69 => ⟨S16x512x1, .i1⟩
  | 70 => ⟨S_, .i1⟩
  | 71 => ⟨S16x512, .i1⟩
  | 72 => ⟨S16x512x8000, .f32⟩
  | 73 => ⟨S16x512x8000, .i1⟩
  | 74 => ⟨S_, .f32⟩
  | 75 => ⟨S16x512x8000, .f32⟩
  | 76 => ⟨S16x512x8000, .f32⟩
  | 77 => ⟨S16x512x8000, .f32⟩
  | 78 => ⟨S_, .f32⟩
  | 79 => ⟨S16x512, .f32⟩
  | 80 => ⟨S_, .f32⟩
  | 81 => ⟨S_, .f32⟩
  | 82 => ⟨S16x512, .f32⟩
  | 83 => ⟨S16x512, .f32⟩
  | 84 => ⟨S_, .f32⟩
  | 85 => ⟨S16, .f32⟩
  | 86 => ⟨S16, .f32⟩
  | 87 => ⟨S_, .i32⟩
  | 88 => ⟨S16x512, .i32⟩
  | 89 => ⟨S16x512, .i1⟩
  | 90 => ⟨S_, .i32⟩
  | 91 => ⟨S16x512, .i32⟩
  | 92 => ⟨S16x512, .i32⟩
  | 93 => ⟨S16x512, .i32⟩
  | 94 => ⟨S16x512x1, .i32⟩
  | 95 => ⟨S1, .i32⟩
  | 96 => ⟨S_, .i32⟩
  | 97 => ⟨S16x512x1, .i32⟩
  | 98 => ⟨S16x512x1, .i1⟩
  | 99 => ⟨S1x1x1, .i32⟩
  | 100 => ⟨S16x512x1, .i32⟩
  | 101 => ⟨S16x512x1, .i1⟩
  | 102 => ⟨S16x512x1, .i1⟩
  | 103 => ⟨S_, .i1⟩
  | 104 => ⟨S16x512, .i1⟩
  | 105 => ⟨S16x512, .i32⟩
  | 106 => ⟨S_, .i32⟩
  | 107 => ⟨S16x512, .i32⟩
  | 108 => ⟨S16x512, .i32⟩
  | 109 => ⟨S16x512x1, .i32⟩
  | 110 => ⟨S_, .i32⟩
  | 111 => ⟨S16x512x1, .i32⟩
  | 112 => ⟨S16x512x1, .i1⟩
  | 113 => ⟨S_, .i32⟩
  | 114 => ⟨S16x512x1, .i32⟩
  | 115 => ⟨S16x512x1, .i32⟩
  | 116 => ⟨S16x512x1, .i32⟩
  | 117 => ⟨S16x512x1x1, .i32⟩
  | 118 => ⟨S1, .i32⟩
  | 119 => ⟨S_, .i32⟩
  | 120 => ⟨S16x512x1x1, .i32⟩
  | 121 => ⟨S16x512x1x1, .i1⟩
  | 122 => ⟨S1x1x1x1, .i32⟩
  | 123 => ⟨S16x512x1x1, .i32⟩
  | 124 => ⟨S16x512x1x1, .i1⟩
  | 125 => ⟨S16x512x1x1, .i1⟩
  | 126 => ⟨S_, .i1⟩
  | 127 => ⟨S16x512x1, .i1⟩
  | _ => ⟨S16x512x8000, .f32⟩

abbrev hbmTy0_1 (i : Nat) : BufTy := match i % 128 with
  | 0 => ⟨S16x512x1, .f32⟩
  | 1 => ⟨S_, .f32⟩
  | 2 => ⟨S16x512x1, .f32⟩
  | 3 => ⟨S16x512x1, .f32⟩
  | 4 => ⟨S16x512, .f32⟩
  | 5 => ⟨S_, .f32⟩
  | 6 => ⟨S16x512, .f32⟩
  | 7 => ⟨S_, .f32⟩
  | 8 => ⟨S16x512, .f32⟩
  | 9 => ⟨S16x512, .f32⟩
  | 10 => ⟨S16x512, .f32⟩
  | 11 => ⟨S_, .f32⟩
  | 12 => ⟨S16x512, .f32⟩
  | 13 => ⟨S16x512, .f32⟩
  | 14 => ⟨S16x512, .f32⟩
  | 15 => ⟨S_, .f32⟩
  | 16 => ⟨S_, .f32⟩
  | 17 => ⟨S16x512, .f32⟩
  | 18 => ⟨S16x512, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S_, .f32⟩
  | 26 => ⟨S16, .f32⟩
  | 27 => ⟨S16, .f32⟩
  | 28 => ⟨S16, .f32⟩
  | 29 => ⟨S_, .f32⟩
  | 30 => ⟨S_, .f32⟩
  | 31 => ⟨S_, .f32⟩
  | 32 => ⟨S_, .f32⟩
  | 33 => ⟨S_, .f32⟩
  | _ => ⟨S16x512x8000, .f32⟩

abbrev hbmTy (i : Nat) : BufTy := match i / 128 with
  | 0 => hbmTy0_0 i
  | 1 => hbmTy0_1 i
  | _ => ⟨S16x512x8000, .f32⟩

abbrev bufTy : (tb : Table) → Fin (tcTables nBuf tb) → BufTy
  | .hbm, ⟨i, _⟩ => hbmTy i
  | _, _ => ⟨S16x512x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call2_call0_c : Ref sig .tc := ⟨.hbm, 26, rfl⟩
abbrev main_call2_call0_v0 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_call3_cst_0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_cst_1 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_v19 : Ref sig .tc := ⟨.hbm, 49, rfl⟩
abbrev main_v20 : Ref sig .tc := ⟨.hbm, 50, rfl⟩
abbrev main_c_4 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_1 : Ref sig .tc := ⟨.hbm, 62, rfl⟩
abbrev main_call4_c_2 : Ref sig .tc := ⟨.hbm, 63, rfl⟩
abbrev main_call4_v5 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_c_3 : Ref sig .tc := ⟨.hbm, 70, rfl⟩
abbrev main_call4_v11 : Ref sig .tc := ⟨.hbm, 71, rfl⟩
abbrev main_call4_v12 : Ref sig .tc := ⟨.hbm, 72, rfl⟩
abbrev main_call4_v13 : Ref sig .tc := ⟨.hbm, 73, rfl⟩
abbrev main_call4_cst : Ref sig .tc := ⟨.hbm, 74, rfl⟩
abbrev main_call4_v14 : Ref sig .tc := ⟨.hbm, 75, rfl⟩
abbrev main_v24 : Ref sig .tc := ⟨.hbm, 76, rfl⟩
abbrev main_v25 : Ref sig .tc := ⟨.hbm, 77, rfl⟩
abbrev main_cst : Ref sig .tc := ⟨.hbm, 78, rfl⟩
abbrev main_v26 : Ref sig .tc := ⟨.hbm, 79, rfl⟩
abbrev main_cst_5 : Ref sig .tc := ⟨.hbm, 80, rfl⟩
abbrev main_call5_v0 : Ref sig .tc := ⟨.hbm, 81, rfl⟩
abbrev main_call5_v1 : Ref sig .tc := ⟨.hbm, 82, rfl⟩
abbrev main_v27 : Ref sig .tc := ⟨.hbm, 83, rfl⟩
abbrev main_cst_6 : Ref sig .tc := ⟨.hbm, 84, rfl⟩
abbrev main_v28 : Ref sig .tc := ⟨.hbm, 85, rfl⟩
abbrev main_v29 : Ref sig .tc := ⟨.hbm, 86, rfl⟩
abbrev main_call6_c : Ref sig .tc := ⟨.hbm, 87, rfl⟩
abbrev main_call6_v0 : Ref sig .tc := ⟨.hbm, 88, rfl⟩
abbrev main_call6_v1 : Ref sig .tc := ⟨.hbm, 89, rfl⟩
abbrev main_call6_c_0 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_v5 : Ref sig .tc := ⟨.hbm, 94, rfl⟩
abbrev main_call6_c_1 : Ref sig .tc := ⟨.hbm, 95, rfl⟩
abbrev main_call6_c_2 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_v9 : Ref sig .tc := ⟨.hbm, 100, rfl⟩
abbrev main_call6_v10 : Ref sig .tc := ⟨.hbm, 101, rfl⟩
abbrev main_call6_v11 : Ref sig .tc := ⟨.hbm, 102, rfl⟩
abbrev main_call6_c_3 : Ref sig .tc := ⟨.hbm, 103, rfl⟩
abbrev main_call6_v12 : Ref sig .tc := ⟨.hbm, 104, rfl⟩
abbrev main_call6_v13 : Ref sig .tc := ⟨.hbm, 105, rfl⟩
abbrev main_call6_c_4 : Ref sig .tc := ⟨.hbm, 106, rfl⟩
abbrev main_call6_v14 : Ref sig .tc := ⟨.hbm, 107, rfl⟩
abbrev main_v30 : Ref sig .tc := ⟨.hbm, 108, rfl⟩
abbrev main_v31 : Ref sig .tc := ⟨.hbm, 109, rfl⟩
abbrev main_call7_c : Ref sig .tc := ⟨.hbm, 110, rfl⟩
abbrev main_call7_v0 : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_v5 : Ref sig .tc := ⟨.hbm, 117, rfl⟩
abbrev main_call7_c_1 : Ref sig .tc := ⟨.hbm, 118, rfl⟩
abbrev main_call7_c_2 : Ref sig .tc := ⟨.hbm, 119, rfl⟩
abbrev main_call7_v6 : Ref sig .tc := ⟨.hbm, 120, rfl⟩
abbrev main_call7_v7 : Ref sig .tc := ⟨.hbm, 121, rfl⟩
abbrev main_call7_v8 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_c_3 : Ref sig .tc := ⟨.hbm, 126, rfl⟩
abbrev main_call7_v12 : Ref sig .tc := ⟨.hbm, 127, rfl⟩
abbrev main_call7_v13 : Ref sig .tc := ⟨.hbm, 128, rfl⟩
abbrev main_call7_cst : Ref sig .tc := ⟨.hbm, 129, rfl⟩
abbrev main_call7_v14 : Ref sig .tc := ⟨.hbm, 130, rfl⟩
abbrev main_v32 : Ref sig .tc := ⟨.hbm, 131, rfl⟩
abbrev main_v33 : Ref sig .tc := ⟨.hbm, 132, rfl⟩
abbrev main_cst_7 : Ref sig .tc := ⟨.hbm, 133, rfl⟩
abbrev main_v34 : Ref sig .tc := ⟨.hbm, 134, rfl⟩
abbrev main_cst_8 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_cst_9 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_cst_10 : Ref sig .tc := ⟨.hbm, 143, rfl⟩
abbrev main_call8_v0 : Ref sig .tc := ⟨.hbm, 144, rfl⟩
abbrev main_call8_v1 : Ref sig .tc := ⟨.hbm, 145, rfl⟩
abbrev main_v41 : Ref sig .tc := ⟨.hbm, 146, rfl⟩
abbrev main_cst_11 : Ref sig .tc := ⟨.hbm, 147, rfl⟩
abbrev main_v42 : Ref sig .tc := ⟨.hbm, 148, rfl⟩
abbrev main_v43 : Ref sig .tc := ⟨.hbm, 149, rfl⟩
abbrev main_cst_12 : Ref sig .tc := ⟨.hbm, 150, rfl⟩
abbrev main_v44 : Ref sig .tc := ⟨.hbm, 151, rfl⟩
abbrev main_v45 : Ref sig .tc := ⟨.hbm, 152, rfl⟩
abbrev main_cst_13 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_cst_14 : Ref sig .tc := ⟨.hbm, 157, rfl⟩
abbrev main_v49 : Ref sig .tc := ⟨.hbm, 158, rfl⟩
abbrev main_cst_15 : Ref sig .tc := ⟨.hbm, 159, rfl⟩
abbrev main_v50 : Ref sig .tc := ⟨.hbm, 160, rfl⟩
abbrev main_v51 : Ref sig .tc := ⟨.hbm, 161, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S16_S16x1_0 : S16.BroadcastsInDim S16x1 (![0] : Fin 1 → Fin S16x1.rank)
  bcast_S1x512_S16x512_0_1 : S1x512.BroadcastsInDim S16x512 (![0, 1] : Fin 2 → Fin S16x512.rank)
  bcast_S16x1_S16x512_0_1 : S16x1.BroadcastsInDim S16x512 (![0, 1] : Fin 2 → Fin S16x512.rank)
  bcast_S_S16x512 : S_.BroadcastsInDim S16x512 (![] : Fin 0 → Fin S16x512.rank)
  slices_S16x512_S16x511_0_0 : S16x512.Slices ![0, 0] S16x511
  pads_S16x511_S16x512_000_100 : S16x511.Pads (![0, 1] : Fin 2 → Nat) ![0, 0] ![0, 0] S16x512
  h_S_ : 0 < S_.numel
  natLt_1_32 : 1 < 32
  bcast_S_S_ : S_.BroadcastsInDim S_ (![] : Fin 0 → Fin S_.rank)
  reduceWindows_S16x512_S16x512_w1s1p0_0_w512s1p511_0 : S16x512.ReduceWindows (![1, 512] : Fin 2 → Nat) ![1, 1] ![0, 511] ![0, 0] S16x512
  reducesTo_S16x512x8000_S16x512_d2 : S16x512x8000.ReducesTo [2] S16x512
  bcast_S16x512_S16x512x1_0_1 : S16x512.BroadcastsInDim S16x512x1 (![0, 1] : Fin 2 → Fin S16x512x1.rank)
  bcast_S16x512x1_S16x512x8000_0_1_2 : S16x512x1.BroadcastsInDim S16x512x8000 (![0, 1, 2] : Fin 3 → Fin S16x512x8000.rank)
  reducesTo_S16x512_S16_d1 : S16x512.ReducesTo [1] S16
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  bcast_S16x512_S16x512x8000_0_1 : S16x512.BroadcastsInDim S16x512x8000 (![0, 1] : Fin 2 → Fin S16x512x8000.rank)
  bcast_S_S16x512x8000 : S_.BroadcastsInDim S16x512x8000 (![] : Fin 0 → Fin S16x512x8000.rank)
  shapeCasts_S16x512_S16x512x1 : S16x512.ShapeCasts S16x512x1
  shapeCasts_S16x512x1_S16x512x1x1 : S16x512x1.ShapeCasts S16x512x1x1
  bcast_S_S16x512x1x1 : S_.BroadcastsInDim S16x512x1x1 (![] : Fin 0 → Fin S16x512x1x1.rank)
  bcast_S1_S1x1x1x1_3 : S1.BroadcastsInDim S1x1x1x1 (![3] : Fin 1 → Fin S1x1x1x1.rank)
  bcast_S1x1x1x1_S16x512x1x1_0_1_2_3 : S1x1x1x1.BroadcastsInDim S16x512x1x1 (![0, 1, 2, 3] : Fin 4 → Fin S16x512x1x1.rank)
  reducesTo_S16x512x1x1_S16x512x1_d3 : S16x512x1x1.ReducesTo [3] S16x512x1
  shapeCasts_S16x512x1_S16x512 : S16x512x1.ShapeCasts S16x512
  bcast_S_S16 : S_.BroadcastsInDim S16 (![] : Fin 0 → Fin S16.rank)
  reducesTo_S16_S_d0 : S16.ReducesTo [0] S_
  gather_S16x512x8000_S16x512x1_S16x512x8000_2_1_0_0_1_2_118000_wf : GatherDims.WF S16x512x8000 S16x512x1 S16x512x8000 [2] [1] [0] [1] [0] 2 ![1, 1, 8000]
  gather_S16x512_S16x512x1_S16x512_n_1_0_0_1_2_11_wf : GatherDims.WF S16x512 S16x512x1 S16x512 [] [1] [0] [1] [0] 2 ![1, 1]
  gather_S16x512x8000_S16x512x1x1_S16x512x1_n_2_01_01_2_3_111_wf : GatherDims.WF S16x512x8000 S16x512x1x1 S16x512x1 [] [2] [0, 1] [2] [0, 1] 3 ![1, 1, 1]

variable [Facts₀]

def gather_S16x512x8000_S16x512x1_S16x512x8000_2_1_0_0_1_2_118000 : GatherDims S16x512x8000 S16x512x1 S16x512x8000 where
  offsetDims := [2]
  collapsedSliceDims := [1]
  operandBatchingDims := [0]
  startIndicesBatchingDims := [0]
  startIndexMap := [1]
  indexVectorDim := 2
  sliceSizes := ![1, 1, 8000]
  wf := gather_S16x512x8000_S16x512x1_S16x512x8000_2_1_0_0_1_2_118000_wf
def gather_S16x512_S16x512x1_S16x512_n_1_0_0_1_2_11 : GatherDims S16x512 S16x512x1 S16x512 where
  offsetDims := []
  collapsedSliceDims := [1]
  operandBatchingDims := [0]
  startIndicesBatchingDims := [0]
  startIndexMap := [1]
  indexVectorDim := 2
  sliceSizes := ![1, 1]
  wf := gather_S16x512_S16x512x1_S16x512_n_1_0_0_1_2_11_wf
def gather_S16x512x8000_S16x512x1x1_S16x512x1_n_2_01_01_2_3_111 : GatherDims S16x512x8000 S16x512x1x1 S16x512x1 where
  offsetDims := []
  collapsedSliceDims := [2]
  operandBatchingDims := [0, 1]
  startIndicesBatchingDims := [0, 1]
  startIndexMap := [2]
  indexVectorDim := 3
  sliceSizes := ![1, 1, 1]
  wf := gather_S16x512x8000_S16x512x1x1_S16x512x1_n_2_01_01_2_3_111_wf

class Facts : Prop extends Facts₀ where

variable [Facts]
-- ==== Proof.Spec.lean ====
/-
  The two programs' host-side computations as pure functions of the argument arrays, stage by stage.
  Both programs compute, from the alignment ids and the frame lengths, the same integer tables: the masked
  alignment, the non-blank mask, the run index of every frame (a cumulative count of run starts, minus one,
  floored at zero), the hard label of every frame (the label row read at the run index) and the number of
  non-blank frames of each batch entry.  The reference then takes, for every frame, the log-softmax of its logits
  row, the soft-label row at the frame's run index, the label's log-probability, and sums the per-frame losses
  over the non-blank frames; both programs end with the same mean over the batch.
-/
import proofs.«426884_j75548474737115_1_alg».proof.ReferenceIdeal
import proofs.«426884_j75548474737115_1_alg».proof.Proof.Gen.ReferenceIdeal

noncomputable section

namespace Cert.ReferenceIdeal.Spec

open Idealize.ShloMosaic Cert.ReferenceIdeal Cert.ReferenceIdeal.Gen

variable {F : FTy → Type} [FloatOps F]

/-! ## The integer tables both programs compute -/

/-- Frame `t` of batch entry `b` lies inside the entry's length. -/
def frameMask (xlens : IVec S16 32) : IVec S16x512 1 :=
  cmpi .slt (broadcastInDim S16x512 ![0, 1] bcast_S1x512_S16x512_0_1 (broadcastInDim S1x512 ![1] bcast_S512_S1x512_1 (iotaInDim S512 32 0)))
    (broadcastInDim S16x512 ![0, 1] bcast_S16x1_S16x512_0_1 (broadcastInDim S16x1 ![0] bcast_S16_S16x1_0 xlens))

/-- The alignment ids with the padding frames set to the blank id `0`. -/
def amask (aligns : IVec S16x512 32) (xlens : IVec S16 32) : IVec S16x512 32 :=
  select (frameMask xlens) aligns (broadcastInDim S16x512 ![] bcast_S_S16x512 (id (constantI S_ 32 0#32)))

/-- A frame is non-blank. -/
def nonblank (a : IVec S16x512 32) : IVec S16x512 1 :=
  cmpi .ne a (broadcastInDim S16x512 ![] bcast_S_S16x512 (constantI S_ 32 0#32))

/-- The ids shifted one frame to the right, a blank entering at frame 0. -/
def shifted (a : IVec S16x512 32) : IVec S16x512 32 :=
  pad S16x512 ![0, 1] ![0, 0] ![0, 0] (extractStridedSlice S16x511 ![0, 0] a slices_S16x512_S16x511_0_0) (id (constantI S_ 32 0#32))
    pads_S16x511_S16x512_000_100 h_S_

/-- `1` where a run of one non-blank id starts, `0` elsewhere. -/
def runStart (a : IVec S16x512 32) : IVec S16x512 32 :=
  extui 32 (andi (nonblank a) (cmpi .ne a (shifted a))) natLt_1_32

/-- The cumulative sum along the frames. -/
def cumsum (x : IVec S16x512 32) : IVec S16x512 32 :=
  Host.reduceWindow IntOp.addi ![1, 512] ![1, 1] ![0, 511] ![0, 0] x (broadcastInDim S_ ![] bcast_S_S_ (constantI S_ 32 0#32))
    reduceWindows_S16x512_S16x512_w1s1p0_0_w512s1p511_0 h_S_

/-- The run index of every frame: the number of run starts up to it, minus one, floored at zero. -/
def runIdx (a : IVec S16x512 32) : IVec S16x512 32 :=
  maxsi (subi (cumsum (runStart a)) (broadcastInDim S16x512 ![] bcast_S_S16x512 (constantI S_ 32 1#32)))
    (broadcastInDim S16x512 ![] bcast_S_S16x512 (constantI S_ 32 0#32))

/-- The number of non-blank frames of each batch entry, as a float. -/
def nExists (a : IVec S16x512 32) : FVec F S16 .f32 :=
  sitofp .f32 (Host.reduce IntOp.addi (extui 32 (nonblank a) natLt_1_32) (constantI S_ 32 0#32) reducesTo_S16x512_S16_d1 h_S_)

/-- The index normalisation over an axis of 512: a negative index counts from the end. -/
def wrap512 (i : IVec S16x512 32) : IVec S16x512 32 :=
  select (cmpi .slt i (broadcastInDim S16x512 ![] bcast_S_S16x512 (constantI S_ 32 0#32)))
    (addi i (broadcastInDim S16x512 ![] bcast_S_S16x512 (constantI S_ 32 512#32))) i

/-- The normalised index as the gather's start-index column. -/
def idxCol (i : IVec S16x512 32) : IVec S16x512x1 32 :=
  fun j => shapeCast S16x512x1 (wrap512 i) shapeCasts_S16x512_S16x512x1 j

/-- The normalised index lies in `[0, 511]`. -/
def inb512 (i5 : IVec S16x512x1 32) : IVec S16x512 1 :=
  Host.reduce IntOp.andi
    (andi (cmpi .sge i5 (broadcastInDim S16x512x1 ![] bcast_S_S16x512x1 (constantI S_ 32 0#32)))
      (cmpi .sle i5 (broadcastInDim S16x512x1 ![0, 1, 2] bcast_S1x1x1_S16x512x1_0_1_2 (broadcastInDim S1x1x1 ![2] bcast_S1_S1x1x1_2 (constantI S1 32 511#32)))))
    (constantI S_ 1 1#1) reducesTo_S16x512x1_S16x512_d2 h_S_

/-- The hard label of every frame: the label row read at the frame's run index (the smallest integer where the index is
    out of range). -/
def takeYs (ys lm : IVec S16x512 32) : IVec S16x512 32 :=
  select (inb512 (idxCol lm)) (Host.gather gather_S16x512_S16x512x1_S16x512_n_1_0_0_1_2_11 ys (idxCol lm))
    (broadcastInDim S16x512 ![] bcast_S_S16x512 (constantI S_ 32 2147483648#32))

/-! ## The reference's float stages -/

/-- A logits row's maximum. -/
def rowMax (x : FVec F S16x512x8000 .f32) : FVec F S16x512 .f32 :=
  maximumf (broadcastInDim S16x512 ![] bcast_S_S16x512 (constant S_ .f32 0xFF800000#32))
    (Host.reduce FloatOps.maximumf x (constant S_ .f32 0xFF800000#32) reducesTo_S16x512x8000_S16x512_d2 h_S_)

/-- The logits minus their row's maximum. -/
def centred (x : FVec F S16x512x8000 .f32) : FVec F S16x512x8000 .f32 :=
  subf x (broadcastInDim S16x512x8000 ![0, 1, 2] bcast_S16x512x1_S16x512x8000_0_1_2
    (broadcastInDim S16x512x1 ![0, 1] bcast_S16x512_S16x512x1_0_1 (rowMax x)))

/-- The log-softmax along the vocabulary: the centred logits minus the log of the sum of their exponentials. -/
def logSoftmax (x : FVec F S16x512x8000 .f32) : FVec F S16x512x8000 .f32 :=
  subf (centred x) (broadcastInDim S16x512x8000 ![0, 1, 2] bcast_S16x512x1_S16x512x8000_0_1_2
    (Host.log (broadcastInDim S16x512x1 ![0, 1] bcast_S16x512_S16x512x1_0_1
      (Host.reduceAdd (Host.exp (centred x)) (constant S_ .f32 0x00000000#32) reducesTo_S16x512x8000_S16x512_d2 h_S_))))

/-- The run index as the start-index column of the soft-label gather, normalised over an axis of 512. -/
def softIdx (lm : IVec S16x512 32) : IVec S16x512x1 32 :=
  select (cmpi .slt (broadcastInDim S16x512x1 ![0, 1] bcast_S16x512_S16x512x1_0_1 lm) (broadcastInDim S16x512x1 ![] bcast_S_S16x512x1 (constantI S_ 32 0#32)))
    (addi (broadcastInDim S16x512x1 ![0, 1] bcast_S16x512_S16x512x1_0_1 lm) (broadcastInDim S16x512x1 ![] bcast_S_S16x512x1 (constantI S_ 32 512#32)))
    (broadcastInDim S16x512x1 ![0, 1] bcast_S16x512_S16x512x1_0_1 lm)

/-- The soft-label row of every frame: `soft[b, lm[b, t], :]` (a NaN row where the index is out of range). -/
def softRows (soft : FVec F S16x512x8000 .f32) (lm : IVec S16x512 32) : FVec F S16x512x8000 .f32 :=
  select (broadcastInDim S16x512x8000 ![0, 1] bcast_S16x512_S16x512x8000_0_1 (inb512 (softIdx lm)))
    (Host.gather gather_S16x512x8000_S16x512x1_S16x512x8000_2_1_0_0_1_2_118000 soft (softIdx lm))
    (broadcastInDim S16x512x8000 ![] bcast_S_S16x512x8000 (constant S_ .f32 0x7FC00000#32))

/-- The soft loss of every frame: the soft-label row against the log-softmax row. -/
def frameSoft (logits soft : FVec F S16x512x8000 .f32) (lm : IVec S16x512 32) : FVec F S16x512 .f32 :=
  Host.reduceAdd (mulf (softRows soft lm) (logSoftmax logits)) (constant S_ .f32 0x00000000#32) reducesTo_S16x512x8000_S16x512_d2 h_S_

/-- The value where the mask is set, `0.0` elsewhere. -/
def whereZero (nb : IVec S16x512 1) (v : FVec F S16x512 .f32) : FVec F S16x512 .f32 :=
  select nb v (broadcastInDim S16x512 ![] bcast_S_S16x512 (id (constant S_ .f32 0x00000000#32)))

/-- The sum over the frames of each batch entry. -/
def sumFrames (v : FVec F S16x512 .f32) : FVec F S16 .f32 :=
  Host.reduceAdd v (constant S_ .f32 0x00000000#32) reducesTo_S16x512_S16_d1 h_S_

/-- The label as the start-index column of the log-probability gather, normalised over an axis of 8000. -/
def labIdx (yt : IVec S16x512 32) : IVec S16x512x1x1 32 :=
  fun j => shapeCast S16x512x1x1
    (select (cmpi .slt (broadcastInDim S16x512x1 ![0, 1] bcast_S16x512_S16x512x1_0_1 yt) (broadcastInDim S16x512x1 ![] bcast_S_S16x512x1 (constantI S_ 32 0#32)))
      (addi (broadcastInDim S16x512x1 ![0, 1] bcast_S16x512_S16x512x1_0_1 yt) (broadcastInDim S16x512x1 ![] bcast_S_S16x512x1 (constantI S_ 32 8000#32)))
      (broadcastInDim S16x512x1 ![0, 1] bcast_S16x512_S16x512x1_0_1 yt))
    shapeCasts_S16x512x1_S16x512x1x1 j

/-- The label lies in `[0, 7999]`. -/
def inb8000 (i5 : IVec S16x512x1x1 32) : IVec S16x512x1 1 :=
  Host.reduce IntOp.andi
    (andi (cmpi .sge i5 (broadcastInDim S16x512x1x1 ![] bcast_S_S16x512x1x1 (constantI S_ 32 0#32)))
      (cmpi .sle i5 (broadcastInDim S16x512x1x1 ![0, 1, 2, 3] bcast_S1x1x1x1_S16x512x1x1_0_1_2_3 (broadcastInDim S1x1x1x1 ![3] bcast_S1_S1x1x1x1_3 (constantI S1 32 7999#32)))))
    (constantI S_ 1 1#1) reducesTo_S16x512x1x1_S16x512x1_d3 h_S_

/-- The label's log-probability of every frame (NaN where the label is out of range). -/
def labLogp (lp : FVec F S16x512x8000 .f32) (yt : IVec S16x512 32) : FVec F S16x512 .f32 :=
  fun j => shapeCast S16x512
    (select (inb8000 (labIdx yt)) (Host.gather gather_S16x512x8000_S16x512x1x1_S16x512x1_n_2_01_01_2_3_111 lp (labIdx yt))
      (broadcastInDim S16x512x1 ![] bcast_S_S16x512x1 (constant S_ .f32 0x7FC00000#32)))
    shapeCasts_S16x512x1_S16x512 j

/-- The hard loss of every frame with label smoothing: `0.9·logp[y] + (0.1/7999)·(Σ logp − logp[y])`, the two
    constants as their f32 words. -/
def frameHard (logits : FVec F S16x512x8000 .f32) (yt : IVec S16x512 32) : FVec F S16x512 .f32 :=
  addf (mulf (broadcastInDim S16x512 ![] bcast_S_S16x512 (constant S_ .f32 0x3F666666#32)) (labLogp (logSoftmax logits) yt))
    (mulf (broadcastInDim S16x512 ![] bcast_S_S16x512 (constant S_ .f32 0x3751BDCE#32))
      (subf (Host.reduceAdd (logSoftmax logits) (constant S_ .f32 0x00000000#32) reducesTo_S16x512x8000_S16x512_d2 h_S_)
        (labLogp (logSoftmax logits) yt)))

/-! ## The end both programs share -/

/-- From the two per-entry sums and the non-blank counts: minus the batch mean of
    `0.5·soft/n + 0.5·hard/n`. -/
def finish (sumSoft sumHard n : FVec F S16 .f32) : FVec F S_ .f32 :=
  Host.negf (Host.divf
    (Host.reduceAdd
      (addf (mulf (broadcastInDim S16 ![] bcast_S_S16 (constant S_ .f32 0x3F000000#32)) (Host.divf sumSoft n))
        (mulf (broadcastInDim S16 ![] bcast_S_S16 (constant S_ .f32 0x3F000000#32)) (Host.divf sumHard n)))
      (constant S_ .f32 0x00000000#32) reducesTo_S16_S_d0 h_S_)
    (constant S_ .f32 0x41800000#32))

/-- The reference's two per-entry sums. -/
def refSumSoft (logits soft : FVec F S16x512x8000 .f32) (a : IVec S16x512 32) : FVec F S16 .f32 :=
  sumFrames (whereZero (nonblank a) (frameSoft logits soft (runIdx a)))
def refSumHard (logits : FVec F S16x512x8000 .f32) (ys a : IVec S16x512 32) : FVec F S16 .f32 :=
  sumFrames (whereZero (nonblank a) (frameHard logits (takeYs ys (runIdx a))))

/-- The reference's result. -/
def refResult (logits : FVec F S16x512x8000 .f32) (ys : IVec S16x512 32) (soft : FVec F S16x512x8000 .f32)
    (aligns : IVec S16x512 32) (xlens : IVec S16 32) : FVec F S_ .f32 :=
  finish (refSumSoft logits soft (amask aligns xlens)) (refSumHard logits ys (amask aligns xlens)) (nExists (amask aligns xlens))

end Cert.ReferenceIdeal.Spec

end
-- ==== Proof.RefRun.lean ====
/-
  The reference program's run, read back as a pure function of its arguments.

  @main is a straight line of 156 host operations once its calls are unfolded: the frame mask and the masked
  alignment (@_where), the non-blank mask, the ids shifted by one frame (@_pad), the run starts and their cumulative
  sum (@cumsum, which calls @cumsum_0), the run index; the log-softmax of the logits (@log_softmax) and the
  non-blank counts; the soft-label rows read at the run index (@take_along_axis), their product with the
  log-softmax summed over the vocabulary, masked (@_where_1), summed over the frames and divided by the counts;
  the hard labels read at the run index (@take_along_axis_2), their log-probabilities (@take_along_axis_3), the
  label-smoothed frame loss, masked (@_where_1), summed and divided; and the mean over the batch, negated.
  The operations are listed stage by stage, each call's operations at the call site over the call's buffer
  record.  Every weakly fair execution terminates with the result buffer at `Spec.refResult` of the five
  arguments' launch contents and the arguments unchanged.
-/
import proofs.«426884_j75548474737115_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stage by stage -/

/-- The integer tables, @main's %0 … %18: the frame index against the lengths, the masked alignment (@_where over
    the record `main_call0`), the non-blank mask, the ids shifted one frame (@_pad over `main_call1`), the run
    starts, their cumulative sum (@cumsum over `main_call2`, whose one line is the call of @cumsum_0 over
    `main_call2.call0`), and the run index. -/
abbrev opsA : List (HloOp τ sig (Elt F)) :=
  [ nullary main_v0 (iotaInDim S512 32 0),
    unary main_v0 main_v1 (broadcastInDim S1x512 ![1] bcast_S512_S1x512_1),
    unary main_arg4 main_v2 (broadcastInDim S16x1 ![0] bcast_S16_S16x1_0),
    unary main_v1 main_v3 (broadcastInDim S16x512 ![0, 1] bcast_S1x512_S16x512_0_1),
    unary main_v2 main_v4 (broadcastInDim S16x512 ![0, 1] bcast_S16x1_S16x512_0_1),
    binary main_v3 main_v4 main_v5 (cmpi .slt),
    nullary main_c (constantI S_ 32 0#32),
    TRef.unary (.of main_c : TRef sig ⟨S_, .i32⟩) main_call0.v0 id,
    TRef.unary main_call0.v0 main_call0.v1 (broadcastInDim S16x512 ![] bcast_S_S16x512),
    TRef.ternary (.of main_v5 : TRef sig ⟨S16x512, .i1⟩) (.of main_arg3 : TRef sig ⟨S16x512, .i32⟩) main_call0.v1 main_call0.v2 select,
    nullary main_c_0 (constantI S_ 32 0#32),
    unary main_c_0 main_v7 (broadcastInDim S16x512 ![] bcast_S_S16x512),
    binary main_v6 main_v7 main_v8 (cmpi .ne),
    unary main_v6 main_v9 (extractStridedSlice S16x511 ![0, 0] · slices_S16x512_S16x511_0_0),
    nullary main_c_1 (constantI S_ 32 0#32),
    TRef.unary (.of main_c_1 : TRef sig ⟨S_, .i32⟩) main_call1.v0 id,
    TRef.binary (.of main_v9 : TRef sig ⟨S16x511, .i32⟩) main_call1.v0 main_call1.v1 (fun x v => pad S16x512 ![0, 1] ![0, 0] ![0, 0] x v pads_S16x511_S16x512_000_100 h_S_),
    binary main_v6 main_v10 main_v11 (cmpi .ne),
    binary main_v8 main_v11 main_v12 andi,
    unary main_v12 main_v13 (extui 32 · natLt_1_32),
    TRef.nullary main_call2.call0.c (constantI S_ 32 0#32),
    TRef.unary main_call2.call0.c main_call2.call0.v0 (broadcastInDim S_ ![] bcast_S_S_),
    TRef.binary (.of main_v13 : TRef sig ⟨S16x512, .i32⟩) main_call2.call0.v0 main_call2.call0.v1 (fun x v => Host.reduceWindow IntOp.addi ![1, 512] ![1, 1] ![0, 511] ![0, 0] x v reduceWindows_S16x512_S16x512_w1s1p0_0_w512s1p511_0 h_S_),
    nullary main_c_2 (constantI S_ 32 1#32),
    unary main_c_2 main_v15 (broadcastInDim S16x512 ![] bcast_S_S16x512),
    binary main_v14 main_v15 main_v16 subi,
    nullary main_c_3 (constantI S_ 32 0#32),
    unary main_c_3 main_v17 (broadcastInDim S16x512 ![] bcast_S_S16x512),
    binary main_v16 main_v17 main_v18 maxsi ]

/-- The log-softmax of the logits (@log_softmax over `main_call3`: the row maximum, the centred logits, the
    logarithm of the summed exponentials) and the non-blank counts as floats: @main's %19 … %22. -/
abbrev opsB : List (HloOp τ sig (Elt F)) :=
  [ TRef.nullary main_call3.cst (constant S_ .f32 0xFF800000#32),
    TRef.binary (.of main_arg0 : TRef sig ⟨S16x512x8000, .f32⟩) main_call3.cst main_call3.v0 (fun x v => Host.reduce FloatOps.maximumf x v reducesTo_S16x512x8000_S16x512_d2 h_S_),
    TRef.nullary main_call3.cst_0 (constant S_ .f32 0xFF800000#32),
    TRef.unary main_call3.cst_0 main_call3.v1 (broadcastInDim S16x512 ![] bcast_S_S16x512),
    TRef.binary main_call3.v1 main_call3.v0 main_call3.v2 maximumf,
    TRef.unary main_call3.v2 main_call3.v3 (broadcastInDim S16x512x1 ![0, 1] bcast_S16x512_S16x512x1_0_1),
    TRef.unary main_call3.v3 main_call3.v4 (broadcastInDim S16x512x8000 ![0, 1, 2] bcast_S16x512x1_S16x512x8000_0_1_2),
    TRef.binary (.of main_arg0 : TRef sig ⟨S16x512x8000, .f32⟩) main_call3.v4 main_call3.v5 subf,
    TRef.unary main_call3.v5 main_call3.v6 Host.exp,
    TRef.nullary main_call3.cst_1 (constant S_ .f32 0x00000000#32),
    TRef.binary main_call3.v6 main_call3.cst_1 main_call3.v7 (fun x v => Host.reduceAdd x v reducesTo_S16x512x8000_S16x512_d2 h_S_),
    TRef.unary main_call3.v7 main_call3.v8 (broadcastInDim S16x512x1 ![0, 1] bcast_S16x512_S16x512x1_0_1),
    TRef.unary main_call3.v8 main_call3.v9 Host.log,
    TRef.unary main_call3.v9 main_call3.v10 (broadcastInDim S16x512x8000 ![0, 1, 2] bcast_S16x512x1_S16x512x8000_0_1_2),
    TRef.binary main_call3.v5 main_call3.v10 main_call3.v11 subf,
    unary main_v8 main_v20 (extui 32 · natLt_1_32),
    nullary main_c_4 (constantI S_ 32 0#32),
    binary main_v20 main_c_4 main_v21 (fun x v => Host.reduce IntOp.addi x v reducesTo_S16x512_S16_d1 h_S_),
    unary main_v21 main_v22 (sitofp .f32) ]

/-- The soft loss, @main's %23 … %29: the run index as an index column, the soft-label rows read at it
    (@take_along_axis over `main_call4`: the index normalised over 512, its range test, the gather, NaN rows where
    out of range), their product with the log-softmax summed over the vocabulary, zero at the blank frames
    (@_where_1 over `main_call5`), summed over the frames and divided by the counts. -/
abbrev opsC : List (HloOp τ sig (Elt F)) :=
  [ unary main_v18 main_v23 (broadcastInDim S16x512x1 ![0, 1] bcast_S16x512_S16x512x1_0_1),
    TRef.nullary main_call4.c (constantI S_ 32 0#32),
    TRef.unary main_call4.c main_call4.v0 (broadcastInDim S16x512x1 ![] bcast_S_S16x512x1),
    TRef.binary (.of main_v23 : TRef sig ⟨S16x512x1, .i32⟩) main_call4.v0 main_call4.v1 (cmpi .slt),
    TRef.nullary main_call4.c_0 (constantI S_ 32 512#32),
    TRef.unary main_call4.c_0 main_call4.v2 (broadcastInDim S16x512x1 ![] bcast_S_S16x512x1),
    TRef.binary (.of main_v23 : TRef sig ⟨S16x512x1, .i32⟩) main_call4.v2 main_call4.v3 addi,
    TRef.ternary main_call4.v1 main_call4.v3 (.of main_v23 : TRef sig ⟨S16x512x1, .i32⟩) main_call4.v4 select,
    TRef.nullary main_call4.c_1 (constantI S1 32 511#32),
    TRef.nullary main_call4.c_2 (constantI S_ 32 0#32),
    TRef.unary main_call4.c_2 main_call4.v5 (broadcastInDim S16x512x1 ![] bcast_S_S16x512x1),
    TRef.binary main_call4.v4 main_call4.v5 main_call4.v6 (cmpi .sge),
    TRef.unary main_call4.c_1 main_call4.v7 (broadcastInDim S1x1x1 ![2] bcast_S1_S1x1x1_2),
    TRef.unary main_call4.v7 main_call4.v8 (broadcastInDim S16x512x1 ![0, 1, 2] bcast_S1x1x1_S16x512x1_0_1_2),
    TRef.binary main_call4.v4 main_call4.v8 main_call4.v9 (cmpi .sle),
    TRef.binary main_call4.v6 main_call4.v9 main_call4.v10 andi,
    TRef.nullary main_call4.c_3 (constantI S_ 1 1#1),
    TRef.binary main_call4.v10 main_call4.c_3 main_call4.v11 (fun x v => Host.reduce IntOp.andi x v reducesTo_S16x512x1_S16x512_d2 h_S_),
    TRef.binary (.of main_arg2 : TRef sig ⟨S16x512x8000, .f32⟩) main_call4.v4 main_call4.v12 (fun x i => Host.gather gather_S16x512x8000_S16x512x1_S16x512x8000_2_1_0_0_1_2_118000 x i),
    TRef.unary main_call4.v11 main_call4.v13 (broadcastInDim S16x512x8000 ![0, 1] bcast_S16x512_S16x512x8000_0_1),
    TRef.nullary main_call4.cst (constant S_ .f32 0x7FC00000#32),
    TRef.unary main_call4.cst main_call4.v14 (broadcastInDim S16x512x8000 ![] bcast_S_S16x512x8000),
    TRef.ternary main_call4.v13 main_call4.v12 main_call4.v14 main_call4.v15 select,
    binary main_v24 main_v19 main_v25 mulf,
    nullary main_cst (constant S_ .f32 0x00000000#32),
    binary main_v25 main_cst main_v26 (fun x v => Host.reduceAdd x v reducesTo_S16x512x8000_S16x512_d2 h_S_),
    nullary main_cst_5 (constant S_ .f32 0x00000000#32),
    TRef.unary (.of main_cst_5 : TRef sig ⟨S_, .f32⟩) main_call5.v0 id,
    TRef.unary main_call5.v0 main_call5.v1 (broadcastInDim S16x512 ![] bcast_S_S16x512),
    TRef.ternary (.of main_v8 : TRef sig ⟨S16x512, .i1⟩) (.of main_v26 : TRef sig ⟨S16x512, .f32⟩) main_call5.v1 main_call5.v2 select,
    nullary main_cst_6 (constant S_ .f32 0x00000000#32),
    binary main_v27 main_cst_6 main_v28 (fun x v => Host.reduceAdd x v reducesTo_S16x512_S16_d1 h_S_),
    binary main_v28 main_v22 main_v29 Host.divf ]

/-- The hard label of every frame, @main's %30 (@take_along_axis_2 over `main_call6`): the run index normalised
    over 512 and reshaped to an index column, its range test, the gather of the label rows, the smallest integer
    where out of range. -/
abbrev opsD : List (HloOp τ sig (Elt F)) :=
  [ TRef.nullary main_call6.c (constantI S_ 32 0#32),
    TRef.unary main_call6.c main_call6.v0 (broadcastInDim S16x512 ![] bcast_S_S16x512),
    TRef.binary (.of main_v18 : TRef sig ⟨S16x512, .i32⟩) main_call6.v0 main_call6.v1 (cmpi .slt),
    TRef.nullary main_call6.c_0 (constantI S_ 32 512#32),
    TRef.unary main_call6.c_0 main_call6.v2 (broadcastInDim S16x512 ![] bcast_S_S16x512),
    TRef.binary (.of main_v18 : TRef sig ⟨S16x512, .i32⟩) main_call6.v2 main_call6.v3 addi,
    TRef.ternary main_call6.v1 main_call6.v3 (.of main_v18 : TRef sig ⟨S16x512, .i32⟩) main_call6.v4 select,
    TRef.reshape main_call6.v4 main_call6.v5 rfl shapeCasts_S16x512_S16x512x1,
    TRef.nullary main_call6.c_1 (constantI S1 32 511#32),
    TRef.nullary main_call6.c_2 (constantI S_ 32 0#32),
    TRef.unary main_call6.c_2 main_call6.v6 (broadcastInDim S16x512x1 ![] bcast_S_S16x512x1),
    TRef.binary main_call6.v5 main_call6.v6 main_call6.v7 (cmpi .sge),
    TRef.unary main_call6.c_1 main_call6.v8 (broadcastInDim S1x1x1 ![2] bcast_S1_S1x1x1_2),
    TRef.unary main_call6.v8 main_call6.v9 (broadcastInDim S16x512x1 ![0, 1, 2] bcast_S1x1x1_S16x512x1_0_1_2),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S16x512x1_S16x512_d2 h_S_),
    TRef.binary (.of main_arg1 : TRef sig ⟨S16x512, .i32⟩) main_call6.v5 main_call6.v13 (fun x i => Host.gather gather_S16x512_S16x512x1_S16x512_n_1_0_0_1_2_11 x i),
    TRef.nullary main_call6.c_4 (constantI S_ 32 2147483648#32),
    TRef.unary main_call6.c_4 main_call6.v14 (broadcastInDim S16x512 ![] bcast_S_S16x512),
    TRef.ternary main_call6.v12 main_call6.v13 main_call6.v14 main_call6.v15 select ]

/-- The label's log-probability of every frame, @main's %31 … %33: the hard label as an index column, normalised
    over 8000 and reshaped (@take_along_axis_3 over `main_call7`), its range test, the gather from the log-softmax,
    NaN where out of range, reshaped back to one value a frame. -/
abbrev opsE : List (HloOp τ sig (Elt F)) :=
  [ unary main_v30 main_v31 (broadcastInDim S16x512x1 ![0, 1] bcast_S16x512_S16x512x1_0_1),
    TRef.nullary main_call7.c (constantI S_ 32 0#32),
    TRef.unary main_call7.c main_call7.v0 (broadcastInDim S16x512x1 ![] bcast_S_S16x512x1),
    TRef.binary (.of main_v31 : TRef sig ⟨S16x512x1, .i32⟩) main_call7.v0 main_call7.v1 (cmpi .slt),
    TRef.nullary main_call7.c_0 (constantI S_ 32 8000#32),
    TRef.unary main_call7.c_0 main_call7.v2 (broadcastInDim S16x512x1 ![] bcast_S_S16x512x1),
    TRef.binary (.of main_v31 : TRef sig ⟨S16x512x1, .i32⟩) main_call7.v2 main_call7.v3 addi,
    TRef.ternary main_call7.v1 main_call7.v3 (.of main_v31 : TRef sig ⟨S16x512x1, .i32⟩) main_call7.v4 select,
    TRef.reshape main_call7.v4 main_call7.v5 rfl shapeCasts_S16x512x1_S16x512x1x1,
    TRef.nullary main_call7.c_1 (constantI S1 32 7999#32),
    TRef.nullary main_call7.c_2 (constantI S_ 32 0#32),
    TRef.unary main_call7.c_2 main_call7.v6 (broadcastInDim S16x512x1x1 ![] bcast_S_S16x512x1x1),
    TRef.binary main_call7.v5 main_call7.v6 main_call7.v7 (cmpi .sge),
    TRef.unary main_call7.c_1 main_call7.v8 (broadcastInDim S1x1x1x1 ![3] bcast_S1_S1x1x1x1_3),
    TRef.unary main_call7.v8 main_call7.v9 (broadcastInDim S16x512x1x1 ![0, 1, 2, 3] bcast_S1x1x1x1_S16x512x1x1_0_1_2_3),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S16x512x1x1_S16x512x1_d3 h_S_),
    TRef.binary (.of main_v19 : TRef sig ⟨S16x512x8000, .f32⟩) main_call7.v5 main_call7.v13 (fun x i => Host.gather gather_S16x512x8000_S16x512x1x1_S16x512x1_n_2_01_01_2_3_111 x i),
    TRef.nullary main_call7.cst (constant S_ .f32 0x7FC00000#32),
    TRef.unary main_call7.cst main_call7.v14 (broadcastInDim S16x512x1 ![] bcast_S_S16x512x1),
    TRef.ternary main_call7.v12 main_call7.v13 main_call7.v14 main_call7.v15 select,
    reshape main_v32 main_v33 rfl shapeCasts_S16x512x1_S16x512 ]

/-- The hard loss, @main's %34 … %44: the log-softmax summed over the vocabulary, the label-smoothed frame loss, zero
    at the blank frames (@_where_1 over `main_call8`), summed over the frames and divided by the counts; and the
    first one half. -/
abbrev opsG : List (HloOp τ sig (Elt F)) :=
  [ nullary main_cst_7 (constant S_ .f32 0x00000000#32),
    binary main_v19 main_cst_7 main_v34 (fun x v => Host.reduceAdd x v reducesTo_S16x512x8000_S16x512_d2 h_S_),
    nullary main_cst_8 (constant S_ .f32 0x3F666666#32),
    unary main_cst_8 main_v35 (broadcastInDim S16x512 ![] bcast_S_S16x512),
    binary main_v35 main_v33 main_v36 mulf,
    binary main_v34 main_v33 main_v37 subf,
    nullary main_cst_9 (constant S_ .f32 0x3751BDCE#32),
    unary main_cst_9 main_v38 (broadcastInDim S16x512 ![] bcast_S_S16x512),
    binary main_v38 main_v37 main_v39 mulf,
    binary main_v36 main_v39 main_v40 addf,
    nullary main_cst_10 (constant S_ .f32 0x00000000#32),
    TRef.unary (.of main_cst_10 : TRef sig ⟨S_, .f32⟩) main_call8.v0 id,
    TRef.unary main_call8.v0 main_call8.v1 (broadcastInDim S16x512 ![] bcast_S_S16x512),
    TRef.ternary (.of main_v8 : TRef sig ⟨S16x512, .i1⟩) (.of main_v40 : TRef sig ⟨S16x512, .f32⟩) main_call8.v1 main_call8.v2 select,
    nullary main_cst_11 (constant S_ .f32 0x00000000#32),
    binary main_v41 main_cst_11 main_v42 (fun x v => Host.reduceAdd x v reducesTo_S16x512_S16_d1 h_S_),
    binary main_v42 main_v22 main_v43 Host.divf,
    nullary main_cst_12 (constant S_ .f32 0x3F000000#32),
    unary main_cst_12 main_v44 (broadcastInDim S16 ![] bcast_S_S16) ]

/-- The end, @main's %45 … %51: half the soft loss plus half the hard loss, summed over the batch, divided by 16,
    negated. -/
abbrev opsH : List (HloOp τ sig (Elt F)) :=
  [ binary main_v44 main_v29 main_v45 mulf,
    nullary main_cst_13 (constant S_ .f32 0x3F000000#32),
    unary main_cst_13 main_v46 (broadcastInDim S16 ![] bcast_S_S16),
    binary main_v46 main_v43 main_v47 mulf,
    binary main_v45 main_v47 main_v48 addf,
    nullary main_cst_14 (constant S_ .f32 0x00000000#32),
    binary main_v48 main_cst_14 main_v49 (fun x v => Host.reduceAdd x v reducesTo_S16_S_d0 h_S_),
    nullary main_cst_15 (constant S_ .f32 0x41800000#32),
    binary main_v49 main_cst_15 main_v50 Host.divf,
    unary main_v50 main_v51 Host.negf ]

/-! ## Each operation touches TensorCore references only, and determines its result -/

theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem opsA_sub : (opsA : List (HloOp τ sig (Elt F))).Forall fun op => op.bufs ⊆ tcRefs τ sig :=
  ⟨nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub ..⟩

theorem opsB_sub : (opsB : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., unary_bufs_sub ..⟩

theorem opsC_sub : (opsC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., nullary_bufs_sub .., unary_bufs_sub .., unary_bufs_sub .., ternary_bufs_sub .., nullary_bufs_sub .., binary_bufs_sub .., binary_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsE_sub : (opsE : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

theorem opsG_sub : (opsG : List (HloOp τ sig (Elt F))).Forall fun op => op.bufs ⊆ tcRefs τ sig :=
  ⟨nullary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., binary_bufs_sub .., nullary_bufs_sub .., unary_bufs_sub ..⟩

theorem opsH_sub : (opsH : List (HloOp τ sig (Elt F))).Forall fun op => op.bufs ⊆ tcRefs τ sig :=
  ⟨binary_bufs_sub .., nullary_bufs_sub .., unary_bufs_sub .., binary_bufs_sub .., binary_bufs_sub .., nullary_bufs_sub .., binary_bufs_sub .., nullary_bufs_sub .., binary_bufs_sub .., unary_bufs_sub ..⟩

/-- @main's statements 1 … 60 unfolded, and the whole line. -/
abbrev opsP0 : List (HloOp τ sig (Elt F)) := opsA ++ (opsB ++ (opsC ++ (opsD ++ (opsE ++ opsG))))
abbrev ops : List (HloOp τ sig (Elt F)) := opsP0 ++ opsH

theorem ops_sub : (ops : List (HloOp τ sig (Elt F))).Forall fun op => op.bufs ⊆ tcRefs τ sig :=
  forall_app (forall_app opsA_sub (forall_app opsB_sub (forall_app opsC_sub (forall_app opsD_sub (forall_app opsE_sub opsG_sub))))) opsH_sub

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsG_fresh : ∀ op ∈ (opsG : List (HloOp τ sig (Elt F))), op.fresh = ∅ := by
  intro _ h; (repeat (cases h with | head => rfl | tail _ h => ?_)); exact nomatch h
theorem opsH_fresh : ∀ op ∈ (opsH : List (HloOp τ sig (Elt F))), op.fresh = ∅ := by
  intro _ h; (repeat (cases h with | head => rfl | tail _ h => ?_)); exact nomatch h

theorem mem_app_elim {α : Type} {q : α → Prop} {l₁ l₂ : List α} (h₁ : ∀ x ∈ l₁, q x) (h₂ : ∀ x ∈ l₂, q x) : ∀ x ∈ l₁ ++ l₂, q x :=
  fun x hx => (List.mem_append.1 hx).elim (h₁ x) (h₂ x)

/-- No operation of the line leaves a buffer's contents undetermined. -/
theorem ops_fresh : ∀ op ∈ (ops : List (HloOp τ sig (Elt F))), op.fresh = ∅ :=
  mem_app_elim (mem_app_elim opsA_fresh (mem_app_elim opsB_fresh (mem_app_elim opsC_fresh (mem_app_elim opsD_fresh
    (mem_app_elim opsE_fresh opsG_fresh))))) opsH_fresh

/-! ## @main is that line -/

-- one hundred and forty-six binds re-associated: the rewriting under the chain recurses once per statement
set_option maxRecDepth 16384 in
set_option maxHeartbeats 8000000 in
/-- The first sixty statements: the functions' bodies unfolded at their calls, both sides are one chain of steps once
    sequencing is reassociated. -/
theorem part0_eq (c : Dev nD) : main_part0 (F := F) c = seq opsP0 := by
  simp only [main_part0, fn_where.body, fn_pad.body, fn_cumsum.body, fn_cumsum_0.body, fn_log_softmax.body,
    fn_take_along_axis.body, fn_where_1.body, fn_take_along_axis_2.body, fn_take_along_axis_3.body,
    seq_append, seq, bind_assoc, pure_bind]
  rfl

/-- The last eleven statements are the last ten operations and the return. -/
theorem part1_eq (c : Dev nD) : main_part1 (F := F) c = seq opsH := rfl

theorem main_eq (c : Dev nD) : main (F := F) c = seq ops := by
  rw [show (ops : List (HloOp τ sig (Elt F))) = opsP0 ++ opsH from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The fold read back, stage by stage

Each stage's line is folded from an arbitrary valuation `W`: at the buffers a later stage reads, the fold is the
stage of `Spec` over `W` at the buffers the stage reads, and the buffers a later stage reads that the stage does
not write keep their contents. -/

/-- The fold over two lines run one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Contents moved to a typed reference's buffer and back are the contents. -/
theorem ofBuf_toBuf {T : BufTy} (x : TRef sig T) (v : T.Contents (Elt F)) : x.ofBuf (x.toBuf v) = v := by
  obtain ⟨r, h, _, _⟩ := x; subst h; rfl

section Stages

-- the reductions, the windowed sum, the gathers and the pad are kept folded: the equations compare their operands and
-- never look inside them
attribute [local irreducible] Host.reduce Host.reduceWindow Host.gather pad Host.reduceAdd

variable (W : Valuation τ sig (Elt F))

set_option maxRecDepth 16384
set_option maxHeartbeats 4000000

/-! ### The integer tables -/

theorem A_v8 : after opsA W (main_v8 : DevRef τ sig) = Spec.nonblank (Spec.amask (W (main_arg3 : DevRef τ sig)) (W (main_arg4 : DevRef τ sig))) := by
  after_results_simp <;> (try simp only [ofBuf_toBuf]) <;> rfl
theorem A_v18 : after opsA W (main_v18 : DevRef τ sig) = Spec.runIdx (Spec.amask (W (main_arg3 : DevRef τ sig)) (W (main_arg4 : DevRef τ sig))) := by
  after_results_simp <;> (try simp only [ofBuf_toBuf]) <;> rfl
theorem A_arg0 : after opsA W (main_arg0 : DevRef τ sig) = W (main_arg0 : DevRef τ sig) := by after_results_simp
theorem A_arg1 : after opsA W (main_arg1 : DevRef τ sig) = W (main_arg1 : DevRef τ sig) := by after_results_simp
theorem A_arg2 : after opsA W (main_arg2 : DevRef τ sig) = W (main_arg2 : DevRef τ sig) := by after_results_simp

/-! ### The log-softmax and the counts -/

theorem B_v19 : after opsB W (main_v19 : DevRef τ sig) = Spec.logSoftmax (W (main_arg0 : DevRef τ sig)) := by
  after_results_simp <;> (try simp only [ofBuf_toBuf]) <;> rfl
theorem B_v22 : after opsB W (main_v22 : DevRef τ sig)
    = sitofp .f32 (Host.reduce IntOp.addi (extui 32 (W (main_v8 : DevRef τ sig)) natLt_1_32) (constantI S_ 32 0#32) reducesTo_S16x512_S16_d1 h_S_) := by
  after_results_simp <;> (try simp only [ofBuf_toBuf]) <;> rfl
theorem B_v8 : after opsB W (main_v8 : DevRef τ sig) = W (main_v8 : DevRef τ sig) := by after_results_simp
theorem B_v18 : after opsB W (main_v18 : DevRef τ sig) = W (main_v18 : DevRef τ sig) := by after_results_simp
theorem B_arg1 : after opsB W (main_arg1 : DevRef τ sig) = W (main_arg1 : DevRef τ sig) := by after_results_simp
theorem B_arg2 : after opsB W (main_arg2 : DevRef τ sig) = W (main_arg2 : DevRef τ sig) := by after_results_simp

/-! ### The soft loss -/

theorem C_v29 : after opsC W (main_v29 : DevRef τ sig)
    = Host.divf (Spec.sumFrames (Spec.whereZero (W (main_v8 : DevRef τ sig))
        (Host.reduceAdd (mulf (Spec.softRows (W (main_arg2 : DevRef τ sig)) (W (main_v18 : DevRef τ sig))) (W (main_v19 : DevRef τ sig)))
          (constant S_ .f32 0x00000000#32) reducesTo_S16x512x8000_S16x512_d2 h_S_))) (W (main_v22 : DevRef τ sig)) := by
  after_results_simp <;> (try simp only [ofBuf_toBuf]) <;> rfl
theorem C_v8 : after opsC W (main_v8 : DevRef τ sig) = W (main_v8 : DevRef τ sig) := by after_results_simp
theorem C_v18 : after opsC W (main_v18 : DevRef τ sig) = W (main_v18 : DevRef τ sig) := by after_results_simp
theorem C_v19 : after opsC W (main_v19 : DevRef τ sig) = W (main_v19 : DevRef τ sig) := by after_results_simp
theorem C_v22 : after opsC W (main_v22 : DevRef τ sig) = W (main_v22 : DevRef τ sig) := by after_results_simp
theorem C_arg1 : after opsC W (main_arg1 : DevRef τ sig) = W (main_arg1 : DevRef τ sig) := by after_results_simp

/-! ### The hard labels -/

theorem D_v30 : after opsD W (main_v30 : DevRef τ sig) = Spec.takeYs (W (main_arg1 : DevRef τ sig)) (W (main_v18 : DevRef τ sig)) := by
  after_results_simp <;> (try simp only [ofBuf_toBuf]) <;> rfl
theorem D_v8 : after opsD W (main_v8 : DevRef τ sig) = W (main_v8 : DevRef τ sig) := by after_results_simp
theorem D_v19 : after opsD W (main_v19 : DevRef τ sig) = W (main_v19 : DevRef τ sig) := by after_results_simp
theorem D_v22 : after opsD W (main_v22 : DevRef τ sig) = W (main_v22 : DevRef τ sig) := by after_results_simp
theorem D_v29 : after opsD W (main_v29 : DevRef τ sig) = W (main_v29 : DevRef τ sig) := by after_results_simp

/-! ### The labels' log-probabilities -/

theorem E_v33 : after opsE W (main_v33 : DevRef τ sig) = Spec.labLogp (W (main_v19 : DevRef τ sig)) (W (main_v30 : DevRef τ sig)) := by
  after_results_simp <;> (try simp only [ofBuf_toBuf]) <;> rfl
theorem E_v8 : after opsE W (main_v8 : DevRef τ sig) = W (main_v8 : DevRef τ sig) := by after_results_simp
theorem E_v19 : after opsE W (main_v19 : DevRef τ sig) = W (main_v19 : DevRef τ sig) := by after_results_simp
theorem E_v22 : after opsE W (main_v22 : DevRef τ sig) = W (main_v22 : DevRef τ sig) := by after_results_simp
theorem E_v29 : after opsE W (main_v29 : DevRef τ sig) = W (main_v29 : DevRef τ sig) := by after_results_simp

/-! ### The hard loss -/

theorem G_v43 : after opsG W (main_v43 : DevRef τ sig)
    = Host.divf (Spec.sumFrames (Spec.whereZero (W (main_v8 : DevRef τ sig))
        (addf (mulf (broadcastInDim S16x512 ![] bcast_S_S16x512 (constant S_ .f32 0x3F666666#32)) (W (main_v33 : DevRef τ sig)))
          (mulf (broadcastInDim S16x512 ![] bcast_S_S16x512 (constant S_ .f32 0x3751BDCE#32))
            (subf (Host.reduceAdd (W (main_v19 : DevRef τ sig)) (constant S_ .f32 0x00000000#32) reducesTo_S16x512x8000_S16x512_d2 h_S_)
              (W (main_v33 : DevRef τ sig))))))) (W (main_v22 : DevRef τ sig)) := by
  after_results_simp <;> (try simp only [ofBuf_toBuf]) <;> rfl
theorem G_v44 : after opsG W (main_v44 : DevRef τ sig) = broadcastInDim S16 ![] bcast_S_S16 (constant S_ .f32 0x3F000000#32) := by
  after_results_simp <;> (try simp only [ofBuf_toBuf]) <;> rfl
theorem G_v29 : after opsG W (main_v29 : DevRef τ sig) = W (main_v29 : DevRef τ sig) := by after_results_simp

/-! ### The end -/

theorem H_v51 : after opsH W (main_v51 : DevRef τ sig)
    = Host.negf (Host.divf
        (Host.reduceAdd
          (addf (mulf (W (main_v44 : DevRef τ sig)) (W (main_v29 : DevRef τ sig)))
            (mulf (broadcastInDim S16 ![] bcast_S_S16 (constant S_ .f32 0x3F000000#32)) (W (main_v43 : DevRef τ sig))))
          (constant S_ .f32 0x00000000#32) reducesTo_S16_S_d0 h_S_)
        (constant S_ .f32 0x41800000#32)) := by
  after_results_simp <;> (try simp only [ofBuf_toBuf]) <;> rfl

end Stages

/-- The fold at the result buffer is `Spec.refResult` of the arguments' contents: the stages composed, last to
    first. -/
theorem out_eq (V : Valuation τ sig (Elt F)) :
    after ops V (main_v51 : DevRef τ sig)
      = Spec.refResult (V (main_arg0 : DevRef τ sig)) (V (main_arg1 : DevRef τ sig)) (V (main_arg2 : DevRef τ sig))
          (V (main_arg3 : DevRef τ sig)) (V (main_arg4 : DevRef τ sig)) := by
  simp only [ops, opsP0, after_app]
  rw [H_v51, G_v44, G_v29, G_v43]
  rw [E_v29, E_v8, E_v19, E_v22, E_v33]
  rw [D_v29, D_v8, D_v19, D_v22, D_v30]
  rw [C_v29, C_v8, C_v19, C_v22, C_arg1, C_v18]
  rw [B_v8, B_arg2, B_v18, B_v19, B_v22, B_arg1]
  rw [A_v8, A_v18, A_arg0, A_arg1, A_arg2]
  rfl

/-! The arguments' buffers: no operation writes them. -/

set_option maxRecDepth 65536 in
set_option maxHeartbeats 8000000 in
theorem arg0_eq (V : Valuation τ sig (Elt F)) : after ops V (main_arg0 : DevRef τ sig) = V (main_arg0 : DevRef τ sig) := by
  simp only [ops, opsP0, after_app]
  after_results_simp

set_option maxRecDepth 65536 in
set_option maxHeartbeats 8000000 in
theorem arg1_eq (V : Valuation τ sig (Elt F)) : after ops V (main_arg1 : DevRef τ sig) = V (main_arg1 : DevRef τ sig) := by
  simp only [ops, opsP0, after_app]
  after_results_simp

set_option maxRecDepth 65536 in
set_option maxHeartbeats 8000000 in
theorem arg2_eq (V : Valuation τ sig (Elt F)) : after ops V (main_arg2 : DevRef τ sig) = V (main_arg2 : DevRef τ sig) := by
  simp only [ops, opsP0, after_app]
  after_results_simp

set_option maxRecDepth 65536 in
set_option maxHeartbeats 8000000 in
theorem arg3_eq (V : Valuation τ sig (Elt F)) : after ops V (main_arg3 : DevRef τ sig) = V (main_arg3 : DevRef τ sig) := by
  simp only [ops, opsP0, after_app]
  after_results_simp

set_option maxRecDepth 65536 in
set_option maxHeartbeats 8000000 in
theorem arg4_eq (V : Valuation τ sig (Elt F)) : after ops V (main_arg4 : DevRef τ sig) = V (main_arg4 : DevRef τ sig) := by
  simp only [ops, opsP0, after_app]
  after_results_simp

set_option maxRecDepth 65536 in
set_option maxHeartbeats 8000000 in
theorem arg5_eq (V : Valuation τ sig (Elt F)) : after ops V (main_arg5 : DevRef τ sig) = V (main_arg5 : DevRef τ sig) := by
  simp only [ops, opsP0, after_app]
  after_results_simp

/-! ## The run -/

/-- On every device, for any float values, from any memory with zero counters: every weakly fair execution of @main
    terminates with the result buffer at `Spec.refResult` of the arguments' launch contents and the six arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = Spec.refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v51).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ (fun _ => ops_fresh))

end Cert.ReferenceIdeal.RefRun

end
-- ==== Proof.RowMath.lean ====
/-
  One frame's loss over the extended reals, as functions of the frame's logits row, its soft-label row and its
  hard label.  The reference writes the log-softmax as `(x − m) − log Σ exp(x − m)`, the kernel as
  `x − (log Σ exp(x − m) + m)`, with `m` the row's maximum; on a row of real numbers the two agree.
-/
import Idealize.ShloMosaic.PureOps.Ideal
import Idealize.ShloMosaic.PureOps.Ideal.Laws
import Mathlib.Data.EReal.Operations
import Mathlib.Algebra.BigOperators.Fin
import Mathlib.Order.Fin.Basic
import Mathlib.Logic.Equiv.Fin.Basic
import Mathlib.Data.Finset.Lattice.Fold

noncomputable section

namespace Ctc

open Idealize.ShloMosaic

/-- The vocabulary: 8000 entries a row. -/
abbrev Row := Fin 8000 → EReal

/-- A row's maximum: the fold of `max` from `−∞`. -/
def rmax (x : Row) : EReal := (Finset.univ : Finset (Fin 8000)).fold max (Ideal.ofBits .f32 0xFF800000#32) x

/-- `log Σ exp(x − m)`. -/
def lse (x : Row) : EReal := Ideal.log (∑ u : Fin 8000, Ideal.exp (x u - rmax x))

/-- The log-softmax as the reference writes it. -/
def lp (x : Row) (v : Fin 8000) : EReal := (x v - rmax x) - lse x

/-- The log-softmax as the kernel writes it. -/
def lpK (x : Row) (v : Fin 8000) : EReal := x v - (lse x + rmax x)

/-- The label-smoothing weights, as their f32 words. -/
def c9 : EReal := Ideal.ofBits .f32 0x3F666666#32
def c1 : EReal := Ideal.ofBits .f32 0x3751BDCE#32

/-- The soft loss of one frame: the soft-label row against the log-softmax row. -/
def fSoft (s x : Row) : EReal := ∑ v : Fin 8000, s v * lp x v

/-- The hard loss of one frame with label smoothing. -/
def fHard (x : Row) (y : Fin 8000) : EReal := c9 * lp x y + c1 * ((∑ v : Fin 8000, lp x v) - lp x y)

/-- For real `a`, `b` and any extended real `L`: `a − (L + b) = (a − b) − L`. -/
theorem sub_add_real (a b : ℝ) (L : EReal) : (a : EReal) - (L + (b : EReal)) = ((a : EReal) - (b : EReal)) - L := by
  induction L using EReal.rec with
  | bot => rw [EReal.bot_add, EReal.coe_sub_bot, ← EReal.coe_sub, EReal.coe_sub_bot]
  | top => rw [EReal.top_add_coe, EReal.sub_top, EReal.sub_top]
  | coe r => rw [← EReal.coe_add, ← EReal.coe_sub, ← EReal.coe_sub, ← EReal.coe_sub]; congr 1; ring

/-- The maximum of a row of reals is a real. -/
theorem negInf_eq_bot : Ideal.ofBits .f32 0xFF800000#32 = (⊥ : EReal) := by
  simp [Ideal.ofBits, Ideal.ieee]

/-- The fold of `max` from `−∞` over a finite set is the set's supremum. -/
theorem rmax_eq_sup (x : Row) : rmax x = (Finset.univ : Finset (Fin 8000)).sup x := by
  unfold rmax
  rw [negInf_eq_bot]
  rfl

theorem rmax_real (x : Row) (hx : ∀ v, ∃ r : ℝ, x v = (r : EReal)) : ∃ r : ℝ, rmax x = (r : EReal) := by
  rw [rmax_eq_sup]
  obtain ⟨i, _, hi⟩ := Finset.exists_mem_eq_sup (Finset.univ : Finset (Fin 8000)) ⟨0, Finset.mem_univ _⟩ x
  rw [hi]
  exact hx i

/-- On a row of reals the kernel's log-softmax is the reference's. -/
theorem lpK_eq_lp (x : Row) (hx : ∀ v, ∃ r : ℝ, x v = (r : EReal)) (v : Fin 8000) : lpK x v = lp x v := by
  obtain ⟨a, ha⟩ := hx v
  obtain ⟨b, hb⟩ := rmax_real x hx
  unfold lpK lp
  rw [ha, hb]
  exact sub_add_real a b (lse x)

/-- A one-hot combination of rows is the selected row: `Σₛ [k = s]·f s = f k` over the extended reals. -/
theorem onehot_sum {n : ℕ} (k : Fin n) (f : Fin n → EReal) :
    (∑ s : Fin n, (if k = s then (1 : EReal) else 0) * f s) = f k := by
  rw [Finset.sum_eq_single k]
  · simp
  · intro s _ hs; simp [Ne.symm hs]
  · intro h; exact absurd (Finset.mem_univ k) h

/-- A masked sum picks its one entry: `Σᵥ [v = y] ? f v : 0 = f y`. -/
theorem pick_sum {n : ℕ} (y : Fin n) (f : Fin n → EReal) :
    (∑ v : Fin n, (if v = y then f v else 0)) = f y := by
  rw [Finset.sum_eq_single y]
  · simp
  · intro s _ hs; simp [hs]
  · intro h; exact absurd (Finset.mem_univ y) h

/-- Eight tiles of 64 frames are the 512 frames: `Σⱼ Σᵣ f (64 j + r) = Σₜ f t`. -/
theorem tiles_sum (f : Fin 512 → EReal) :
    (∑ j : Fin 8, ∑ r : Fin 64, f ⟨64 * j.val + r.val, by have := j.isLt; have := r.isLt; omega⟩) = ∑ t : Fin 512, f t := by
  rw [← Fintype.sum_prod_type']
  exact Fintype.sum_equiv (finProdFinEquiv (m := 8) (n := 64)) _ (fun t : Fin (8 * 64) => f t) (fun p => by
    congr 1; apply Fin.ext; simp [finProdFinEquiv]; omega)

end Ctc

end
-- ==== Proof.Contrib.lean ====
/-
  One frame's contribution to the two per-entry sums, as the kernel computes it and as the reference states it.
  The kernel gathers the frame's soft-label row by a one-hot row times the soft-label rows, reads the label's
  log-probability through an equality mask, and weights the frame by its non-blank flag as a number (1 or 0);
  the reference indexes the row and the label directly and keeps the frame under `where`.  On a logits row of
  real numbers the two agree, frame by frame.
-/
import proofs.«426884_j75548474737115_1_alg».proof.Proof.RowMath

noncomputable section

namespace Ctc

/-- The soft contribution: a one-hot combination of the soft-label rows against the kernel's log-softmax,
    times the flag, is the reference's frame loss under `where`. -/
theorem soft_contrib (S : Fin 512 → Row) (x : Row) (hx : ∀ v, ∃ r : ℝ, x v = (r : EReal)) (k : Fin 512)
    (oh : Fin 512 → EReal) (hoh : ∀ s, oh s = if k = s then 1 else 0) (w : EReal) (nb : Prop) [Decidable nb]
    (hw : w = if nb then 1 else 0) :
    (∑ v : Fin 8000, (∑ s : Fin 512, oh s * S s v) * lpK x v) * w = if nb then fSoft (S k) x else 0 := by
  have h1 : ∀ v : Fin 8000, (∑ s : Fin 512, oh s * S s v) = S k v := fun v => by
    simp only [hoh]; exact onehot_sum k fun s => S s v
  simp only [h1, lpK_eq_lp x hx]
  rw [hw]
  by_cases h : nb
  · simp only [if_pos h, mul_one]; rfl
  · simp only [if_neg h, mul_zero]

/-- The hard contribution: the label's log-probability read through an equality mask, in the smoothing formula,
    times the flag, is the reference's frame loss under `where`. -/
theorem hard_contrib (x : Row) (hx : ∀ v, ∃ r : ℝ, x v = (r : EReal)) (y : Fin 8000)
    (sel : Fin 8000 → Prop) [DecidablePred sel] (hsel : ∀ v, sel v ↔ v = y) (w : EReal) (nb : Prop) [Decidable nb]
    (hw : w = if nb then 1 else 0) :
    (c9 * (∑ v : Fin 8000, if sel v then lpK x v else 0)
        + c1 * ((∑ v : Fin 8000, lpK x v) - ∑ v : Fin 8000, if sel v then lpK x v else 0)) * w
      = if nb then fHard x y else 0 := by
  have h1 : (∑ v : Fin 8000, if sel v then lpK x v else 0) = lp x y := by
    have : ∀ v : Fin 8000, (if sel v then lpK x v else 0) = if v = y then lp x v else 0 := fun v => by
      by_cases hv : v = y
      · rw [if_pos ((hsel v).mpr hv), if_pos hv, lpK_eq_lp x hx]
      · rw [if_neg (fun h => hv ((hsel v).mp h)), if_neg hv]
    simp only [this]; exact pick_sum y (lp x)
  rw [h1]
  simp only [lpK_eq_lp x hx]
  rw [hw]
  by_cases h : nb
  · simp only [if_pos h, mul_one]; rfl
  · simp only [if_neg h, mul_zero]

end Ctc

end
-- ==== Proof.Small.lean ====
/-
  Three small facts the bridge between the kernel's accumulators and the reference's sums uses: when a 32-bit
  word is the word of an index, how a [16, 1, 1] array reads as a [16] vector, and what a running total holds.
-/
import Idealize.ShloMosaic.Lib.ValueIdx
import Idealize.ShloMosaic.Lib.ValueLayout
import Idealize.ShloMosaic.Lib.Pipeline.Value
import Mathlib.Algebra.BigOperators.Fin
import Mathlib.Data.EReal.Basic

noncomputable section
namespace Ctc
open Idealize.ShloMosaic Idealize.ShloMosaic.ValueIdx

/-- A 32-bit word below `n` equals the word of an index below `n` exactly when it is that index. -/
theorem word_eq_iff {n : ℕ} (hn : n ≤ 2 ^ 32) (x : BitVec 32) (hx : x.toNat < n) (s : Fin n) :
    x = BitVec.ofNat 32 s.val ↔ (⟨x.toNat, hx⟩ : Fin n) = s := by
  constructor
  · intro h
    apply Fin.ext
    show x.toNat = s.val
    rw [h, BitVec.toNat_ofNat]
    exact Nat.mod_eq_of_lt (lt_of_lt_of_le s.isLt hn)
  · intro h
    have : x.toNat = s.val := congrArg Fin.val h
    rw [← this, BitVec.ofNat_toNat, BitVec.setWidth_eq]

/-- A `[16, 1, 1]` array cast to `[16]` reads, at `b`, the operand at `(b, 0, 0)`. -/
theorem shapeCast_a11_a_apply {α : Type} (x : (⟨3, ![16, 1, 1]⟩ : Shape).Idx → α)
    (h : (⟨3, ![16, 1, 1]⟩ : Shape).ShapeCasts ⟨1, ![16]⟩) (b : Fin 16) :
    shapeCast ⟨1, ![16]⟩ x h (ix1 b) = x (ix3 b (0 : Fin 1) (0 : Fin 1)) :=
  shapeCast_apply x h _ _ (by
    rw [Shape.rowMajor_val_three, Shape.rowMajor_val_one]
    show (b.val * 1 + 0) * 1 + 0 = b.val
    omega)

/-- A running total that starts at `0 + c 0` and adds `c (j + 1)` at each further step holds, after step `j`,
    the sum of `c` up to `j`. -/
theorem running_total (a c : ℕ → EReal) (h0 : a 0 = 0 + c 0) (hs : ∀ j, a (j + 1) = a j + c (j + 1)) (j : ℕ) :
    a j = ∑ k ∈ Finset.range (j + 1), c k := by
  induction j with
  | zero => rw [h0, zero_add, Finset.sum_range_one]
  | succ j ih => rw [hs, ih, Finset.sum_range_succ _ (j + 1)]

end Ctc
end
-- ==== Proof.IntFacts.lean ====
/-
  Integer facts about the index tables both programs share, and the precondition read back.

  * The run index of a frame is a count of run starts (each 0 or 1) over a window of 512 frames, minus one,
    floored at zero: as a natural number it lies below 512.
  * With an index table whose entries lie in [0, 511], the index normalisation (a negative index counts from the end) is the identity, the range
    test is true everywhere, and the batched gather along the frame axis reads, at (b, t), the label row of
    batch entry b at the table's entry.
  * The precondition is a conjunction of four "all" tests: both float arrays are finite everywhere, and every
    label lies in [0, 8000).
-/
import proofs.«426884_j75548474737115_1_alg».proof.Proof.Spec
import proofs.«426884_j75548474737115_1_alg».proof.Pre_finite_inputs
import proofs.«426884_j75548474737115_1_alg».proof.Proof.Gen.Pre_finite_inputs
import Idealize.ShloMosaic.Lib.ValueIdx
import Idealize.ShloMosaic.Lib.StableHlo.Predicate
import Idealize.ShloMosaic.Lib.ReduceAll
import Idealize.ShloMosaic.Lib.Pipeline.Value
import Idealize.ShloMosaic.PureOps

noncomputable section

namespace Cert.ReferenceIdeal.IntFacts

open Idealize.ShloMosaic Idealize.ShloMosaic.ValueIdx Cert.ReferenceIdeal Cert.ReferenceIdeal.Gen

/-! ## The run index lies below 512 -/

/-- Word addition does not exceed the sum of the values. -/
theorem toNat_addi_le (a v : BitVec 32) : (IntOp.addi a v).toNat ≤ a.toNat + v.toNat := by
  show (a + v).toNat ≤ _
  rw [BitVec.toNat_add]
  exact Nat.mod_le _ _

/-- A left fold of word addition over entries each at most 1 grows by at most the length of the list. -/
theorem toNat_foldl_addi_le {ι : Type} (g : ι → BitVec 32) (hg : ∀ n, (g n).toNat ≤ 1) :
    ∀ (l : List ι) (acc : BitVec 32), (l.foldl (fun r n => IntOp.addi r (g n)) acc).toNat ≤ acc.toNat + l.length
  | [], acc => by simp
  | a :: l, acc => by
    rw [List.foldl_cons, List.length_cons]
    have h1 := toNat_foldl_addi_le g hg l (IntOp.addi acc (g a))
    have h2 := toNat_addi_le acc (g a)
    have h3 := hg a
    omega

/-- The cumulative sum of a table of zeros and ones is at most the window's 512 positions. -/
theorem cumsum_le (x : IVec S16x512 32) (hx : ∀ i, (x i).toNat ≤ 1) (j : S16x512.Idx) :
    (Spec.cumsum x j).toNat ≤ 512 := by
  unfold Spec.cumsum Host.reduceWindow
  refine (toNat_foldl_addi_le _ ?_ _ _).trans ?_
  · intro n
    dsimp only
    split
    · exact hx _
    · exact Nat.zero_le 1
  · rw [List.length_finRange]
    show 0 + (⟨2, ![1, 512]⟩ : Shape).numel ≤ 512
    simp [Shape.numel, Fin.prod_univ_succ]

/-- Every entry of the run-start table is 0 or 1: it is a widened bit. -/
theorem runStart_le (a : IVec S16x512 32) (i : S16x512.Idx) : (Spec.runStart a i).toNat ≤ 1 := by
  unfold Spec.runStart
  rw [extui_apply, StableHlo.Predicate.toNat_setWidth_bit]
  split <;> omega

/-- A count `s` of at most 512, minus one and floored at zero (signed), lies below 512: at `s = 0` the difference is
    the all-ones word, negative, and the floor gives 0; otherwise it is `s − 1`. -/
theorem maxsi_sub_one_lt (s : BitVec 32) (hs : s.toNat ≤ 512) :
    (IntOp.maxsi (IntOp.subi s 1#32) 0#32).toNat < 512 := by
  unfold IntOp.maxsi IntOp.subi
  split
  · rename_i hc
    by_cases h0 : s.toNat = 0
    · have hz : s = 0#32 := BitVec.eq_of_toNat_eq (by simpa using h0)
      subst hz
      exact absurd hc (by decide)
    · rw [BitVec.toNat_sub]
      simp only [BitVec.toNat_ofNat]
      omega
  · decide

/-- The run index of every frame lies in `[0, 511]`. -/
theorem runIdx_lt (a : IVec S16x512 32) (i : S16x512.Idx) : (Spec.runIdx a i).toNat < 512 :=
  maxsi_sub_one_lt _ (cumsum_le (Spec.runStart a) (runStart_le a) i)

/-! ## The label row read at the run index -/

/-- With an index in `[0, 511]` the index normalisation is the identity: the index is not negative. -/
theorem wrap512_eq (lm : IVec S16x512 32) (hlm : ∀ i, (lm i).toNat < 512) : Spec.wrap512 lm = lm := by
  funext i
  unfold Spec.wrap512
  rw [select_apply]
  have hc : ¬ (cmpi .slt lm (broadcastInDim S16x512 ![] bcast_S_S16x512 (constantI S_ 32 0#32)) i = 1#1) := by
    show ¬ (IntOp.cmpi .slt (lm i) 0#32 = 1#1)
    have := hlm i
    rw [StableHlo.Predicate.slt_iff_toNat (by omega) (by decide)]
    simp
  rw [eq_zero_of_ne_one hc, select_zero]

/-- The start-index column at `(b, t, 0)` is the index table at `(b, t)`: a reshape that appends a unit axis. -/
theorem idxCol_apply (lm : IVec S16x512 32) (hlm : ∀ i, (lm i).toNat < 512) (b : Fin 16) (t : Fin 512) (u : Fin 1) :
    Spec.idxCol lm (ix3 b t u) = lm (ix2 b t) := by
  unfold Spec.idxCol
  rw [wrap512_eq lm hlm]
  refine shapeCast_apply _ _ _ (ix2 b t) ?_
  rw [Shape.rowMajor_val_two, Shape.rowMajor_val_three]
  show b.val * 512 + t.val = (b.val * 512 + t.val) * 1 + u.val
  have := u.isLt
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- With an index table in `[0, 511]` the range test holds at every frame. -/
theorem inb512_eq_one (lm : IVec S16x512 32) (hlm : ∀ i, (lm i).toNat < 512) (j : S16x512.Idx) :
    Spec.inb512 (Spec.idxCol lm) j = 1#1 := by
  unfold Spec.inb512
  rw [Host.reduce_eq_foldl]
  refine foldl_andi_one _ (fun k => ?_) _
  obtain ⟨b, t, u, rfl⟩ : ∃ (b : Fin 16) (t : Fin 512) (u : Fin 1), k = ix3 b t u := ⟨k 0, k 1, k 2, eq_ix3 k⟩
  show IntOp.andi (IntOp.cmpi .sge (Spec.idxCol lm (ix3 b t u)) 0#32) (IntOp.cmpi .sle (Spec.idxCol lm (ix3 b t u)) 511#32) = 1#1
  have := hlm (ix2 b t)
  rw [idxCol_apply lm hlm, IntOp.andi_eq_one, StableHlo.Predicate.sge_iff_toNat (by omega) (by decide),
    StableHlo.Predicate.sle_iff_toNat (by omega) (by decide)]
  constructor
  · exact Nat.zero_le _
  · show (lm (ix2 b t)).toNat ≤ 511
    omega

/-- The label gather's dimension numbers: batch axis 0 of the operand paired with axis 0 of the indices, axis 1 collapsed
    and start-indexed, the index vector on axis 2, no offset axes. -/
local notation "G" => gather_S16x512_S16x512x1_S16x512_n_1_0_0_1_2_11

/-- The batched gather along the frame axis reads, at `(b, t)`, the operand at `(b, k)` where `k` is the start index
    at `(b, t, 0)` read signed and clamped into `[0, 511]`. On axis 0 the start and the offset are zero and the batch
    coordinate is `b`; on axis 1 the batch coordinate and the offset are zero and the start is the clamped index. -/
theorem gather_apply (ys : IVec S16x512 32) (idx : IVec S16x512x1 32) (b : Fin 16) (t k : Fin 512)
    (hk : k.val = min (idx (ix3 b t 0)).toInt.toNat 511) :
    Host.gather G ys idx (ix2 b t) = ys (ix2 b k) := by
  unfold Host.gather
  congr 1
  funext a
  refine Fin.ext ?_
  match a with
  | ⟨0, _⟩ =>
    show GatherDims.start G (ix2 b t) idx 0 + GatherDims.batchCoord G (ix2 b t) 0 + GatherDims.offCoord G (ix2 b t) 0 = b.val
    have hb : (0 : Fin 2) ∈ GatherDims.operandBatchingDims G := List.mem_singleton.mpr rfl
    rw [GatherDims.start_batching _ _ _ _ hb,
      GatherDims.offCoord_eq_zero _ _ _ (fun h => ((GatherDims.mem_sKept _ _).mp h).2 hb), Nat.zero_add, Nat.add_zero]
    rfl
  | ⟨1, _⟩ =>
    show GatherDims.start G (ix2 b t) idx 1 + GatherDims.batchCoord G (ix2 b t) 1 + GatherDims.offCoord G (ix2 b t) 1 = k.val
    have hc : (1 : Fin 2) ∈ GatherDims.collapsedSliceDims G := List.mem_singleton.mpr rfl
    have hm : (1 : Fin 2) ∈ GatherDims.startIndexMap G := List.mem_singleton.mpr rfl
    have hnb : (1 : Fin 2) ∉ GatherDims.operandBatchingDims G := by decide
    rw [GatherDims.batchCoord_eq_zero _ _ _ hnb,
      GatherDims.offCoord_eq_zero _ _ _ (fun h => ((GatherDims.mem_sKept _ _).mp h).1 hc), Nat.add_zero]
    unfold GatherDims.start
    rw [dif_pos hm]
    have hsi : GatherDims.siIdx G (ix2 b t)
        ⟨List.idxOf (1 : Fin 2) (GatherDims.startIndexMap G), List.idxOf_lt_length_iff.2 hm⟩ = ix3 b t 0 := by
      funext c; refine Fin.ext ?_
      match c with
      | ⟨0, _⟩ => rfl
      | ⟨1, _⟩ => rfl
      | ⟨2, _⟩ => rfl
    rw [hsi, hk]
    rfl

/-- The hard label of every frame, with an index table in `[0, 511]`: the label row of the frame's batch entry at the
    table's entry. -/
theorem takeYs_eq (ys lm : IVec S16x512 32) (hlm : ∀ i, (lm i).toNat < 512) (b : Fin 16) (t : Fin 512) :
    Spec.takeYs ys lm (ix2 b t) = ys (ix2 b ⟨(lm (ix2 b t)).toNat, hlm _⟩) := by
  unfold Spec.takeYs
  rw [select_apply, inb512_eq_one lm hlm, select_one]
  refine gather_apply ys _ b t ⟨(lm (ix2 b t)).toNat, hlm _⟩ ?_
  have := hlm (ix2 b t)
  show (lm (ix2 b t)).toNat = min (Spec.idxCol lm (ix3 b t 0)).toInt.toNat 511
  rw [idxCol_apply lm hlm, StableHlo.Predicate.toInt_eq_toNat_of_lt (by omega), Int.toNat_natCast]
  omega

/-! ## The precondition read back -/

/-- The scalar shape has one index. -/
instance : Subsingleton (⟨0, ![]⟩ : Shape).Idx := ⟨fun a b => funext fun d => d.elim0⟩

/-- An extended real whose absolute value `max x (−x)` lies below `+∞` is a real number: at `±∞` the absolute value is
    `+∞`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have h' : BitVec.ofBool (decide (max x (-x) < (⊤ : EReal))) = 1#1 := h
  rw [StableHlo.Predicate.ofBool_eq_one_iff, decide_eq_true_eq] at h'
  induction x using EReal.rec with
  | bot => simp at h'
  | coe r => exact ⟨r, rfl⟩
  | top => simp at h'

/-- A word that is at least 0 and below 8000 as a signed integer is below 8000 as a natural number. -/
theorem toNat_lt_of_sge_slt (y : BitVec 32) (h1 : IntOp.cmpi .sge y 0#32 = 1#1) (h2 : IntOp.cmpi .slt y 8000#32 = 1#1) :
    y.toNat < 8000 := by
  unfold IntOp.cmpi at h1 h2
  rw [StableHlo.Predicate.ofBool_eq_one_iff] at h1 h2
  simp only [BitVec.sle, BitVec.slt, decide_eq_true_eq] at h1 h2
  have e0 : (0#32 : BitVec 32).toInt = 0 := by decide
  have e8 : (8000#32 : BitVec 32).toInt = 8000 := by decide
  rw [e0] at h1
  rw [e8] at h2
  rw [BitVec.toInt_eq_toNat_cond] at h1 h2
  have := y.isLt
  split at h1 <;> simp_all <;> omega

/-- The precondition, a conjunction of four "all" tests, read back: both float arrays hold real numbers everywhere and
    every label lies in `[0, 8000)`. -/
theorem pre_decode (L : FVec Ideal Cert.Pre_finite_inputs.S16x512x8000 .f32) (ys : IVec Cert.Pre_finite_inputs.S16x512 32)
    (Sf : FVec Ideal Cert.Pre_finite_inputs.S16x512x8000 .f32) (al : IVec Cert.Pre_finite_inputs.S16x512 32)
    (xl yl : IVec Cert.Pre_finite_inputs.S16 32)
    (h : Cert.Pre_finite_inputs.fn (F := Ideal) L ys Sf al xl yl = fun _ => 1#1) :
    (∀ i, ∃ r : ℝ, L i = (r : EReal)) ∧ (∀ i, ∃ r : ℝ, Sf i = (r : EReal)) ∧ (∀ i, (ys i).toNat < 8000) := by
  have h0 := congrFun h ix0
  dsimp only [Cert.Pre_finite_inputs.fn, Cert.Pre_finite_inputs.fn_part1] at h0
  obtain ⟨h12, h15⟩ := IntOp.andi_eq_one.mp h0
  obtain ⟨h8, h11⟩ := IntOp.andi_eq_one.mp h12
  obtain ⟨h3, h7⟩ := IntOp.andi_eq_one.mp h8
  refine ⟨fun i => ?_, fun i => ?_, fun i => ?_⟩
  · exact real_of_abs_lt_inf (L i) (Host.reduce_andi_all _ _ _ _ ix0 h3 i)
  · exact real_of_abs_lt_inf (Sf i) (Host.reduce_andi_all _ _ _ _ ix0 h7 i)
  · exact toNat_lt_of_sge_slt (ys i) (Host.reduce_andi_all _ _ _ _ ix0 h11 i) (Host.reduce_andi_all _ _ _ _ ix0 h15 i)

end Cert.ReferenceIdeal.IntFacts

end
-- ==== Proof.RefRead.lean ====
/-
  The reference's per-entry sums read at an index, over the extended reals: the log-softmax of a logits row, the
  soft-label row of a frame at its run index, the label's log-probability, and the two sums over the frames of a
  batch entry, each as a function of the rows involved.
-/
import proofs.«426884_j75548474737115_1_alg».proof.Proof.Spec
import proofs.«426884_j75548474737115_1_alg».proof.Proof.RowMath
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefRead

open Idealize.ShloMosaic Idealize.ShloMosaic.ValueIdx Cert.ReferenceIdeal Cert.ReferenceIdeal.Gen

/-- The row of a [16, 512, 8000] array at batch entry `b` and frame `t`. -/
def rowOf (X : FVec Ideal S16x512x8000 .f32) (b : Fin 16) (t : Fin 512) : Ctc.Row := fun v => X (ix3 b t v)

/-! ## Broadcasts read at an index -/

/-- A [16, 512, 1] column broadcast along the vocabulary reads, at `(b, t, v)`, the column at `(b, t, 0)`. -/
theorem bcast_col_apply {α : Type} (h : S16x512x1.BroadcastsInDim S16x512x8000 (![0, 1, 2] : Fin 3 → Fin S16x512x8000.rank))
    (Y : S16x512x1.Idx → α) (b : Fin 16) (t : Fin 512) (v : Fin 8000) :
    broadcastInDim S16x512x8000 ![0, 1, 2] h Y (ix3 b t v) = Y (ix3 b t (0 : Fin 1)) :=
  broadcastInDim_apply _ h Y _ _ fun a => match a with
    | ⟨0, _⟩ => rfl
    | ⟨1, _⟩ => rfl
    | ⟨2, _⟩ => rfl

/-- A [16, 512] array as a [16, 512, 1] column reads, at `(b, t, z)`, the array at `(b, t)`. -/
theorem bcast_unit_apply {α : Type} (h : S16x512.BroadcastsInDim S16x512x1 (![0, 1] : Fin 2 → Fin S16x512x1.rank))
    (y : S16x512.Idx → α) (b : Fin 16) (t : Fin 512) (z : Fin 1) :
    broadcastInDim S16x512x1 ![0, 1] h y (ix3 b t z) = y (ix2 b t) :=
  broadcastInDim_apply _ h y _ _ fun a => match a with
    | ⟨0, _⟩ => rfl
    | ⟨1, _⟩ => rfl

/-- A [16, 512] array broadcast along the vocabulary reads, at `(b, t, v)`, the array at `(b, t)`. -/
theorem bcast_frame_apply {α : Type} (h : S16x512.BroadcastsInDim S16x512x8000 (![0, 1] : Fin 2 → Fin S16x512x8000.rank))
    (y : S16x512.Idx → α) (b : Fin 16) (t : Fin 512) (v : Fin 8000) :
    broadcastInDim S16x512x8000 ![0, 1] h y (ix3 b t v) = y (ix2 b t) :=
  broadcastInDim_apply _ h y _ _ fun a => match a with
    | ⟨0, _⟩ => rfl
    | ⟨1, _⟩ => rfl

/-! ## Reductions along the vocabulary and along the frames -/

/-- The index `(b, t)` with the vocabulary coordinate `k` inserted is `(b, t, k)`. -/
theorem lift_row (h : S16x512x8000.Reduces [2] S16x512) (b : Fin 16) (t : Fin 512) (k : Fin 8000) :
    h.lift (ix2 b t) k = ix3 b t k := by
  funext a
  match a with
  | ⟨0, _⟩ => exact Fin.ext rfl
  | ⟨1, _⟩ => exact Fin.ext rfl
  | ⟨2, _⟩ => exact Fin.ext rfl

/-- The index `b` with the frame coordinate `t` inserted is `(b, t)`. -/
theorem lift_frame (h : S16x512.Reduces [1] S16) (b : Fin 16) (t : Fin 512) :
    h.lift (ix1 b) t = ix2 b t := by
  funext a
  match a with
  | ⟨0, _⟩ => exact Fin.ext rfl
  | ⟨1, _⟩ => exact Fin.ext rfl

/-- The host's sum along the vocabulary from the zero word, at `(b, t)`: the sum of the row. -/
theorem reduceAdd_row (X : FVec Ideal S16x512x8000 .f32) (h' : S16x512x8000.ReducesTo [2] S16x512) (hu : 0 < S_.numel)
    (b : Fin 16) (t : Fin 512) :
    Host.reduceAdd (F := Ideal) X (constant S_ .f32 0x00000000#32) h' hu (ix2 b t) = ∑ k : Fin 8000, X (ix3 b t k) := by
  have h : S16x512x8000.Reduces [2] S16x512 := by decide
  refine (Ideal.hostReduceAdd_single h' h X _ (ix2 b t)).trans ?_
  show Ideal.ofBits .f32 0x00000000#32 + _ = _
  rw [Ideal.ofBits_zero_f32, zero_add]
  exact Finset.sum_congr rfl fun k _ => congrArg X (lift_row h b t k)

/-- The host's sum along the frames from the zero word, at `b`: the sum over the entry's frames. -/
theorem reduceAdd_frames (X : FVec Ideal S16x512 .f32) (h' : S16x512.ReducesTo [1] S16) (hu : 0 < S_.numel) (b : Fin 16) :
    Host.reduceAdd (F := Ideal) X (constant S_ .f32 0x00000000#32) h' hu (ix1 b) = ∑ t : Fin 512, X (ix2 b t) := by
  have h : S16x512.Reduces [1] S16 := by decide
  refine (Ideal.hostReduceAdd_single h' h X _ (ix1 b)).trans ?_
  show Ideal.ofBits .f32 0x00000000#32 + _ = _
  rw [Ideal.ofBits_zero_f32, zero_add]
  exact Finset.sum_congr rfl fun t _ => congrArg X (lift_frame h b t)

/-- The word of minus infinity reads the bottom element. -/
theorem ofBits_neg_inf : Ideal.ofBits .f32 0xFF800000#32 = ⊥ := by simp [Ideal.ofBits, Ideal.ieee]

/-- The host's maximum along the vocabulary from the word of minus infinity, at `(b, t)`: the row's maximum. -/
theorem reduceMax_row (X : FVec Ideal S16x512x8000 .f32) (h' : S16x512x8000.ReducesTo [2] S16x512) (hu : 0 < S_.numel)
    (b : Fin 16) (t : Fin 512) :
    Host.reduce FloatOps.maximumf X (constant (F := Ideal) S_ .f32 0xFF800000#32) h' hu (ix2 b t) = Ctc.rmax (rowOf X b t) := by
  have h : S16x512x8000.Reduces [2] S16x512 := by decide
  refine (Host.reduce_eq_fold_single FloatOps.maximumf X _ h' h hu (ix2 b t)).trans ?_
  have hrow : X ∘ h.lift (ix2 b t) = rowOf X b t := funext fun k => congrArg X (lift_row h b t k)
  rw [hrow]
  rfl

/-! ## The log-softmax -/

/-- The host's logarithm and exponential at an index are the extended reals'. -/
theorem hostLog_apply {s : Shape} (Y : FVec Ideal s .f32) (j : s.Idx) : Host.log Y j = Ideal.log (Y j) := rfl
theorem hostExp_apply {s : Shape} (Y : FVec Ideal s .f32) (j : s.Idx) : Host.exp Y j = Ideal.exp (Y j) := rfl

theorem rowMax_apply (L : FVec Ideal S16x512x8000 .f32) (b : Fin 16) (t : Fin 512) :
    Spec.rowMax (F := Ideal) L (ix2 b t) = Ctc.rmax (rowOf L b t) := by
  unfold Spec.rowMax
  rw [maximumf_apply, reduceMax_row]
  show max (Ideal.ofBits .f32 0xFF800000#32) _ = _
  rw [ofBits_neg_inf]
  exact max_eq_right bot_le

theorem centred_apply (L : FVec Ideal S16x512x8000 .f32) (b : Fin 16) (t : Fin 512) (v : Fin 8000) :
    Spec.centred (F := Ideal) L (ix3 b t v) = L (ix3 b t v) - Ctc.rmax (rowOf L b t) := by
  unfold Spec.centred
  rw [subf_apply, bcast_col_apply, bcast_unit_apply, rowMax_apply]

/-- The reference's log-softmax at `(b, t, v)` is the row's log-softmax at `v`. -/
theorem logSoftmax_apply (L : FVec Ideal S16x512x8000 .f32) (b : Fin 16) (t : Fin 512) (v : Fin 8000) :
    Spec.logSoftmax (F := Ideal) L (ix3 b t v) = Ctc.lp (rowOf L b t) v := by
  unfold Spec.logSoftmax
  rw [subf_apply, bcast_col_apply, centred_apply]
  rw [hostLog_apply, bcast_unit_apply, reduceAdd_row]
  have hs : (∑ k : Fin 8000, Host.exp (Spec.centred (F := Ideal) L) (ix3 b t k))
      = ∑ u : Fin 8000, Ideal.exp (rowOf L b t u - Ctc.rmax (rowOf L b t)) :=
    Finset.sum_congr rfl fun k _ => by rw [hostExp_apply, centred_apply]; rfl
  rw [hs]
  rfl

/-! ## Integer operations at an index, and small words -/

theorem cmpi_apply {s : Shape} {w : Nat} (p : CmpIPredicate) (x y : IVec s w) (i : s.Idx) :
    cmpi p x y i = IntOp.cmpi p (x i) (y i) := rfl
theorem addi_apply {s : Shape} {w : Nat} (x y : IVec s w) (i : s.Idx) : addi x y i = IntOp.addi (x i) (y i) := rfl
theorem andi_apply {s : Shape} {w : Nat} (x y : IVec s w) (i : s.Idx) : andi x y i = IntOp.andi (x i) (y i) := rfl

/-- A scalar word broadcast to any shape reads the word everywhere. -/
theorem bcast_word_apply {t : Shape} {w : Nat} (h : S_.BroadcastsInDim t (![] : Fin 0 → Fin t.rank)) (c : BitVec w) (j : t.Idx) :
    broadcastInDim t ![] h (constantI S_ w c) j = c := rfl

/-- A scalar float constant broadcast to any shape reads the constant's value everywhere. -/
theorem bcast_const_apply {t : Shape} (h : S_.BroadcastsInDim t (![] : Fin 0 → Fin t.rank)) (c : BitVec 32) (j : t.Idx) :
    broadcastInDim t ![] h (constant (F := Ideal) S_ .f32 c) j = Ideal.ofBits .f32 c := rfl

/-- A word below 2³¹ is not below zero as a signed number … -/
theorem slt_zero_of_small {x : BitVec 32} (hx : x.toNat < 2 ^ 31) : IntOp.cmpi .slt x 0#32 = 0#1 :=
  eq_zero_of_ne_one fun h => by
    have h2 := (StableHlo.Predicate.slt_iff_toNat (a := x) (b := 0#32) hx (by decide)).mp h
    have h0 : (0#32 : BitVec 32).toNat = 0 := by decide
    omega

/-- … and is at least zero. -/
theorem sge_zero_of_small {x : BitVec 32} (hx : x.toNat < 2 ^ 31) : IntOp.cmpi .sge x 0#32 = 1#1 :=
  (StableHlo.Predicate.sge_iff_toNat (a := x) (b := 0#32) hx (by decide)).mpr (by
    have h0 : (0#32 : BitVec 32).toNat = 0 := by decide
    omega)

/-- A word below 512 is at most 511 as a signed number. -/
theorem sle_511 {x : BitVec 32} (hx : x.toNat < 512) : IntOp.cmpi .sle x 511#32 = 1#1 :=
  (StableHlo.Predicate.sle_iff_toNat (a := x) (b := 511#32) (by omega) (by decide)).mpr (by
    have h0 : (511#32 : BitVec 32).toNat = 511 := by decide
    omega)

/-- A word below 8000 is at most 7999 as a signed number. -/
theorem sle_7999 {x : BitVec 32} (hx : x.toNat < 8000) : IntOp.cmpi .sle x 7999#32 = 1#1 :=
  (StableHlo.Predicate.sle_iff_toNat (a := x) (b := 7999#32) (by omega) (by decide)).mpr (by
    have h0 : (7999#32 : BitVec 32).toNat = 7999 := by decide
    omega)

/-- A word below 2³¹ read as a signed number is its value. -/
theorem toInt_toNat_of_small {x : BitVec 32} (hx : x.toNat < 2 ^ 31) : x.toInt.toNat = x.toNat := by
  rw [StableHlo.Predicate.toInt_eq_toNat_of_lt hx]; exact Int.toNat_natCast _

instance : Std.Commutative (IntOp.andi : BitVec 1 → BitVec 1 → BitVec 1) := ⟨fun x y => BitVec.and_comm x y⟩
instance : Std.Associative (IntOp.andi : BitVec 1 → BitVec 1 → BitVec 1) := ⟨fun x y z => BitVec.and_assoc x y z⟩

/-- A fold over a one-element index set is one application. -/
theorem fold_fin1 {α : Type} (op : α → α → α) [Std.Commutative op] [Std.Associative op] (b : α) (f : Fin 1 → α) :
    (Finset.univ : Finset (Fin 1)).fold op b f = op (f 0) b := by
  rw [show (Finset.univ : Finset (Fin 1)) = {0} from rfl]
  exact Finset.fold_singleton

/-! ## The soft-label row of a frame -/

/-- The run index as the gather's start-index column, in range: the run index itself. -/
theorem softIdx_apply (lm : IVec S16x512 32) (b : Fin 16) (t : Fin 512) (z : Fin 1) (hl : (lm (ix2 b t)).toNat < 512) :
    Spec.softIdx lm (ix3 b t z) = lm (ix2 b t) := by
  unfold Spec.softIdx
  rw [select_apply, cmpi_apply, bcast_unit_apply, bcast_word_apply, slt_zero_of_small (by omega), select_zero]

/-- The index `(b, t)` with the unit coordinate inserted is `(b, t, k)`. -/
theorem lift_unit (h : S16x512x1.Reduces [2] S16x512) (b : Fin 16) (t : Fin 512) (k : Fin 1) :
    h.lift (ix2 b t) k = ix3 b t k := by
  funext a
  match a with
  | ⟨0, _⟩ => exact Fin.ext rfl
  | ⟨1, _⟩ => exact Fin.ext rfl
  | ⟨2, _⟩ => exact Fin.ext rfl

/-- An index column below 512 at `(b, t)` passes the range test. -/
theorem inb512_apply (i5 : IVec S16x512x1 32) (b : Fin 16) (t : Fin 512) (hl : (i5 (ix3 b t (0 : Fin 1))).toNat < 512) :
    Spec.inb512 i5 (ix2 b t) = 1#1 := by
  unfold Spec.inb512
  have h : S16x512x1.Reduces [2] S16x512 := by decide
  refine (Host.reduce_eq_fold_single IntOp.andi _ _ _ h _ (ix2 b t)).trans ?_
  refine (fold_fin1 IntOp.andi _ _).trans ?_
  show IntOp.andi (IntOp.andi (IntOp.cmpi .sge (i5 (h.lift (ix2 b t) (0 : Fin 1))) 0#32)
    (IntOp.cmpi .sle (i5 (h.lift (ix2 b t) (0 : Fin 1))) 511#32)) 1#1 = 1#1
  rw [lift_unit h b t 0, sge_zero_of_small (by omega), sle_511 hl]
  rfl

/-- The soft-label gather at `(b, t, v)`, its start index in range: the operand at `(b, start, v)`. -/
theorem gatherSoft_apply {α : Type} (X : S16x512x8000.Idx → α) (idx : IVec S16x512x1 32) (b : Fin 16) (t : Fin 512) (v : Fin 8000)
    (n : Fin 512) (hn : (idx (ix3 b t (0 : Fin 1))).toNat = n.val) :
    Host.gather gather_S16x512x8000_S16x512x1_S16x512x8000_2_1_0_0_1_2_118000 X idx (ix3 b t v) = X (ix3 b n v) := by
  unfold Host.gather
  congr 1
  funext a
  refine Fin.ext ?_
  match a with
  | ⟨0, _⟩ =>
    show GatherDims.start gather_S16x512x8000_S16x512x1_S16x512x8000_2_1_0_0_1_2_118000 (ix3 b t v) idx 0
      + GatherDims.batchCoord gather_S16x512x8000_S16x512x1_S16x512x8000_2_1_0_0_1_2_118000 (ix3 b t v) 0
      + GatherDims.offCoord gather_S16x512x8000_S16x512x1_S16x512x8000_2_1_0_0_1_2_118000 (ix3 b t v) 0 = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 3) ∈ GatherDims.operandBatchingDims gather_S16x512x8000_S16x512x1_S16x512x8000_2_1_0_0_1_2_118000
      from List.mem_singleton.mpr rfl)]
    rfl
  | ⟨1, _⟩ =>
    show GatherDims.start gather_S16x512x8000_S16x512x1_S16x512x8000_2_1_0_0_1_2_118000 (ix3 b t v) idx 1
      + GatherDims.batchCoord gather_S16x512x8000_S16x512x1_S16x512x8000_2_1_0_0_1_2_118000 (ix3 b t v) 1
      + GatherDims.offCoord gather_S16x512x8000_S16x512x1_S16x512x8000_2_1_0_0_1_2_118000 (ix3 b t v) 1 = n.val
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 3) ∈ GatherDims.startIndexMap gather_S16x512x8000_S16x512x1_S16x512x8000_2_1_0_0_1_2_118000
      from List.mem_singleton.mpr rfl)]
    have hsi : GatherDims.siIdx gather_S16x512x8000_S16x512x1_S16x512x8000_2_1_0_0_1_2_118000 (ix3 b t v)
        ⟨List.idxOf (1 : Fin 3) (GatherDims.startIndexMap gather_S16x512x8000_S16x512x1_S16x512x8000_2_1_0_0_1_2_118000),
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi, toInt_toNat_of_small (by omega), hn]
    show min n.val (512 - 1) = n.val
    have := n.isLt
    omega
  | ⟨2, _⟩ =>
    show GatherDims.start gather_S16x512x8000_S16x512x1_S16x512x8000_2_1_0_0_1_2_118000 (ix3 b t v) idx 2
      + GatherDims.batchCoord gather_S16x512x8000_S16x512x1_S16x512x8000_2_1_0_0_1_2_118000 (ix3 b t v) 2
      + GatherDims.offCoord gather_S16x512x8000_S16x512x1_S16x512x8000_2_1_0_0_1_2_118000 (ix3 b t v) 2 = v.val
    rw [GatherDims.batchCoord_eq_zero _ _ _ (by decide)]
    unfold GatherDims.start
    rw [dif_neg (show (2 : Fin 3) ∉ GatherDims.startIndexMap gather_S16x512x8000_S16x512x1_S16x512x8000_2_1_0_0_1_2_118000 from by decide),
      Nat.zero_add]
    unfold GatherDims.offCoord
    rw [dif_pos (show (2 : Fin 3) ∈ GatherDims.sKept gather_S16x512x8000_S16x512x1_S16x512x8000_2_1_0_0_1_2_118000 from
      (GatherDims.mem_sKept _ _).mpr ⟨by decide, by decide⟩)]
    rfl

/-- The soft-label row of frame `(b, t)`, its run index in range: the soft labels' row at that run index. -/
theorem softRows_apply (Sf : FVec Ideal S16x512x8000 .f32) (lm : IVec S16x512 32) (b : Fin 16) (t : Fin 512) (v : Fin 8000)
    (hl : (lm (ix2 b t)).toNat < 512) :
    Spec.softRows (F := Ideal) Sf lm (ix3 b t v) = Sf (ix3 b ⟨(lm (ix2 b t)).toNat, hl⟩ v) := by
  have hs : Spec.softIdx lm (ix3 b t (0 : Fin 1)) = lm (ix2 b t) := softIdx_apply lm b t 0 hl
  unfold Spec.softRows
  rw [select_apply, bcast_frame_apply, inb512_apply _ b t (by rw [hs]; exact hl), select_one]
  exact gatherSoft_apply Sf (Spec.softIdx lm) b t v ⟨(lm (ix2 b t)).toNat, hl⟩ (by rw [hs])

/-- The soft loss of frame `(b, t)`: the soft-label row at the run index against the frame's log-softmax row. -/
theorem frameSoft_apply (L Sf : FVec Ideal S16x512x8000 .f32) (lm : IVec S16x512 32) (b : Fin 16) (t : Fin 512)
    (hl : (lm (ix2 b t)).toNat < 512) :
    Spec.frameSoft (F := Ideal) L Sf lm (ix2 b t) = Ctc.fSoft (rowOf Sf b ⟨(lm (ix2 b t)).toNat, hl⟩) (rowOf L b t) := by
  unfold Spec.frameSoft
  rw [reduceAdd_row]
  unfold Ctc.fSoft
  exact Finset.sum_congr rfl fun v _ => by rw [mulf_apply, softRows_apply Sf lm b t v hl, logSoftmax_apply]; rfl

/-- The selection against the scalar zero at `(b, t)`: the value on a set bit, zero elsewhere. -/
theorem whereZero_apply (nb : IVec S16x512 1) (V : FVec Ideal S16x512 .f32) (b : Fin 16) (t : Fin 512) :
    Spec.whereZero (F := Ideal) nb V (ix2 b t) = if nb (ix2 b t) = 1#1 then V (ix2 b t) else 0 := by
  unfold Spec.whereZero
  rw [select_apply]
  show Scalar.select (nb (ix2 b t)) (V (ix2 b t)) (Ideal.ofBits .f32 0x00000000#32) = _
  rw [Ideal.ofBits_zero_f32]
  rfl

/-- The reference's soft sum of batch entry `b`: over its non-blank frames, the soft-label row at the frame's run
    index against the frame's log-softmax row. -/
theorem refSumSoft_apply (L Sf : FVec Ideal S16x512x8000 .f32) (a : IVec S16x512 32)
    (hlm : ∀ i, (Spec.runIdx a i).toNat < 512) (b : Fin 16) :
    Spec.refSumSoft (F := Ideal) L Sf a (ix1 b)
      = ∑ t : Fin 512, (if Spec.nonblank a (ix2 b t) = 1#1
          then Ctc.fSoft (rowOf Sf b ⟨(Spec.runIdx a (ix2 b t)).toNat, hlm _⟩) (rowOf L b t) else 0) := by
  unfold Spec.refSumSoft Spec.sumFrames
  rw [reduceAdd_frames]
  exact Finset.sum_congr rfl fun t _ => by
    rw [whereZero_apply, frameSoft_apply L Sf (Spec.runIdx a) b t (hlm _)]

/-! ## The label's log-probability and the hard loss -/

/-- The label as the gather's start-index column, in range: the label itself. -/
theorem labIdx_apply (yt : IVec S16x512 32) (b : Fin 16) (t : Fin 512) (z w : Fin 1) (hy : (yt (ix2 b t)).toNat < 8000) :
    Spec.labIdx yt (ix4 b t z w) = yt (ix2 b t) := by
  unfold Spec.labIdx
  rw [shapeCast_apply _ _ (ix4 b t z w) (ix3 b t (0 : Fin 1)) (by
    rw [Shape.rowMajor_val_three, Shape.rowMajor_val_four]
    show (b.val * 512 + t.val) * 1 + 0 = ((b.val * 512 + t.val) * 1 + z.val) * 1 + w.val
    have := z.isLt; have := w.isLt; omega)]
  rw [select_apply, cmpi_apply, bcast_unit_apply, bcast_word_apply, slt_zero_of_small (by omega), select_zero]

/-- The index `(b, t, z)` with the unit coordinate inserted is `(b, t, z, k)`. -/
theorem lift_unit4 (h : S16x512x1x1.Reduces [3] S16x512x1) (b : Fin 16) (t : Fin 512) (z k : Fin 1) :
    h.lift (ix3 b t z) k = ix4 b t z k := by
  funext a
  match a with
  | ⟨0, _⟩ => exact Fin.ext rfl
  | ⟨1, _⟩ => exact Fin.ext rfl
  | ⟨2, _⟩ => exact Fin.ext rfl
  | ⟨3, _⟩ => exact Fin.ext rfl

/-- An index column below 8000 at `(b, t)` passes the range test. -/
theorem inb8000_apply (i5 : IVec S16x512x1x1 32) (b : Fin 16) (t : Fin 512) (z : Fin 1)
    (hl : (i5 (ix4 b t z (0 : Fin 1))).toNat < 8000) : Spec.inb8000 i5 (ix3 b t z) = 1#1 := by
  unfold Spec.inb8000
  have h : S16x512x1x1.Reduces [3] S16x512x1 := by decide
  refine (Host.reduce_eq_fold_single IntOp.andi _ _ _ h _ (ix3 b t z)).trans ?_
  refine (fold_fin1 IntOp.andi _ _).trans ?_
  show IntOp.andi (IntOp.andi (IntOp.cmpi .sge (i5 (h.lift (ix3 b t z) (0 : Fin 1))) 0#32)
    (IntOp.cmpi .sle (i5 (h.lift (ix3 b t z) (0 : Fin 1))) 7999#32)) 1#1 = 1#1
  rw [lift_unit4 h b t z 0, sge_zero_of_small (by omega), sle_7999 hl]
  rfl

/-- The log-probability gather at `(b, t)`, its start index in range: the operand at `(b, t, start)`. -/
theorem gatherLab_apply {α : Type} (X : S16x512x8000.Idx → α) (idx : IVec S16x512x1x1 32) (b : Fin 16) (t : Fin 512) (z : Fin 1)
    (n : Fin 8000) (hn : (idx (ix4 b t z (0 : Fin 1))).toNat = n.val) :
    Host.gather gather_S16x512x8000_S16x512x1x1_S16x512x1_n_2_01_01_2_3_111 X idx (ix3 b t z) = X (ix3 b t n) := by
  unfold Host.gather
  congr 1
  funext a
  refine Fin.ext ?_
  match a with
  | ⟨0, _⟩ =>
    show GatherDims.start gather_S16x512x8000_S16x512x1x1_S16x512x1_n_2_01_01_2_3_111 (ix3 b t z) idx 0
      + GatherDims.batchCoord gather_S16x512x8000_S16x512x1x1_S16x512x1_n_2_01_01_2_3_111 (ix3 b t z) 0
      + GatherDims.offCoord gather_S16x512x8000_S16x512x1x1_S16x512x1_n_2_01_01_2_3_111 (ix3 b t z) 0 = b.val
    rw [GatherDims.start_batching _ _ _ _ (show (0 : Fin 3) ∈ GatherDims.operandBatchingDims gather_S16x512x8000_S16x512x1x1_S16x512x1_n_2_01_01_2_3_111 from by decide),
      GatherDims.offCoord_eq_zero _ _ _ (fun h => ((GatherDims.mem_sKept _ _).mp h).2
        (show (0 : Fin 3) ∈ GatherDims.operandBatchingDims gather_S16x512x8000_S16x512x1x1_S16x512x1_n_2_01_01_2_3_111 from by decide)),
      Nat.zero_add, Nat.add_zero]
    unfold GatherDims.batchCoord
    rw [dif_pos (show (0 : Fin 3) ∈ GatherDims.operandBatchingDims gather_S16x512x8000_S16x512x1x1_S16x512x1_n_2_01_01_2_3_111 from by decide)]
    rfl
  | ⟨1, _⟩ =>
    show GatherDims.start gather_S16x512x8000_S16x512x1x1_S16x512x1_n_2_01_01_2_3_111 (ix3 b t z) idx 1
      + GatherDims.batchCoord gather_S16x512x8000_S16x512x1x1_S16x512x1_n_2_01_01_2_3_111 (ix3 b t z) 1
      + GatherDims.offCoord gather_S16x512x8000_S16x512x1x1_S16x512x1_n_2_01_01_2_3_111 (ix3 b t z) 1 = t.val
    rw [GatherDims.start_batching _ _ _ _ (show (1 : Fin 3) ∈ GatherDims.operandBatchingDims gather_S16x512x8000_S16x512x1x1_S16x512x1_n_2_01_01_2_3_111 from by decide),
      GatherDims.offCoord_eq_zero _ _ _ (fun h => ((GatherDims.mem_sKept _ _).mp h).2
        (show (1 : Fin 3) ∈ GatherDims.operandBatchingDims gather_S16x512x8000_S16x512x1x1_S16x512x1_n_2_01_01_2_3_111 from by decide)),
      Nat.zero_add, Nat.add_zero]
    unfold GatherDims.batchCoord
    rw [dif_pos (show (1 : Fin 3) ∈ GatherDims.operandBatchingDims gather_S16x512x8000_S16x512x1x1_S16x512x1_n_2_01_01_2_3_111 from by decide)]
    rfl
  | ⟨2, _⟩ =>
    show GatherDims.start gather_S16x512x8000_S16x512x1x1_S16x512x1_n_2_01_01_2_3_111 (ix3 b t z) idx 2
      + GatherDims.batchCoord gather_S16x512x8000_S16x512x1x1_S16x512x1_n_2_01_01_2_3_111 (ix3 b t z) 2
      + GatherDims.offCoord gather_S16x512x8000_S16x512x1x1_S16x512x1_n_2_01_01_2_3_111 (ix3 b t z) 2 = n.val
    rw [GatherDims.batchCoord_eq_zero _ _ _ (show (2 : Fin 3) ∉ GatherDims.operandBatchingDims gather_S16x512x8000_S16x512x1x1_S16x512x1_n_2_01_01_2_3_111 from by decide),
      GatherDims.offCoord_eq_zero _ _ _ (fun h => ((GatherDims.mem_sKept _ _).mp h).1
        (show (2 : Fin 3) ∈ GatherDims.collapsedSliceDims gather_S16x512x8000_S16x512x1x1_S16x512x1_n_2_01_01_2_3_111 from by decide)),
      Nat.add_zero]
    unfold GatherDims.start
    rw [dif_pos (show (2 : Fin 3) ∈ GatherDims.startIndexMap gather_S16x512x8000_S16x512x1x1_S16x512x1_n_2_01_01_2_3_111 from List.mem_singleton.mpr rfl)]
    have hsi : GatherDims.siIdx gather_S16x512x8000_S16x512x1x1_S16x512x1_n_2_01_01_2_3_111 (ix3 b t z)
        ⟨List.idxOf (2 : Fin 3) (GatherDims.startIndexMap gather_S16x512x8000_S16x512x1x1_S16x512x1_n_2_01_01_2_3_111),
          List.idxOf_lt_length_iff.2 (List.mem_singleton.mpr rfl)⟩ = ix4 b t z (0 : Fin 1) := by
      funext c; refine Fin.ext ?_
      match c with
      | ⟨0, _⟩ => rfl
      | ⟨1, _⟩ => rfl
      | ⟨2, _⟩ => rfl
      | ⟨3, _⟩ => rfl
    rw [hsi, toInt_toNat_of_small (by omega), hn]
    show min n.val (8000 - 1) = n.val
    have := n.isLt
    omega

/-- The label's log-probability at frame `(b, t)`, the label in range: the log-probability array at `(b, t, label)`. -/
theorem labLogp_apply (lp : FVec Ideal S16x512x8000 .f32) (yt : IVec S16x512 32) (b : Fin 16) (t : Fin 512)
    (hy : (yt (ix2 b t)).toNat < 8000) :
    Spec.labLogp (F := Ideal) lp yt (ix2 b t) = lp (ix3 b t ⟨(yt (ix2 b t)).toNat, hy⟩) := by
  have hs : Spec.labIdx yt (ix4 b t (0 : Fin 1) (0 : Fin 1)) = yt (ix2 b t) := labIdx_apply yt b t 0 0 hy
  unfold Spec.labLogp
  rw [shapeCast_apply _ _ (ix2 b t) (ix3 b t (0 : Fin 1)) (by
    rw [Shape.rowMajor_val_three, Shape.rowMajor_val_two]
    show (b.val * 512 + t.val) * 1 + 0 = b.val * 512 + t.val
    omega)]
  rw [select_apply, inb8000_apply _ b t 0 (by rw [hs]; exact hy), select_one]
  exact gatherLab_apply lp (Spec.labIdx yt) b t 0 ⟨(yt (ix2 b t)).toNat, hy⟩ (by rw [hs])

/-- The sum of the log-softmax over the vocabulary at frame `(b, t)`. -/
theorem sumLogSoftmax_apply (L : FVec Ideal S16x512x8000 .f32) (h' : S16x512x8000.ReducesTo [2] S16x512) (hu : 0 < S_.numel)
    (b : Fin 16) (t : Fin 512) :
    Host.reduceAdd (F := Ideal) (Spec.logSoftmax (F := Ideal) L) (constant S_ .f32 0x00000000#32) h' hu (ix2 b t)
      = ∑ v : Fin 8000, Ctc.lp (rowOf L b t) v := by
  rw [reduceAdd_row]
  exact Finset.sum_congr rfl fun k _ => logSoftmax_apply L b t k

/-- The hard loss of frame `(b, t)`, its label in range. -/
theorem frameHard_apply (L : FVec Ideal S16x512x8000 .f32) (yt : IVec S16x512 32) (b : Fin 16) (t : Fin 512)
    (hy : (yt (ix2 b t)).toNat < 8000) :
    Spec.frameHard (F := Ideal) L yt (ix2 b t) = Ctc.fHard (rowOf L b t) ⟨(yt (ix2 b t)).toNat, hy⟩ := by
  unfold Spec.frameHard
  rw [addf_apply, mulf_apply, mulf_apply, subf_apply, sumLogSoftmax_apply, labLogp_apply _ yt b t hy, logSoftmax_apply,
    bcast_const_apply, bcast_const_apply]
  rfl

/-- The reference's hard sum of batch entry `b`: over its non-blank frames, the label-smoothed loss of the frame's
    log-softmax row at the frame's hard label. -/
theorem refSumHard_apply (L : FVec Ideal S16x512x8000 .f32) (ys a : IVec S16x512 32)
    (hy : ∀ i, (Spec.takeYs ys (Spec.runIdx a) i).toNat < 8000) (b : Fin 16) :
    Spec.refSumHard (F := Ideal) L ys a (ix1 b)
      = ∑ t : Fin 512, (if Spec.nonblank a (ix2 b t) = 1#1
          then Ctc.fHard (rowOf L b t) ⟨(Spec.takeYs ys (Spec.runIdx a) (ix2 b t)).toNat, hy _⟩ else 0) := by
  unfold Spec.refSumHard Spec.sumFrames
  rw [reduceAdd_frames]
  exact Finset.sum_congr rfl fun t _ => by
    rw [whereZero_apply, frameHard_apply L (Spec.takeYs ys (Spec.runIdx a)) b t (hy _)]

end Cert.ReferenceIdeal.RefRead

end
-- ==== Proof.KPay.lean ====
/-
  The kernel body's pure values, read at an index, over the extended reals.
  One tile of the kernel holds 64 frames.  From the tile's logits block the body takes, row by row, the
  log-softmax in the form `x − (log Σ exp(x − m) + m)` with `m` the row's maximum; against it the soft-label row
  (the alignment row times the soft-label block, a contraction over 512 positions), the entry at the frame's label
  (a sum masked to the vocabulary position equal to the label) and the plain sum over the vocabulary.  The three
  columns of 64 per-frame numbers are then weighted by the frames' weights, summed over the 64 frames, and added
  to the two one-element accumulators, which the first tile resets to zero.
  Each value below is stated at explicit coordinates: `(r, v)` for frame `r` and vocabulary position `v`.
-/
import proofs.«426884_j75548474737115_1_alg».proof.Proof.Gen.KernelIdeal.Skeleton
import proofs.«426884_j75548474737115_1_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KPay

open Idealize.ShloMosaic Idealize.ShloMosaic.ValueIdx Cert.KernelIdeal Cert.KernelIdeal.Gen

/-- Row `r` of the kernel's logits block, as a row of 8000 extended reals. -/
def rowK (x0 : Vec Ideal S1x64x8000 .f32) (r : Fin 64) : Ctc.Row := fun v => x0 (ix3 0 r v)

/-! ## Layout operations on a column `[a, 1]`, read at an index -/

/-- A vector `[a]` cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the vocabulary, kept as a column -/

/-- Over result row `r`, the source index with vocabulary coordinate `u` inserted is `(r, u)`. -/
theorem lift_row (h : S64x8000.Reduces [1] S64) (r : Fin 64) (u : Fin 8000) : h.lift (ix1 r) u = ix2 r u := by
  funext a; apply Fin.ext
  match a with
  | ⟨0, _⟩ => rfl
  | ⟨1, _⟩ => rfl

/-- The sum along the vocabulary, cast to a column, is at row `r` the sum of the row's entries. -/
theorem rowsum_col (y : FVec Ideal S64x8000 .f32) (h : S64x8000.Reduces [1] S64) (hφ : FKind.Formats .f32)
    (hacc : (0x00000000#32 : BitVec 32) = 0x00000000#32) (hc : S64.ShapeCasts S64x1) (r : Fin 64) (u : Fin 1) :
    shapeCast S64x1 (multiReduction (F := Ideal) .add [1] S64 y 0x00000000#32 h hφ hacc) hc (ix2 r u)
      = ∑ w : Fin 8000, y (ix2 r w) := by
  refine (shapeCast_a_a1_apply _ hc r u).trans ?_
  refine (Ideal.multiReduction_add_single y _ h hφ hacc (ix1 r)).trans ?_
  exact Finset.sum_congr rfl fun w _ => congrArg y (lift_row h r w)

/-- The maximum along the vocabulary, cast to a column, is at row `r` the row's maximum. -/
theorem rowmax_col (y : FVec Ideal S64x8000 .f32) (h : S64x8000.Reduces [1] S64) (hφ : FKind.Formats .f32)
    (hacc : (0xFF800000#32 : BitVec 32) = 0xFF800000#32) (hc : S64.ShapeCasts S64x1) (r : Fin 64) (u : Fin 1) :
    shapeCast S64x1 (multiReduction (F := Ideal) .maximumf [1] S64 y 0xFF800000#32 h hφ hacc) hc (ix2 r u)
      = Ctc.rmax fun w => y (ix2 r w) := by
  refine (shapeCast_a_a1_apply _ hc r u).trans ?_
  refine (Ideal.multiReduction_maximumf_single y _ h hφ hacc (ix1 r)).trans ?_
  have e : (y ∘ h.lift (ix1 r)) = fun w : Fin 8000 => y (ix2 r w) := funext fun w => congrArg y (lift_row h r w)
  exact congrArg (fun f => Finset.fold max (Ideal.ofBits .f32 0xFF800000#32) f (Finset.univ : Finset (Fin 8000))) e

/-- The rows of the logits block with its leading unit axis dropped are the rows of the block. -/
theorem row_cast (x0 : Vec Ideal S1x64x8000 .f32) (h : S1x64x8000.ShapeCasts S64x8000) (r : Fin 64) :
    (fun w : Fin 8000 => shapeCast S64x8000 x0 h (ix2 r w)) = rowK x0 r :=
  funext fun w => shapeCast_1ab_ab_apply x0 h r w

/-! ## The log-probabilities -/

/-- The kernel's log-probabilities at `(r, v)`: the logit minus the sum of the row's log-sum-exp and maximum. -/
theorem pay6_apply (x0 : Vec Ideal S1x64x8000 .f32) (r : Fin 64) (v : Fin 8000) :
    k0_pay6 (F := Ideal) x0 (ix2 r v) = Ctc.lpK (rowK x0 r) v := by
  unfold k0_pay6 Ctc.lpK
  rw [subf_apply]
  refine congrArg₂ (fun a b : EReal => a - b) (shapeCast_1ab_ab_apply x0 _ r v) ?_
  refine (broadcastTo_a1_ab_apply _ _ r v).trans ?_
  rw [addf_apply]
  have hm := rowmax_col (shapeCast S64x8000 x0 shapeCasts_S1x64x8000_S64x8000) reduces_S64x8000_S64 (.inl rfl) rfl
    shapeCasts_S64_S64x1 r 0
  rw [row_cast] at hm
  refine congrArg₂ (fun a b : EReal => a + b) ?_ hm
  unfold Ctc.lse
  show Ideal.log _ = _
  refine congrArg Ideal.log ?_
  refine (rowsum_col _ _ _ _ _ r 0).trans ?_
  refine Finset.sum_congr rfl fun w _ => ?_
  show Ideal.exp _ = _
  refine congrArg Ideal.exp ?_
  rw [subf_apply]
  refine congrArg₂ (fun a b : EReal => a - b) (shapeCast_1ab_ab_apply x0 _ r w) ?_
  exact (broadcastTo_a1_ab_apply _ _ r w).trans hm

/-- The sum of a row's log-probabilities. -/
theorem pay9_apply (x0 : Vec Ideal S1x64x8000 .f32) (r : Fin 64) :
    k0_pay9 (F := Ideal) x0 (ix2 r 0) = ∑ v : Fin 8000, Ctc.lpK (rowK x0 r) v := by
  unfold k0_pay9
  refine (rowsum_col _ _ _ _ _ r 0).trans ?_
  exact Finset.sum_congr rfl fun v _ => pay6_apply x0 r v

/-! ## The label's log-probability -/

/-- A select on the equality of two words is the `if` on it. -/
theorem select_cmpi_eq (a b : BitVec 32) (X Z : EReal) :
    Scalar.select (IntOp.cmpi .eq a b) X Z = if a = b then X else Z := by
  have hc : IntOp.cmpi .eq a b = BitVec.ofBool (a == b) := rfl
  unfold Scalar.select
  rw [hc]
  by_cases h : a = b
  · subst h; simp
  · have hb : (a == b) = false := by simpa using h
    rw [hb, if_neg h]
    exact if_neg (by decide)

/-- The row's log-probabilities, kept where the vocabulary entry is the row's label and zero elsewhere, summed. -/
theorem pay8_apply (x0 : Vec Ideal S1x64x8000 .f32) (x3 : Vec Ideal S1x64x1 .i32) (r : Fin 64) :
    k0_pay8 (F := Ideal) x0 x3 (ix2 r 0)
      = ∑ v : Fin 8000, (if BitVec.ofNat 32 v.val = x3 (ix3 0 r 0) then Ctc.lpK (rowK x0 r) v else 0) := by
  unfold k0_pay8
  refine (rowsum_col _ _ _ _ _ r 0).trans ?_
  refine Finset.sum_congr rfl fun v _ => ?_
  rw [select_apply, pay6_apply, broadcast_apply]
  have hi : iota .tc S64x8000 32 [1] iota_S64x8000_d1_w32 (ix2 r v) = BitVec.ofNat 32 v.val :=
    iota_single_apply .tc S64x8000 32 1 _ (ix2 r v)
  have hb : broadcastTo S64x8000 (shapeCast S64x1 x3 shapeCasts_S1x64x1_S64x1) broadcasts_S64x1_S64x8000 (ix2 r v)
      = x3 (ix3 0 r 0) :=
    (broadcastTo_a1_ab_apply _ _ r v).trans (shapeCast_1ab_ab_apply x3 _ r 0)
  show Scalar.select (IntOp.cmpi .eq _ _) _ (Ideal.ofBits .f32 0x00000000#32) = _
  rw [hi, hb, Ideal.ofBits_zero_f32]
  exact select_cmpi_eq _ _ _ _

/-! ## The soft labels: the product of the alignment block with the soft-label block -/

/-- The contraction's left index at `(i, q)`: the output's row on axis 0 … -/
theorem lhs_mm_0 (i : S64x8000.Idx) (q : dot_S64x512_S512x8000_S64x8000_1_0_0_1_n_n.contr.Idx) :
    (dot_S64x512_S512x8000_S64x8000_1_0_0_1_n_n.lhsIdx i q 0).val = (i 0).val := by
  unfold DotDims.lhsIdx
  rw [dif_neg (show ¬(0 : Fin S64x512.rank) ∈ dot_S64x512_S512x8000_S64x8000_1_0_0_1_n_n.lhsBatch by decide),
    dif_pos (show (0 : Fin S64x512.rank) ∈ dot_S64x512_S512x8000_S64x8000_1_0_0_1_n_n.lhsNonContracting by decide)]
  rfl
/-- … and the contracted coordinate on axis 1. -/
theorem lhs_mm_1 (i : S64x8000.Idx) (q : dot_S64x512_S512x8000_S64x8000_1_0_0_1_n_n.contr.Idx) :
    (dot_S64x512_S512x8000_S64x8000_1_0_0_1_n_n.lhsIdx i q 1).val = (q ⟨0, by decide⟩).val :=
  dot_S64x512_S512x8000_S64x8000_1_0_0_1_n_n.lhsIdx_val_of_single rfl i q
/-- The right index: the contracted coordinate on axis 0 … -/
theorem rhs_mm_0 (i : S64x8000.Idx) (q : dot_S64x512_S512x8000_S64x8000_1_0_0_1_n_n.contr.Idx) :
    (dot_S64x512_S512x8000_S64x8000_1_0_0_1_n_n.rhsIdx i q 0).val = (q ⟨0, by decide⟩).val :=
  dot_S64x512_S512x8000_S64x8000_1_0_0_1_n_n.rhsIdx_val_of_single rfl i q
/-- … and the output's column on axis 1. -/
theorem rhs_mm_1 (i : S64x8000.Idx) (q : dot_S64x512_S512x8000_S64x8000_1_0_0_1_n_n.contr.Idx) :
    (dot_S64x512_S512x8000_S64x8000_1_0_0_1_n_n.rhsIdx i q 1).val = (i 1).val := by
  unfold DotDims.rhsIdx
  rw [dif_neg (show ¬(1 : Fin S512x8000.rank) ∈ dot_S64x512_S512x8000_S64x8000_1_0_0_1_n_n.rhsBatch by decide),
    dif_pos (show (1 : Fin S512x8000.rank) ∈ dot_S64x512_S512x8000_S64x8000_1_0_0_1_n_n.rhsNonContracting by decide)]
  rfl

/-- The product into the zero accumulator at `(r, v)`: the sum over the 512 contracted positions. -/
theorem matmul_rv (A : FVec Ideal S64x512 .bf16) (B : FVec Ideal S512x8000 .bf16) (r : Fin 64) (v : Fin 8000) :
    matmul dot_S64x512_S512x8000_S64x8000_1_0_0_1_n_n none A B (constant (F := Ideal) S64x8000 .f32 0x00000000#32) (ix2 r v)
      = ∑ s : Fin 512, A (ix2 r s) * B (ix2 s v) := by
  simp only [matmul]
  rw [Ideal.matmul_constant_zero_apply,
    ← Equiv.sum_comp (contrEquiv1 dot_S64x512_S512x8000_S64x8000_1_0_0_1_n_n 512 rfl rfl).symm]
  refine Finset.sum_congr rfl fun k _ => ?_
  have hk := contrEquiv1_symm_val dot_S64x512_S512x8000_S64x8000_1_0_0_1_n_n 512 rfl rfl k
  have el : dot_S64x512_S512x8000_S64x8000_1_0_0_1_n_n.lhsIdx (ix2 r v)
      ((contrEquiv1 dot_S64x512_S512x8000_S64x8000_1_0_0_1_n_n 512 rfl rfl).symm k) = ix2 r k :=
    funext fun a => Fin.ext (by
      match a with
      | ⟨0, _⟩ => exact lhs_mm_0 _ _
      | ⟨1, _⟩ => exact (lhs_mm_1 _ _).trans hk)
  have er : dot_S64x512_S512x8000_S64x8000_1_0_0_1_n_n.rhsIdx (ix2 r v)
      ((contrEquiv1 dot_S64x512_S512x8000_S64x8000_1_0_0_1_n_n 512 rfl rfl).symm k) = ix2 k v :=
    funext fun a => Fin.ext (by
      match a with
      | ⟨0, _⟩ => exact (rhs_mm_0 _ _).trans hk
      | ⟨1, _⟩ => exact rhs_mm_1 _ _)
  rw [el, er]

/-- The soft-label row of frame `r` (the alignment row times the soft-label block) against the row's log-probabilities. -/
theorem pay7_apply (x0 : Vec Ideal S1x64x8000 .f32) (x2 : Vec Ideal S1x64x512 .bf16) (x1 : Vec Ideal S1x512x8000 .f32)
    (r : Fin 64) :
    k0_pay7 (F := Ideal) x0 x2 x1 (ix2 r 0)
      = ∑ v : Fin 8000, (∑ s : Fin 512, x2 (ix3 0 r s) * x1 (ix3 0 s v)) * Ctc.lpK (rowK x0 r) v := by
  unfold k0_pay7
  refine (rowsum_col _ _ _ _ _ r 0).trans ?_
  refine Finset.sum_congr rfl fun v _ => ?_
  rw [mulf_apply, pay6_apply]
  refine congrArg (fun a : EReal => a * Ctc.lpK (rowK x0 r) v) ?_
  refine (matmul_rv _ _ r v).trans ?_
  refine Finset.sum_congr rfl fun s _ => ?_
  rw [truncf_apply]
  exact congrArg₂ (fun a b : EReal => a * b) (shapeCast_1ab_ab_apply x2 _ r s) (shapeCast_1ab_ab_apply x1 _ s v)

/-! ## The sum over the tile's 64 frames, into the one-element accumulator -/

/-- The one index of the accumulator's shape. -/
theorem idx111 (i : S1x1x1.Idx) : i = ix3 (0 : Fin 1) (0 : Fin 1) (0 : Fin 1) := by
  obtain ⟨a, b, c, rfl⟩ : ∃ (a b c : Fin 1), i = ix3 a b c := ⟨i 0, i 1, i 2, eq_ix3 i⟩
  obtain rfl : a = 0 := Subsingleton.elim _ _
  obtain rfl : b = 0 := Subsingleton.elim _ _
  obtain rfl : c = 0 := Subsingleton.elim _ _
  rfl

/-- The indices of a `[1, 64, 1]` block are the 64 frames. -/
def colEquiv : S1x64x1.Idx ≃ Fin 64 where
  toFun i := i 1
  invFun r := ix3 (0 : Fin 1) r (0 : Fin 1)
  left_inv i := by
    obtain ⟨a, b, c, rfl⟩ : ∃ (a : Fin 1) (b : Fin 64) (c : Fin 1), i = ix3 a b c := ⟨i 0, i 1, i 2, eq_ix3 i⟩
    obtain rfl : a = 0 := Subsingleton.elim _ _
    obtain rfl : c = 0 := Subsingleton.elim _ _
    rfl
  right_inv _ := rfl

/-- A column of 64 frames, summed as the kernel sums it (over both axes of the `[1, 64, 1]` block, the one
    result read out and splat over the accumulator's shape), is the sum of its 64 entries. -/
theorem colsum (c : FVec Ideal S64x1 .f32) (hc : S64x1.ShapeCasts S1x64x1) (h : S1x64x1.Reduces [1, 2] S1)
    (hφ : FKind.Formats .f32) (hacc : (0x00000000#32 : BitVec 32) = 0x00000000#32) (h1 : S1.ShapeCasts S1x1x1)
    (hp : ∀ a, (![0, 0, 0] : Fin 3 → Nat) a < S1x1x1.size a) (i : S1x1x1.Idx) :
    broadcast S1x1x1 (extractAt ![0, 0, 0]
        (shapeCast S1x1x1 (multiReduction (F := Ideal) .add [1, 2] S1 (shapeCast S1x64x1 c hc) 0x00000000#32 h hφ hacc) h1) hp) i
      = ∑ r : Fin 64, c (ix2 r 0) := by
  rw [broadcast_apply]
  unfold extractAt
  rw [idx111 (fun a => ⟨(![0, 0, 0] : Fin 3 → Nat) a, hp a⟩)]
  refine (shapeCast_apply _ h1 _ (ix1 (0 : Fin 1)) (by
    rw [Shape.rowMajor_val_one, Shape.rowMajor_val_three]; rfl)).trans ?_
  refine (Ideal.multiReduction_add_total _ _ h (fun b => by match b with | ⟨0, _⟩ => rfl) hφ hacc _).trans ?_
  rw [← Equiv.sum_comp colEquiv.symm]
  exact Finset.sum_congr rfl fun r _ => shapeCast_ab_1ab_apply c hc 0 r 0

/-- The accumulator plus the tile's 64 soft losses, each times its frame's weight. -/
theorem pay2_apply (v24 : FVec Ideal S64x1 .f32) (x4 : Vec Ideal S1x64x1 .f32) (xo : Vec Ideal S1x1x1 .f32)
    (i : S1x1x1.Idx) :
    k0_pay2 (F := Ideal) v24 x4 xo i = xo (ix3 0 0 0) + ∑ r : Fin 64, v24 (ix2 r 0) * x4 (ix3 0 r 0) := by
  unfold k0_pay2 k0_pay1
  rw [addf_apply, shapeCast_self, colsum, idx111 i]
  refine congrArg (fun a : EReal => xo (ix3 0 0 0) + a) (Finset.sum_congr rfl fun r _ => ?_)
  rw [mulf_apply]
  exact congrArg (fun a : EReal => v24 (ix2 r 0) * a) (shapeCast_1ab_ab_apply x4 _ r 0)

/-- The accumulator plus the tile's 64 smoothed hard losses, each times its frame's weight. -/
theorem pay3_apply (v33 v35 : FVec Ideal S64x1 .f32) (x4 : Vec Ideal S1x64x1 .f32) (xo : Vec Ideal S1x1x1 .f32)
    (i : S1x1x1.Idx) :
    k0_pay3 (F := Ideal) v33 v35 x4 xo i
      = xo (ix3 0 0 0) + ∑ r : Fin 64,
          (Ctc.c9 * v33 (ix2 r 0) + Ctc.c1 * (v35 (ix2 r 0) - v33 (ix2 r 0))) * x4 (ix3 0 r 0) := by
  unfold k0_pay3 k0_pay1 Ctc.c9 Ctc.c1
  rw [addf_apply, shapeCast_self, colsum, idx111 i]
  refine congrArg (fun a : EReal => xo (ix3 0 0 0) + a) (Finset.sum_congr rfl fun r _ => ?_)
  rw [mulf_apply, addf_apply, mulf_apply, mulf_apply, subf_apply, broadcast_apply, broadcast_apply]
  exact congrArg (fun a : EReal => _ * a) (shapeCast_1ab_ab_apply x4 _ r 0)

/-- The first tile's reset of the two accumulators writes zero. -/
theorem pay4_eq (i : S1x1x1.Idx) : k0_pay4 (F := Ideal) i = 0 := by
  unfold k0_pay4
  exact Ideal.ofBits_zero_f32
theorem pay5_eq (i : S1x1x1.Idx) : k0_pay5 (F := Ideal) i = 0 := by
  unfold k0_pay5
  exact Ideal.ofBits_zero_f32

end Cert.KernelIdeal.KPay
end
-- ==== Proof.KFrame.lean ====
/-
  The kernel program's frame run read as values.  The grid is 16 × 8: point `t = 8·b + j` works on tile `j` of
  batch entry `b`.  The two accumulator outputs each hold one number per batch entry; at `j = 0` the body stores a
  zero block in each, reads it back and adds the tile's masked loss sum; at `j ≠ 0` it adds the tile's sum to what
  the point before left.  So after point `t` the accumulators hold the running sums of batch entry `t / 8` over its
  tiles `0 … t % 8` (`outsAt_A`, `outsAt_B`), each result array's entry `b` ends at what its accumulator holds after
  point `8·b + 7` (`final5`, `final6`), and the program's result is the shared host tail of the two result arrays
  and the non-blank counts (`run`).
-/
import proofs.«426884_j75548474737115_1_alg».proof.Proof.Gen.KernelIdeal.Frame
import proofs.«426884_j75548474737115_1_alg».proof.Proof.Spec
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem
open Idealize.ShloMosaic.Pipeline (Dat)
open Idealize.ShloMosaic.ValueIdx (ix3)

namespace Cert.KernelIdeal.KFrame

open Cert.KernelIdeal Cert.KernelIdeal.Gen

variable {F : FTy → Type} [FloatOps F]
variable (m : (ℓ : Loc nD τ sig) → Buf (Elt F) ℓ) (ρ : Dev nD → PrngReg)

/-- Every offset of a whole-block rectangle of rank three is zero. -/
theorem hz : (![0, 0, 0] : Fin 3 → Nat) = fun _ => 0 := funext fun a => by fin_cases a <;> rfl

/-! ## What each case leaves in the two accumulators -/

/-- CASE B, the soft accumulator: the body's one covering store leaves the block's soft-loss sum added to what the
    buffer held. -/
theorem out_B5 (c : Dev nD) (i : grid0.Coords) (arg2 : Memref sig .tc .vmem S1x64x8000 .f32) (harg2 : arg2.IsWhole) (arg3 : Memref sig .tc .vmem S1x512x8000 .f32) (harg3 : arg3.IsWhole) (arg4 : Memref sig .tc .vmem S1x64x512 .bf16) (harg4 : arg4.IsWhole) (arg5 : Memref sig .tc .vmem S1x64x1 .i32) (harg5 : arg5.IsWhole) (arg6 : Memref sig .tc .vmem S1x64x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i)
    (x0 : Vec F S1x64x8000 .f32) (x1 : Vec F S1x512x8000 .f32) (x2 : Vec F S1x64x512 .bf16) (x3 : Vec F S1x64x1 .i32) (x4 : Vec F S1x64x1 .f32) (xo5 : Vec F S1x1x1 .f32) (xo6 : Vec F S1x1x1 .f32) :
    out0_B_5 c i arg2 harg2 arg3 harg3 arg4 harg4 arg5 harg5 arg6 harg6 arg7 harg7 arg8 harg8 hc0 x0 x1 x2 x3 x4 xo5 xo6 = k0_pay2 (k0_pay7 x0 x2 x1) x4 xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x1x1) hz]
  simp only [View.readAt_eq_ld, harg2.read_unread, harg3.read_unread, harg4.read_unread, harg6.read_unread,
    harg7.read_unread, View.ld_unit_zero (S := S1x64x8000) hz, View.ld_unit_zero (S := S1x512x8000) hz,
    View.ld_unit_zero (S := S1x64x512) hz, View.ld_unit_zero (S := S1x64x1) hz, View.ld_unit_zero (S := S1x1x1) hz]

/-- CASE B, the hard accumulator: the block's hard-loss sum added to what the buffer held. -/
theorem out_B6 (c : Dev nD) (i : grid0.Coords) (arg2 : Memref sig .tc .vmem S1x64x8000 .f32) (harg2 : arg2.IsWhole) (arg3 : Memref sig .tc .vmem S1x512x8000 .f32) (harg3 : arg3.IsWhole) (arg4 : Memref sig .tc .vmem S1x64x512 .bf16) (harg4 : arg4.IsWhole) (arg5 : Memref sig .tc .vmem S1x64x1 .i32) (harg5 : arg5.IsWhole) (arg6 : Memref sig .tc .vmem S1x64x1 .f32) (harg6 : arg6.IsWhole) (arg7 : Memref sig .tc .vmem S1x1x1 .f32) (harg7 : arg7.IsWhole) (arg8 : Memref sig .tc .vmem S1x1x1 .f32) (harg8 : arg8.IsWhole) (hc0 : ¬cond0_0 i)
    (x0 : Vec F S1x64x8000 .f32) (x1 : Vec F S1x512x8000 .f32) (x2 : Vec F S1x64x512 .bf16) (x3 : Vec F S1x64x1 .i32) (x4 : Vec F S1x64x1 .f32) (xo5 : Vec F S1x1x1 .f32) (xo6 : Vec F S1x1x1 .f32) :
    out0_B_6 c i arg2 harg2 arg3 harg3 arg4 harg4 arg5 harg5 arg6 harg6 arg7 harg7 arg8 harg8 hc0 x0 x1 x2 x3 x4 xo5 xo6 = k0_pay3 (k0_pay8 x0 x3) (k0_pay9 x0) x4 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x1x1) hz]
  simp only [View.readAt_eq_ld, harg2.read_unread, harg5.read_unread, harg6.read_unread,
    harg8.read_unread, View.ld_unit_zero (S := S1x64x8000) hz, View.ld_unit_zero (S := S1x64x1) hz,
    View.ld_unit_zero (S := S1x1x1) hz]

/-- CASE A, the soft accumulator: the body stores the zero block, reads it back, and adds the block's soft-loss sum. -/
theorem out_A5 (c : Dev nD) (i : grid0.Coords) (arg2 : Memref sig .tc .vmem S1x64x8000 .f32) (harg2 : arg2.IsWhole) (arg3 : Memref sig .tc .vmem S1x512x8000 .f32) (harg3 : arg3.IsWhole) (arg4 : Memref sig .tc .vmem S1x64x512 .bf16) (harg4 : arg4.IsWhole) (arg5 : Memref sig .tc .vmem S1x64x1 .i32) (harg5 : arg5.IsWhole) (arg6 : Memref sig .tc .vmem S1x64x1 .f32) (harg6 : arg6.IsWhole) (arg7 : Memref sig .tc .vmem S1x1x1 .f32) (harg7 : arg7.IsWhole) (arg8 : Memref sig .tc .vmem S1x1x1 .f32) (harg8 : arg8.IsWhole) (hc0 : cond0_0 i)
    (x0 : Vec F S1x64x8000 .f32) (x1 : Vec F S1x512x8000 .f32) (x2 : Vec F S1x64x512 .bf16) (x3 : Vec F S1x64x1 .i32) (x4 : Vec F S1x64x1 .f32) :
    out0_A_5 c i arg2 harg2 arg3 harg3 arg4 harg4 arg5 harg5 arg6 harg6 arg7 harg7 arg8 harg8 hc0 x0 x1 x2 x3 x4 = k0_pay2 (k0_pay7 x0 x2 x1) x4 k0_pay4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x1) hz, View.readCov_unit_zero (S := S1x1x1) _ hz]
  simp only [View.readAt_eq_ld, harg2.read_unread, harg3.read_unread, harg4.read_unread, harg6.read_unread,
    View.ld_unit_zero (S := S1x64x8000) hz, View.ld_unit_zero (S := S1x512x8000) hz,
    View.ld_unit_zero (S := S1x64x512) hz, View.ld_unit_zero (S := S1x64x1) hz]

/-- CASE A, the hard accumulator: the zero block stored, read back, and the block's hard-loss sum added. -/
theorem out_A6 (c : Dev nD) (i : grid0.Coords) (arg2 : Memref sig .tc .vmem S1x64x8000 .f32) (harg2 : arg2.IsWhole) (arg3 : Memref sig .tc .vmem S1x512x8000 .f32) (harg3 : arg3.IsWhole) (arg4 : Memref sig .tc .vmem S1x64x512 .bf16) (harg4 : arg4.IsWhole) (arg5 : Memref sig .tc .vmem S1x64x1 .i32) (harg5 : arg5.IsWhole) (arg6 : Memref sig .tc .vmem S1x64x1 .f32) (harg6 : arg6.IsWhole) (arg7 : Memref sig .tc .vmem S1x1x1 .f32) (harg7 : arg7.IsWhole) (arg8 : Memref sig .tc .vmem S1x1x1 .f32) (harg8 : arg8.IsWhole) (hc0 : cond0_0 i)
    (x0 : Vec F S1x64x8000 .f32) (x1 : Vec F S1x512x8000 .f32) (x2 : Vec F S1x64x512 .bf16) (x3 : Vec F S1x64x1 .i32) (x4 : Vec F S1x64x1 .f32) :
    out0_A_6 c i arg2 harg2 arg3 harg3 arg4 harg4 arg5 harg5 arg6 harg6 arg7 harg7 arg8 harg8 hc0 x0 x1 x2 x3 x4 = k0_pay3 (k0_pay8 x0 x3) (k0_pay9 x0) x4 k0_pay5 := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1x1) hz, View.readCov_unit_zero (S := S1x1x1) _ hz]
  simp only [View.readAt_eq_ld, harg2.read_unread, harg5.read_unread, harg6.read_unread,
    View.ld_unit_zero (S := S1x64x8000) hz, View.ld_unit_zero (S := S1x64x1) hz]

/-! ## The two accumulators point by point -/

/-- One point's update of the soft accumulator: the block's per-frame soft losses, weighted by the block's mask,
    summed and added to the accumulator's previous contents. -/
def step5 (c : Dev nD) (t : Fin cfg0.N) (prev : Vec F S1x1x1 .f32) : Vec F S1x1x1 .f32 :=
  k0_pay2 (k0_pay7 (iblk m c 0 t) (iblk m c 2 t) (iblk m c 1 t)) (iblk m c 4 t) prev

/-- One point's update of the hard accumulator: the block's per-frame hard losses, weighted by the block's mask,
    summed and added to the accumulator's previous contents. -/
def step6 (c : Dev nD) (t : Fin cfg0.N) (prev : Vec F S1x1x1 .f32) : Vec F S1x1x1 .f32 :=
  k0_pay3 (k0_pay8 (iblk m c 0 t) (iblk m c 3 t)) (k0_pay9 (iblk m c 0 t)) (iblk m c 4 t) prev

/-- At the first point of a batch entry (the point's second coordinate is zero) both accumulators restart from
    their zero blocks. -/
theorem outsAt_A (c : Dev nD) (t : Fin cfg0.N) (h0 : t.val % 8 = 0) :
    outsAt0 m c t.val t.isLt = (step5 m c t k0_pay4, step6 m c t k0_pay5) := by
  rw [outsAt0_A m c t h0]
  rw [out_A5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t),
    out_A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)]
  rfl

/-- At every later point of a batch entry both accumulators go on from what the point before left. -/
theorem outsAt_B (c : Dev nD) (t : Fin cfg0.N) (h0 : ¬ t.val % 8 = 0) :
    outsAt0 m c t.val t.isLt
      = (step5 m c t (outsAt0 m c (t.val - 1) (Nat.lt_of_le_of_lt (Nat.sub_le _ _) t.isLt)).1,
         step6 m c t (outsAt0 m c (t.val - 1) (Nat.lt_of_le_of_lt (Nat.sub_le _ _) t.isLt)).2) := by
  rw [outsAt0_B m c t h0]
  rw [out_B5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2,
    out_B6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2]
  rfl

/-! ## The two result arrays after the run -/

/-- At point `t` both output windows sit on the block of batch entry `t / 8` (decided over the grid). -/
theorem idx_facts : ∀ t : Fin cfg0.N,
    win0_5.index t (0 : Fin 3) = t.val / 8 ∧ win0_5.index t (1 : Fin 3) = 0 ∧ win0_5.index t (2 : Fin 3) = 0
    ∧ win0_6.index t (0 : Fin 3) = t.val / 8 ∧ win0_6.index t (1 : Fin 3) = 0 ∧ win0_6.index t (2 : Fin 3) = 0 :=
  (by decide +kernel : ∀ t : Fin grid0.N, _)

/-- A block of one element has one index. -/
theorem idx1_eq (y : S1x1x1.Idx) : y = ix3 0 0 0 :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega)

/-- The accumulators' contents depend on the point's number only. -/
theorem outsAt_congr (c : Dev nD) {n n' : ℕ} (e : n = n') (h : n < cfg0.N) (h' : n' < cfg0.N) :
    outsAt0 m c n h = outsAt0 m c n' h' := by
  subst e; rfl

/-- The soft result array as one function of its index: entry `b` is what the soft accumulator holds after the last
    point `8·b + 7` of batch entry `b`. -/
def G5 (c : Dev nD) : Vec F S16x1x1 .f32 := fun i =>
  (outsAt0 m c (8 * (i 0).val + 7)
    (by have h : (i 0).val < 16 := (i 0).isLt; rw [show cfg0.N = 128 from N_0]; omega)).1 (ix3 0 0 0)

/-- The hard result array as one function of its index, likewise. -/
def G6 (c : Dev nD) : Vec F S16x1x1 .f32 := fun i =>
  (outsAt0 m c (8 * (i 0).val + 7)
    (by have h : (i 0).val < 16 := (i 0).isLt; rw [show cfg0.N = 128 from N_0]; omega)).2 (ix3 0 0 0)

/-- What point `t` writes back of the soft accumulator — only a batch entry's last point writes back — is its
    block of `G5`: the point is `8·(t / 8) + 7` and its block index on the first axis is `t / 8`. -/
theorem flushed5_eq (c : Dev nD) (t : Fin cfg0.N) (hf : (cfg0.win 5).flush t = true) :
    (dats m 0 c).flushed 5 t = ((cfg0.win 5).blk t).view.read (Elt F) (G5 m c) := by
  have h7 : t.val % 8 = 7 := (flush0_5 t).mp hf
  obtain ⟨e5, -, -, e6, -, -⟩ := idx_facts t
  show (cfg0.win 5).cut (grid0.coords t) ((dats m 0 c).after 5 t) = _
  rw [after0_5]
  funext j
  show (outsAt0 m c t.val t.isLt).1 ((cfg0.win 5).xinj (grid0.coords t) j) = G5 m c (((cfg0.win 5).blk t).view.emb j)
  unfold G5
  have hj : (j 0).val < 1 := (j 0).isLt
  have hemb : ((((cfg0.win 5).blk t).view.emb j) 0).val = win0_5.index t (0 : Fin 3) * 1 + 1 * (j 0).val := rfl
  rw [idx1_eq ((cfg0.win 5).xinj (grid0.coords t) j)]
  have hpt : t.val = 8 * ((((cfg0.win 5).blk t).view.emb j) 0).val + 7 := by omega
  exact congrArg (fun p => p.1 (ix3 0 0 0)) (outsAt_congr m c hpt _ _)

/-- An index of the soft result array is in point `t`'s block iff each coordinate is in the block's range. -/
theorem mem_blk5 (t : Fin cfg0.N) (i : S16x1x1.Idx) :
    i ∈ ((cfg0.win 5).blk t).view.set ↔ ∀ a : Fin 3, win0_5.index t a * S1x1x1.size a ≤ (i a).val ∧ (i a).val < win0_5.index t a * S1x1x1.size a + S1x1x1.size a := by
  show i ∈ ((View.whole main_v33_0).slice (win0_5.rect t)).set ↔ _
  rw [View.set_slice_whole, Rect.mem_set_unit]
  exact Iff.rfl

/-- Entry `b` of the soft result array is written back by the last point of batch entry `b`. -/
theorem cover5 (i : S16x1x1.Idx) :
    ∃ t : Fin cfg0.N, (cfg0.win 5).flush t = true ∧ i ∈ ((cfg0.win 5).blk t).view.set := by
  have h0 : (i 0).val < 16 := (i 0).isLt
  have h1 : (i 1).val < 1 := (i 1).isLt
  have h2 : (i 2).val < 1 := (i 2).isLt
  have hN : cfg0.N = 128 := N_0
  obtain ⟨e50, e51, e52, e60, e61, e62⟩ := idx_facts ⟨8 * (i 0).val + 7, by omega⟩
  have ht : (⟨8 * (i 0).val + 7, by omega⟩ : Fin cfg0.N).val = 8 * (i 0).val + 7 := rfl
  refine ⟨⟨8 * (i 0).val + 7, by omega⟩, (flush0_5 _).mpr (by omega), ?_⟩
  rw [mem_blk5]
  intro a
  match a with
  | ⟨0, _⟩ => show win0_5.index ⟨8 * (i 0).val + 7, _⟩ (0 : Fin 3) * 1 ≤ (i 0).val ∧ (i 0).val < win0_5.index ⟨8 * (i 0).val + 7, _⟩ (0 : Fin 3) * 1 + 1; omega
  | ⟨1, _⟩ => show win0_5.index ⟨8 * (i 0).val + 7, _⟩ (1 : Fin 3) * 1 ≤ (i 1).val ∧ (i 1).val < win0_5.index ⟨8 * (i 0).val + 7, _⟩ (1 : Fin 3) * 1 + 1; omega
  | ⟨2, _⟩ => show win0_5.index ⟨8 * (i 0).val + 7, _⟩ (2 : Fin 3) * 1 ≤ (i 2).val ∧ (i 2).val < win0_5.index ⟨8 * (i 0).val + 7, _⟩ (2 : Fin 3) * 1 + 1; omega

/-- The soft result array after the run, as a whole. -/
theorem final5_arr (c : Dev nD) : (dats m 0 c).arrAt 5 cfg0.N = G5 m c :=
  (dats m 0 c).arrAt_eq_of_cover 5 (G5 m c) (flushed5_eq m c) (fun i => cover5 i)

/-- Entry `b` of the soft result array after the run: what the accumulator holds after the last point of batch
    entry `b`. -/
theorem final5 (c : Dev nD) (b : Fin 16) :
    (dats m 0 c).arrAt 5 cfg0.N (ix3 b 0 0)
      = (outsAt0 m c (8 * b.val + 7) (by have := b.isLt; rw [show cfg0.N = 128 from N_0]; omega)).1 (ix3 0 0 0) :=
  (congrFun (final5_arr m c) (ix3 b 0 0)).trans rfl

/-- What point `t` writes back of the hard accumulator — only a batch entry's last point writes back — is its
    block of `G6`: the point is `8·(t / 8) + 7` and its block index on the first axis is `t / 8`. -/
theorem flushed6_eq (c : Dev nD) (t : Fin cfg0.N) (hf : (cfg0.win 6).flush t = true) :
    (dats m 0 c).flushed 6 t = ((cfg0.win 6).blk t).view.read (Elt F) (G6 m c) := by
  have h7 : t.val % 8 = 7 := (flush0_6 t).mp hf
  obtain ⟨e5, -, -, e6, -, -⟩ := idx_facts t
  show (cfg0.win 6).cut (grid0.coords t) ((dats m 0 c).after 6 t) = _
  rw [after0_6]
  funext j
  show (outsAt0 m c t.val t.isLt).2 ((cfg0.win 6).xinj (grid0.coords t) j) = G6 m c (((cfg0.win 6).blk t).view.emb j)
  unfold G6
  have hj : (j 0).val < 1 := (j 0).isLt
  have hemb : ((((cfg0.win 6).blk t).view.emb j) 0).val = win0_6.index t (0 : Fin 3) * 1 + 1 * (j 0).val := rfl
  rw [idx1_eq ((cfg0.win 6).xinj (grid0.coords t) j)]
  have hpt : t.val = 8 * ((((cfg0.win 6).blk t).view.emb j) 0).val + 7 := by omega
  exact congrArg (fun p => p.2 (ix3 0 0 0)) (outsAt_congr m c hpt _ _)

/-- An index of the hard result array is in point `t`'s block iff each coordinate is in the block's range. -/
theorem mem_blk6 (t : Fin cfg0.N) (i : S16x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v33_1).slice (win0_6.rect t)).set ↔ _
  rw [View.set_slice_whole, Rect.mem_set_unit]
  exact Iff.rfl

/-- Entry `b` of the hard result array is written back by the last point of batch entry `b`. -/
theorem cover6 (i : S16x1x1.Idx) :
    ∃ t : Fin cfg0.N, (cfg0.win 6).flush t = true ∧ i ∈ ((cfg0.win 6).blk t).view.set := by
  have h0 : (i 0).val < 16 := (i 0).isLt
  have h1 : (i 1).val < 1 := (i 1).isLt
  have h2 : (i 2).val < 1 := (i 2).isLt
  have hN : cfg0.N = 128 := N_0
  obtain ⟨e50, e51, e52, e60, e61, e62⟩ := idx_facts ⟨8 * (i 0).val + 7, by omega⟩
  have ht : (⟨8 * (i 0).val + 7, by omega⟩ : Fin cfg0.N).val = 8 * (i 0).val + 7 := rfl
  refine ⟨⟨8 * (i 0).val + 7, by omega⟩, (flush0_6 _).mpr (by omega), ?_⟩
  rw [mem_blk6]
  intro a
  match a with
  | ⟨0, _⟩ => show win0_6.index ⟨8 * (i 0).val + 7, _⟩ (0 : Fin 3) * 1 ≤ (i 0).val ∧ (i 0).val < win0_6.index ⟨8 * (i 0).val + 7, _⟩ (0 : Fin 3) * 1 + 1; omega
  | ⟨1, _⟩ => show win0_6.index ⟨8 * (i 0).val + 7, _⟩ (1 : Fin 3) * 1 ≤ (i 1).val ∧ (i 1).val < win0_6.index ⟨8 * (i 0).val + 7, _⟩ (1 : Fin 3) * 1 + 1; omega
  | ⟨2, _⟩ => show win0_6.index ⟨8 * (i 0).val + 7, _⟩ (2 : Fin 3) * 1 ≤ (i 2).val ∧ (i 2).val < win0_6.index ⟨8 * (i 0).val + 7, _⟩ (2 : Fin 3) * 1 + 1; omega

/-- The hard result array after the run, as a whole. -/
theorem final6_arr (c : Dev nD) : (dats m 0 c).arrAt 6 cfg0.N = G6 m c :=
  (dats m 0 c).arrAt_eq_of_cover 6 (G6 m c) (flushed6_eq m c) (fun i => cover6 i)

/-- Entry `b` of the hard result array after the run: what the accumulator holds after the last point of batch
    entry `b`. -/
theorem final6 (c : Dev nD) (b : Fin 16) :
    (dats m 0 c).arrAt 6 cfg0.N (ix3 b 0 0)
      = (outsAt0 m c (8 * b.val + 7) (by have := b.isLt; rw [show cfg0.N = 128 from N_0]; omega)).2 (ix3 0 0 0) :=
  (congrFun (final6_arr m c) (ix3 b 0 0)).trans rfl

/-! ## The run, with the host operations after the region applied -/

/-- The sixteen host operations after the region, from any contents of the buffers: minus the batch mean of half the
    soft sum plus half the hard sum, each over the non-blank count — the two result arrays read as vectors of 16. -/
theorem tail_eq (W : Valuation τ sig (Elt F)) :
    StableHlo.after hostOps1 W (Proc.devRef .tc main_v45)
      = Cert.ReferenceIdeal.Spec.finish
          (fun j => shapeCast S16 (W (Proc.devRef .tc main_v33_0)) shapeCasts_S16x1x1_S16 j)
          (fun j => shapeCast S16 (W (Proc.devRef .tc main_v33_1)) shapeCasts_S16x1x1_S16 j)
          (W (Proc.devRef .tc main_v21)) := by
  after_results
  rfl

/-- The program's result after the region's tail: the two result arrays are the pipeline's arrays 5 and 6, the
    non-blank counts are no array of the pipeline and keep their contents at the region's entry. -/
theorem tail_v45 (c : Dev nD) :
    Pipeline.afterTail₀ cfgs (dats m) 0 (V0 m) [hostOps1] c main_v45
      = Cert.ReferenceIdeal.Spec.finish
          (fun j => shapeCast S16 ((dats m 0 c).arrAt 5 cfg0.N) shapeCasts_S16x1x1_S16 j)
          (fun j => shapeCast S16 ((dats m 0 c).arrAt 6 cfg0.N) shapeCasts_S16x1x1_S16 j)
          (V m c main_v21) := by
  unfold Pipeline.afterTail₀
  show StableHlo.after hostOps1 _ (Proc.devRef .tc main_v45) = _
  rw [tail_eq]
  have h5 : Pipeline.withArrays (cfgs 0).spec c (V0 m c) (fun w => (dats m 0 c).arrAt w (cfgs 0).N)
      (Proc.devRef .tc main_v33_0) = (dats m 0 c).arrAt 5 cfg0.N :=
    Pipeline.withArrays_arr spec0 launch0.win.arr_inj c _ _ 5
  have h6 : Pipeline.withArrays (cfgs 0).spec c (V0 m c) (fun w => (dats m 0 c).arrAt w (cfgs 0).N)
      (Proc.devRef .tc main_v33_1) = (dats m 0 c).arrAt 6 cfg0.N :=
    Pipeline.withArrays_arr spec0 launch0.win.arr_inj c _ _ 6
  have h21 : Pipeline.withArrays (cfgs 0).spec c (V0 m c) (fun w => (dats m 0 c).arrAt w (cfgs 0).N)
      (Proc.devRef .tc main_v21) = V m c main_v21 :=
    Pipeline.withArrays_of_ne _ c (V0 m c) _ main_v21 (by exact (by decide : ∀ w, Pipeline.arrRef spec0 w ≠ main_v21))
  rw [h5, h6, h21]

/-- The run, read: the program's result is the shared host tail of the two result arrays and the non-blank counts as
    the region finds them; the six argument arrays end as launched. -/
theorem run : θ_run defs (onTc (τ := τ) (main (F := F))) ⟨m, fun _ => 0, ρ⟩ fun r => ∀ c : Dev nD,
      r.2.mem ((c.tc : Thread nD τ).loc main_v45)
        = Cert.ReferenceIdeal.Spec.finish
            (fun j => shapeCast S16 ((dats m 0 c).arrAt 5 cfg0.N) shapeCasts_S16x1x1_S16 j)
            (fun j => shapeCast S16 ((dats m 0 c).arrAt 6 cfg0.N) shapeCasts_S16x1x1_S16 j)
            (V m c main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v45 (Pipeline.mem_restRefs_of main_v45 (by decide) (by decide))).trans (tail_v45 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KFrame

end
-- ==== Proof.KHost.lean ====
/-
  What the kernel program's host operations before the region leave in the arrays the region reads, and each
  window's block at a grid point read at an index.

  The host lines compute, from the alignment ids and the frame lengths, the masked alignment `a`; from it the
  non-blank count of every batch entry, the run index of every frame as a one-hot row over the 512 label positions,
  the hard label of every frame, and the non-blank mask as a float column.  The region's windows cut these arrays
  (and the logits, and the soft labels) into blocks of 64 frames of one batch entry: grid point `8 b + j` reads the
  frames `64 j … 64 j + 63` of entry `b`.
-/
import proofs.«426884_j75548474737115_1_alg».proof.Proof.Gen.KernelIdeal.Frame
import proofs.«426884_j75548474737115_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.KHost

open Cert.KernelIdeal Cert.KernelIdeal.Gen Idealize.ShloMosaic Idealize.ShloMosaic.ValueIdx Idealize.ShloMosaic.TcCoe
open Idealize.SL.Sem Idealize.ShloMosaic.StableHlo

variable {F : FTy → Type} [FloatOps F] (m : (ℓ : Loc nD τ sig) → Buf (Elt F) ℓ)

/-! ## The arrays the host operations leave

Each array the region reads is the composition of the host lines' functions that lead to it, applied to the launched
alignment ids, frame lengths and labels: the same compositions the shared stage functions name. -/

attribute [local irreducible] Host.reduce Host.reduceWindow Host.gather pad in
set_option maxHeartbeats 4000000 in
set_option maxRecDepth 8192 in
/-- The non-blank count of every batch entry, as a float: the array the results are divided by after the region. -/
theorem V_nExists (c : Dev nD) :
    V m c main_v21 = Cert.ReferenceIdeal.Spec.nExists
      (Cert.ReferenceIdeal.Spec.amask (m ((c.tc : Thread nD τ).loc main_arg3)) (m ((c.tc : Thread nD τ).loc main_arg4))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-- A frame index as a one-hot row over the 512 label positions: `1` at position `s` of frame `(b, t)` exactly when
    the frame's index is `s`. -/
def onehot (lm : IVec S16x512 32) : FVec F S16x512x512 .bf16 :=
  uitofp .bf16 (cmpi .eq
    (broadcastInDim S16x512x512 ![0, 1, 2] bcast_S16x512x1_S16x512x512_0_1_2
      (broadcastInDim S16x512x1 ![0, 1] bcast_S16x512_S16x512x1_0_1 lm))
    (broadcastInDim S16x512x512 ![0, 1, 2] bcast_S1x1x512_S16x512x512_0_1_2
      (broadcastInDim S1x1x512 ![2] bcast_S512_S1x1x512_2 (iotaInDim S512 32 0))))

attribute [local irreducible] Host.reduce Host.reduceWindow Host.gather pad in
set_option maxHeartbeats 4000000 in
set_option maxRecDepth 8192 in
/-- The one-hot array the region reads is the one-hot of the run index of the masked alignment. -/
theorem V_onehot (c : Dev nD) :
    V m c main_v29 = onehot (Cert.ReferenceIdeal.Spec.runIdx
      (Cert.ReferenceIdeal.Spec.amask (m ((c.tc : Thread nD τ).loc main_arg3)) (m ((c.tc : Thread nD τ).loc main_arg4)))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

attribute [local irreducible] Host.reduce Host.reduceWindow Host.gather pad in
set_option maxHeartbeats 4000000 in
set_option maxRecDepth 65536 in
/-- The label column the region reads: the label row taken at the run index, as a column. -/
theorem V_labels (c : Dev nD) :
    V m c main_v31 = fun j => shapeCast S16x512x1
      (Cert.ReferenceIdeal.Spec.takeYs (m ((c.tc : Thread nD τ).loc main_arg1))
        (Cert.ReferenceIdeal.Spec.runIdx
          (Cert.ReferenceIdeal.Spec.amask (m ((c.tc : Thread nD τ).loc main_arg3)) (m ((c.tc : Thread nD τ).loc main_arg4)))))
      shapeCasts_S16x512_S16x512x1 j := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

attribute [local irreducible] Host.reduce Host.reduceWindow Host.gather pad in
set_option maxHeartbeats 4000000 in
set_option maxRecDepth 8192 in
/-- The mask column the region reads: the non-blank mask as a float, as a column. -/
theorem V_mask (c : Dev nD) :
    V m c main_v32 = fun j => shapeCast S16x512x1
      (uitofp .f32 (Cert.ReferenceIdeal.Spec.nonblank
        (Cert.ReferenceIdeal.Spec.amask (m ((c.tc : Thread nD τ).loc main_arg3)) (m ((c.tc : Thread nD τ).loc main_arg4)))))
      shapeCasts_S16x512_S16x512x1 j := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  rfl

/-! ## The same arrays read at an index, over the extended reals -/

/-- A bit as an extended real: `1` for the set bit, `0` for the clear one. -/
theorem bit_cast (x : BitVec 1) : (((x.toNat : ℕ) : ℝ) : EReal) = if x = 1#1 then 1 else 0 := by
  rcases BitVec.eq_zero_or_eq_one x with h | h
  · subst h
    rw [if_neg (by decide)]
    show (((0 : ℕ) : ℝ) : EReal) = 0
    rw [Nat.cast_zero, EReal.coe_zero]
  · subst h
    rw [if_pos rfl]
    show (((1 : ℕ) : ℝ) : EReal) = 1
    rw [Nat.cast_one, EReal.coe_one]

/-- The frame array laid along the label positions reads, at `(b, t, s)`, the frame's entry. -/
theorem bcast_frames_apply (lm : IVec S16x512 32) (b : Fin 16) (t s : Fin 512) :
    broadcastInDim S16x512x512 ![0, 1, 2] bcast_S16x512x1_S16x512x512_0_1_2
      (broadcastInDim S16x512x1 ![0, 1] bcast_S16x512_S16x512x1_0_1 lm) (ix3 b t s) = lm (ix2 b t) := by
  rw [broadcastInDim_apply _ _ _ (ix3 b t s) (ix3 b t (0 : Fin 1))
    (fun a => by match a with | ⟨0, _⟩ => rfl | ⟨1, _⟩ => rfl | ⟨2, _⟩ => rfl)]
  exact broadcastInDim_apply _ _ _ (ix3 b t (0 : Fin 1)) (ix2 b t)
    (fun a => by match a with | ⟨0, _⟩ => rfl | ⟨1, _⟩ => rfl)

/-- The label positions laid along the frames read, at `(b, t, s)`, the position `s`. -/
theorem bcast_positions_apply (b : Fin 16) (t s : Fin 512) :
    broadcastInDim S16x512x512 ![0, 1, 2] bcast_S1x1x512_S16x512x512_0_1_2
      (broadcastInDim S1x1x512 ![2] bcast_S512_S1x1x512_2 (iotaInDim S512 32 0)) (ix3 b t s) = BitVec.ofNat 32 s.val := by
  rw [broadcastInDim_apply _ _ _ (ix3 b t s) (ix3 (0 : Fin 1) (0 : Fin 1) s)
    (fun a => by match a with | ⟨0, _⟩ => rfl | ⟨1, _⟩ => rfl | ⟨2, _⟩ => rfl)]
  rw [broadcastInDim_apply _ _ _ (ix3 (0 : Fin 1) (0 : Fin 1) s) (ix1 s)
    (fun a => by match a with | ⟨0, _⟩ => rfl)]
  rfl

/-- The one-hot row at `(b, t, s)`: `1` exactly when the frame's index is `s`. -/
theorem onehot_apply (lm : IVec S16x512 32) (b : Fin 16) (t s : Fin 512) :
    onehot (F := Ideal) lm (ix3 b t s) = if lm (ix2 b t) = BitVec.ofNat 32 s.val then 1 else 0 := by
  unfold onehot
  show ((((IntOp.cmpi .eq
      (broadcastInDim S16x512x512 ![0, 1, 2] bcast_S16x512x1_S16x512x512_0_1_2
        (broadcastInDim S16x512x1 ![0, 1] bcast_S16x512_S16x512x1_0_1 lm) (ix3 b t s))
      (broadcastInDim S16x512x512 ![0, 1, 2] bcast_S1x1x512_S16x512x512_0_1_2
        (broadcastInDim S1x1x512 ![2] bcast_S512_S1x1x512_2 (iotaInDim S512 32 0)) (ix3 b t s))).toNat : ℕ) : ℝ) : EReal) = _
  rw [bcast_frames_apply, bcast_positions_apply, bit_cast]
  by_cases h : lm (ix2 b t) = BitVec.ofNat 32 s.val
  · rw [if_pos h, if_pos (Predicate.cmpi_eq_iff.mpr h)]
  · rw [if_neg h, if_neg (fun h' => h (Predicate.cmpi_eq_iff.mp h'))]

/-- An array of frames as a column reads, at `(b, t, 0)`, the frame's entry. -/
theorem column_apply {α : Type} (X : S16x512.Idx → α) (b : Fin 16) (t : Fin 512) (u : Fin 1) :
    shapeCast S16x512x1 X shapeCasts_S16x512_S16x512x1 (ix3 b t u) = X (ix2 b t) :=
  shapeCast_apply X shapeCasts_S16x512_S16x512x1 _ _ (by
    have hu : u.val = 0 := by omega
    rw [Shape.rowMajor_val_three, Shape.rowMajor_val_two]
    show b.val * 512 + t.val = (b.val * 512 + t.val) * 1 + u.val
    rw [hu, Nat.mul_one, Nat.add_zero])

/-- The label column at `(b, t, 0)` is the frame's label. -/
theorem labels_apply (X : IVec S16x512 32) (b : Fin 16) (t : Fin 512) :
    (fun j => shapeCast S16x512x1 X shapeCasts_S16x512_S16x512x1 j) (ix3 b t 0) = X (ix2 b t) :=
  column_apply X b t 0

/-- The mask column at `(b, t, 0)` is `1` on a non-blank frame and `0` on a blank one. -/
theorem mask_apply (nb : IVec S16x512 1) (b : Fin 16) (t : Fin 512) :
    (fun j => shapeCast S16x512x1 (uitofp (F := Ideal) .f32 nb) shapeCasts_S16x512_S16x512x1 j) (ix3 b t 0)
      = if nb (ix2 b t) = 1#1 then 1 else 0 := by
  show shapeCast S16x512x1 (uitofp (F := Ideal) .f32 nb) shapeCasts_S16x512_S16x512x1 (ix3 b t 0) = _
  rw [column_apply]
  exact bit_cast (nb (ix2 b t))

/-! ## The windows' blocks read at an index

Grid point `8 b + j` is batch entry `b`, tile `j`: every window's block index there is `(b, j, 0)` — `(b, 0, 0)` for
the soft labels, whose block is the entry's whole row set — so an element `(0, r, x)` of a block of 64 frames sits in
its array at `(b, 64 j + r, x)`. -/

/-- The grid point of batch entry `b` and tile `j`. -/
abbrev pt (b : Fin 16) (j : Fin 8) : Fin cfg0.N :=
  ⟨8 * b.val + j.val, by have := b.isLt; have := j.isLt; show 8 * b.val + j.val < grid0.N; rw [N_0]; omega⟩

/-- The block indices of the five input windows over the grid. -/
theorem index0_0 : ∀ t : Fin grid0.N, win0_0.index t 0 = t.val / 8 ∧ win0_0.index t 1 = t.val % 8 ∧ win0_0.index t 2 = 0 := by
  decide +kernel
theorem index0_1 : ∀ t : Fin grid0.N, win0_1.index t 0 = t.val / 8 ∧ win0_1.index t 1 = 0 ∧ win0_1.index t 2 = 0 := by
  decide +kernel
theorem index0_2 : ∀ t : Fin grid0.N, win0_2.index t 0 = t.val / 8 ∧ win0_2.index t 1 = t.val % 8 ∧ win0_2.index t 2 = 0 := by
  decide +kernel
theorem index0_3 : ∀ t : Fin grid0.N, win0_3.index t 0 = t.val / 8 ∧ win0_3.index t 1 = t.val % 8 ∧ win0_3.index t 2 = 0 := by
  decide +kernel
theorem index0_4 : ∀ t : Fin grid0.N, win0_4.index t 0 = t.val / 8 ∧ win0_4.index t 1 = t.val % 8 ∧ win0_4.index t 2 = 0 := by
  decide +kernel

/-- At the point of entry `b` and tile `j` the quotient and remainder by 8 are `b` and `j`. -/
theorem pt_div (b : Fin 16) (j : Fin 8) : (pt b j).val / 8 = b.val := by
  show (8 * b.val + j.val) / 8 = b.val
  have := j.isLt
  omega
theorem pt_mod (b : Fin 16) (j : Fin 8) : (pt b j).val % 8 = j.val := by
  show (8 * b.val + j.val) % 8 = j.val
  have := j.isLt
  omega

/-- The logits block: frame `r` of tile `j` of entry `b`, vocabulary entry `v`. -/
theorem iblk0_apply (c : Dev nD) (b : Fin 16) (j : Fin 8) (r : Fin 64) (v : Fin 8000) :
    iblk m c 0 (pt b j) (ix3 (0 : Fin 1) r v)
      = m ((c.tc : Thread nD τ).loc main_arg0)
          (ix3 b (⟨64 * j.val + r.val, by have := j.isLt; have := r.isLt; omega⟩ : Fin 512) v) := by
  obtain ⟨h0, h1, h2⟩ := index0_0 (pt b j)
  rw [pt_div] at h0
  rw [pt_mod] at h1
  unfold iblk
  rw [View.read_apply]
  show V m c main_arg0 _ = _
  rw [V_main_arg0 m c]
  congr 1
  funext a
  apply Fin.ext
  match a with
  | ⟨0, _⟩ => show win0_0.index (pt b j) 0 * 1 + 1 * 0 = b.val; rw [h0]; omega
  | ⟨1, _⟩ => show win0_0.index (pt b j) 1 * 64 + 1 * r.val = 64 * j.val + r.val; rw [h1]; omega
  | ⟨2, _⟩ => show win0_0.index (pt b j) 2 * 8000 + 1 * v.val = v.val; rw [h2]; omega

/-- The soft-label block: all 512 label positions of entry `b`. -/
theorem iblk1_apply (c : Dev nD) (b : Fin 16) (j : Fin 8) (s : Fin 512) (v : Fin 8000) :
    iblk m c 1 (pt b j) (ix3 (0 : Fin 1) s v)
      = m ((c.tc : Thread nD τ).loc main_arg2) (ix3 b s v) := by
  obtain ⟨h0, h1, h2⟩ := index0_1 (pt b j)
  rw [pt_div] at h0
  unfold iblk
  rw [View.read_apply]
  show V m c main_arg2 _ = _
  rw [V_main_arg2 m c]
  congr 1
  funext a
  apply Fin.ext
  match a with
  | ⟨0, _⟩ => show win0_1.index (pt b j) 0 * 1 + 1 * 0 = b.val; rw [h0]; omega
  | ⟨1, _⟩ => show win0_1.index (pt b j) 1 * 512 + 1 * s.val = s.val; rw [h1]; omega
  | ⟨2, _⟩ => show win0_1.index (pt b j) 2 * 8000 + 1 * v.val = v.val; rw [h2]; omega

/-- The one-hot block: frame `r` of tile `j` of entry `b`, label position `s`. -/
theorem iblk2_apply (c : Dev nD) (b : Fin 16) (j : Fin 8) (r : Fin 64) (s : Fin 512) :
    iblk m c 2 (pt b j) (ix3 (0 : Fin 1) r s)
      = V m c main_v29 (ix3 b (⟨64 * j.val + r.val, by have := j.isLt; have := r.isLt; omega⟩ : Fin 512) s) := by
  obtain ⟨h0, h1, h2⟩ := index0_2 (pt b j)
  rw [pt_div] at h0
  rw [pt_mod] at h1
  unfold iblk
  rw [View.read_apply]
  show V m c main_v29 _ = V m c main_v29 _
  congr 1
  funext a
  apply Fin.ext
  match a with
  | ⟨0, _⟩ => show win0_2.index (pt b j) 0 * 1 + 1 * 0 = b.val; rw [h0]; omega
  | ⟨1, _⟩ => show win0_2.index (pt b j) 1 * 64 + 1 * r.val = 64 * j.val + r.val; rw [h1]; omega
  | ⟨2, _⟩ => show win0_2.index (pt b j) 2 * 512 + 1 * s.val = s.val; rw [h2]; omega

/-- The label block: frame `r` of tile `j` of entry `b`. -/
theorem iblk3_apply (c : Dev nD) (b : Fin 16) (j : Fin 8) (r : Fin 64) :
    iblk m c 3 (pt b j) (ix3 (0 : Fin 1) r (0 : Fin 1))
      = V m c main_v31 (ix3 b (⟨64 * j.val + r.val, by have := j.isLt; have := r.isLt; omega⟩ : Fin 512) (0 : Fin 1)) := by
  obtain ⟨h0, h1, h2⟩ := index0_3 (pt b j)
  rw [pt_div] at h0
  rw [pt_mod] at h1
  unfold iblk
  rw [View.read_apply]
  show V m c main_v31 _ = V m c main_v31 _
  congr 1
  funext a
  apply Fin.ext
  match a with
  | ⟨0, _⟩ => show win0_3.index (pt b j) 0 * 1 + 1 * 0 = b.val; rw [h0]; omega
  | ⟨1, _⟩ => show win0_3.index (pt b j) 1 * 64 + 1 * r.val = 64 * j.val + r.val; rw [h1]; omega
  | ⟨2, _⟩ => show win0_3.index (pt b j) 2 * 1 + 1 * 0 = 0; rw [h2]

/-- The mask block: frame `r` of tile `j` of entry `b`. -/
theorem iblk4_apply (c : Dev nD) (b : Fin 16) (j : Fin 8) (r : Fin 64) :
    iblk m c 4 (pt b j) (ix3 (0 : Fin 1) r (0 : Fin 1))
      = V m c main_v32 (ix3 b (⟨64 * j.val + r.val, by have := j.isLt; have := r.isLt; omega⟩ : Fin 512) (0 : Fin 1)) := by
  obtain ⟨h0, h1, h2⟩ := index0_4 (pt b j)
  rw [pt_div] at h0
  rw [pt_mod] at h1
  unfold iblk
  rw [View.read_apply]
  show V m c main_v32 _ = V m c main_v32 _
  congr 1
  funext a
  apply Fin.ext
  match a with
  | ⟨0, _⟩ => show win0_4.index (pt b j) 0 * 1 + 1 * 0 = b.val; rw [h0]; omega
  | ⟨1, _⟩ => show win0_4.index (pt b j) 1 * 64 + 1 * r.val = 64 * j.val + r.val; rw [h1]; omega
  | ⟨2, _⟩ => show win0_4.index (pt b j) 2 * 1 + 1 * 0 = 0; rw [h2]

end Cert.KernelIdeal.KHost

end
-- ==== Proof.Bridge.lean ====
/-
  The kernel's two accumulator outputs are the reference's two per-entry sums.
  Grid point `8·b + j` adds to output 5 of batch entry `b` the soft losses of the 64 frames of tile `j`, each
  weighted by its non-blank flag, and to output 6 the hard losses likewise; point `8·b` starts both from zero and
  point `8·b + 7` is the one whose buffers are written back.  The frame's soft-label row reaches the kernel as a
  one-hot row times the soft-label rows, its hard label through an equality mask over the vocabulary; both are the
  reference's indexed reads once the run index is below 512 and the label below 8000.  So after the run entry `b`
  of each result array is the sum over the eight tiles of 64 frames, which is the reference's sum over the 512 frames.
-/
import proofs.«426884_j75548474737115_1_alg».proof.Proof.Spec
import proofs.«426884_j75548474737115_1_alg».proof.Proof.RowMath
import proofs.«426884_j75548474737115_1_alg».proof.Proof.Contrib
import proofs.«426884_j75548474737115_1_alg».proof.Proof.Small
import proofs.«426884_j75548474737115_1_alg».proof.Proof.IntFacts
import proofs.«426884_j75548474737115_1_alg».proof.Proof.RefRead
import proofs.«426884_j75548474737115_1_alg».proof.Proof.KPay
import proofs.«426884_j75548474737115_1_alg».proof.Proof.KFrame
import proofs.«426884_j75548474737115_1_alg».proof.Proof.KHost

noncomputable section

namespace Cert.KernelIdeal.Bridge

open Cert.KernelIdeal Cert.KernelIdeal.Gen Idealize.ShloMosaic Idealize.ShloMosaic.ValueIdx Idealize.ShloMosaic.TcCoe Idealize.SL.Sem
open Cert.ReferenceIdeal.RefRead (rowOf)
open Cert.KernelIdeal.KHost (pt)

variable (m : (ℓ : Loc nD τ sig) → Buf (Elt Ideal) ℓ)

/-- The argument arrays of device `c`, and the masked alignment both programs compute from them. -/
abbrev Lg (c : Dev nD) : FVec Ideal Cert.ReferenceIdeal.S16x512x8000 .f32 := m ((c.tc : Thread nD τ).loc main_arg0)
abbrev Ys (c : Dev nD) : IVec Cert.ReferenceIdeal.S16x512 32 := m ((c.tc : Thread nD τ).loc main_arg1)
abbrev Sf (c : Dev nD) : FVec Ideal Cert.ReferenceIdeal.S16x512x8000 .f32 := m ((c.tc : Thread nD τ).loc main_arg2)
abbrev Am (c : Dev nD) : IVec Cert.ReferenceIdeal.S16x512 32 :=
  Cert.ReferenceIdeal.Spec.amask (m ((c.tc : Thread nD τ).loc main_arg3)) (m ((c.tc : Thread nD τ).loc main_arg4))
abbrev Lm (c : Dev nD) : IVec Cert.ReferenceIdeal.S16x512 32 := Cert.ReferenceIdeal.Spec.runIdx (Am m c)
abbrev Yt (c : Dev nD) : IVec Cert.ReferenceIdeal.S16x512 32 := Cert.ReferenceIdeal.Spec.takeYs (Ys m c) (Lm m c)

/-- What the precondition gives: real logits and soft labels, hard labels inside the vocabulary. -/
structure Good (c : Dev nD) : Prop where
  realL : ∀ i, ∃ r : ℝ, Lg m c i = (r : EReal)
  realS : ∀ i, ∃ r : ℝ, Sf m c i = (r : EReal)
  ysLt : ∀ i, (Ys m c i).toNat < 8000

theorem lm_lt (c : Dev nD) (i : Cert.ReferenceIdeal.S16x512.Idx) : (Lm m c i).toNat < 512 :=
  Cert.ReferenceIdeal.IntFacts.runIdx_lt (Am m c) i

/-- Every frame's hard label is inside the vocabulary: it is an entry of the label array. -/
theorem yt_lt (c : Dev nD) (g : Good m c) (i : Cert.ReferenceIdeal.S16x512.Idx) : (Yt m c i).toNat < 8000 := by
  rw [eq_ix2 i]
  show (Cert.ReferenceIdeal.Spec.takeYs (Ys m c) (Lm m c) (ix2 (i 0) (i 1))).toNat < 8000
  rw [Cert.ReferenceIdeal.IntFacts.takeYs_eq (Ys m c) (Lm m c) (lm_lt m c) (i 0) (i 1)]
  exact g.ysLt _

/-- Frame `64·j + r`. -/
abbrev fr (j : Fin 8) (r : Fin 64) : Fin 512 := ⟨64 * j.val + r.val, by have := j.isLt; have := r.isLt; omega⟩

/-- The soft and the hard loss of frame `t` of entry `b`, kept only when the frame is non-blank: the reference's summands. -/
def G5 (c : Dev nD) (b : Fin 16) (t : Fin 512) : EReal :=
  if Cert.ReferenceIdeal.Spec.nonblank (Am m c) (ix2 b t) = 1#1
  then Ctc.fSoft (rowOf (Sf m c) b ⟨(Lm m c (ix2 b t)).toNat, lm_lt m c _⟩) (rowOf (Lg m c) b t) else 0
def G6 (c : Dev nD) (g : Good m c) (b : Fin 16) (t : Fin 512) : EReal :=
  if Cert.ReferenceIdeal.Spec.nonblank (Am m c) (ix2 b t) = 1#1
  then Ctc.fHard (rowOf (Lg m c) b t) ⟨(Yt m c (ix2 b t)).toNat, yt_lt m c g _⟩ else 0

/-- The logits row of frame `64·j + r` as the kernel's block at point `8·b + j` holds it. -/
theorem row_eq (c : Dev nD) (b : Fin 16) (j : Fin 8) (r : Fin 64) :
    KPay.rowK (iblk m c 0 (pt b j)) r = rowOf (Lg m c) b (fr j r) :=
  funext fun v => KHost.iblk0_apply m c b j r v

theorem row_real (c : Dev nD) (g : Good m c) (b : Fin 16) (t : Fin 512) : ∀ v, ∃ x : ℝ, rowOf (Lg m c) b t v = (x : EReal) :=
  fun v => g.realL _

/-- One point's addition to output 5. -/
theorem step5_val (c : Dev nD) (g : Good m c) (b : Fin 16) (j : Fin 8) (prev : Vec Ideal S1x1x1 .f32) (i : S1x1x1.Idx) :
    KFrame.step5 m c (pt b j) prev i = prev (ix3 0 0 0) + ∑ r : Fin 64, G5 m c b (fr j r) := by
  unfold KFrame.step5
  refine (KPay.pay2_apply _ (iblk m c 4 (pt b j)) prev i).trans ?_
  refine congrArg (prev (ix3 0 0 0) + ·) ?_
  refine Finset.sum_congr rfl fun r _ => ?_
  rw [KPay.pay7_apply (iblk m c 0 (pt b j)) (iblk m c 2 (pt b j)) (iblk m c 1 (pt b j)) r, row_eq m c b j r]
  simp only [KHost.iblk2_apply m c b j, KHost.iblk1_apply m c b j, KHost.iblk4_apply m c b j,
    KHost.V_onehot m c, KHost.V_mask m c, KHost.onehot_apply, KHost.mask_apply]
  unfold G5
  exact Ctc.soft_contrib (fun s => rowOf (Sf m c) b s) _ (row_real m c g b (fr j r)) ⟨(Lm m c (ix2 b (fr j r))).toNat, lm_lt m c _⟩ _
    (fun s => by
      by_cases h : Lm m c (ix2 b (fr j r)) = BitVec.ofNat 32 s.val
      · rw [if_pos h, if_pos ((Ctc.word_eq_iff (by decide) _ (lm_lt m c _) s).mp h)]
      · rw [if_neg h, if_neg (fun h' => h ((Ctc.word_eq_iff (by decide) _ (lm_lt m c _) s).mpr h'))])
    _ _ rfl

/-- One point's addition to output 6. -/
theorem step6_val (c : Dev nD) (g : Good m c) (b : Fin 16) (j : Fin 8) (prev : Vec Ideal S1x1x1 .f32) (i : S1x1x1.Idx) :
    KFrame.step6 m c (pt b j) prev i = prev (ix3 0 0 0) + ∑ r : Fin 64, G6 m c g b (fr j r) := by
  unfold KFrame.step6
  refine (KPay.pay3_apply _ _ (iblk m c 4 (pt b j)) prev i).trans ?_
  refine congrArg (prev (ix3 0 0 0) + ·) ?_
  refine Finset.sum_congr rfl fun r _ => ?_
  rw [KPay.pay8_apply (iblk m c 0 (pt b j)) (iblk m c 3 (pt b j)) r, KPay.pay9_apply (iblk m c 0 (pt b j)) r, row_eq m c b j r]
  simp only [KHost.iblk3_apply m c b j, KHost.iblk4_apply m c b j, KHost.V_labels m c, KHost.V_mask m c,
    KHost.labels_apply, KHost.mask_apply]
  unfold G6
  exact Ctc.hard_contrib _ (row_real m c g b (fr j r)) ⟨(Yt m c (ix2 b (fr j r))).toNat, yt_lt m c g _⟩
    (fun v => BitVec.ofNat 32 v.val = Yt m c (ix2 b (fr j r)))
    (fun v => ⟨fun h => ((Ctc.word_eq_iff (by decide) _ (yt_lt m c g _) v).mp h.symm).symm,
      fun h => ((Ctc.word_eq_iff (by decide) _ (yt_lt m c g _) v).mpr h.symm).symm⟩)
    _ _ rfl

/-! ## The eight points of one batch entry -/

theorem outs_cast (c : Dev nD) {n n' : ℕ} (e : n = n') (h : n < cfg0.N) :
    outsAt0 m c n h = outsAt0 m c n' (e ▸ h) := by subst e; rfl

theorem bnd (b : Fin 16) (j : ℕ) (hj : j < 8) : 8 * b.val + j < cfg0.N := by
  rw [show cfg0.N = 128 from N_0]; have := b.isLt; omega

/-- After point `8·b + j` output 5 holds the soft losses of tiles `0 … j` of entry `b`. -/
theorem acc5 (c : Dev nD) (g : Good m c) (b : Fin 16) : ∀ (j : ℕ) (hj : j < 8) (i : S1x1x1.Idx),
    (outsAt0 m c (8 * b.val + j) (bnd b j hj)).1 i
      = ∑ k : Fin (j + 1), ∑ r : Fin 64, G5 m c b (fr ⟨k.val, by have := k.isLt; omega⟩ r)
  | 0, hj, i => by
    have hA := KFrame.outsAt_A m c (pt b ⟨0, hj⟩) (by show (8 * b.val + 0) % 8 = 0; omega)
    show (outsAt0 m c (pt b ⟨0, hj⟩).val (pt b ⟨0, hj⟩).isLt).1 i = _
    rw [hA]
    dsimp only
    rw [step5_val m c g b ⟨0, hj⟩, KPay.pay4_eq, zero_add, Fin.sum_univ_one]
    rfl
  | j + 1, hj, i => by
    have hB := KFrame.outsAt_B m c (pt b ⟨j + 1, hj⟩) (by show ¬(8 * b.val + (j + 1)) % 8 = 0; omega)
    show (outsAt0 m c (pt b ⟨j + 1, hj⟩).val (pt b ⟨j + 1, hj⟩).isLt).1 i = _
    rw [hB]
    dsimp only
    rw [step5_val m c g b ⟨j + 1, hj⟩,
      outs_cast m c (show (pt b ⟨j + 1, hj⟩).val - 1 = 8 * b.val + j from by show 8 * b.val + (j + 1) - 1 = _; omega),
      acc5 c g b j (by omega) (ix3 0 0 0)]
    conv_rhs => rw [Fin.sum_univ_castSucc]
    rfl

/-- After point `8·b + j` output 6 holds the hard losses of tiles `0 … j` of entry `b`. -/
theorem acc6 (c : Dev nD) (g : Good m c) (b : Fin 16) : ∀ (j : ℕ) (hj : j < 8) (i : S1x1x1.Idx),
    (outsAt0 m c (8 * b.val + j) (bnd b j hj)).2 i
      = ∑ k : Fin (j + 1), ∑ r : Fin 64, G6 m c g b (fr ⟨k.val, by have := k.isLt; omega⟩ r)
  | 0, hj, i => by
    have hA := KFrame.outsAt_A m c (pt b ⟨0, hj⟩) (by show (8 * b.val + 0) % 8 = 0; omega)
    show (outsAt0 m c (pt b ⟨0, hj⟩).val (pt b ⟨0, hj⟩).isLt).2 i = _
    rw [hA]
    dsimp only
    rw [step6_val m c g b ⟨0, hj⟩, KPay.pay5_eq, zero_add, Fin.sum_univ_one]
    rfl
  | j + 1, hj, i => by
    have hB := KFrame.outsAt_B m c (pt b ⟨j + 1, hj⟩) (by show ¬(8 * b.val + (j + 1)) % 8 = 0; omega)
    show (outsAt0 m c (pt b ⟨j + 1, hj⟩).val (pt b ⟨j + 1, hj⟩).isLt).2 i = _
    rw [hB]
    dsimp only
    rw [step6_val m c g b ⟨j + 1, hj⟩,
      outs_cast m c (show (pt b ⟨j + 1, hj⟩).val - 1 = 8 * b.val + j from by show 8 * b.val + (j + 1) - 1 = _; omega),
      acc6 c g b j (by omega) (ix3 0 0 0)]
    conv_rhs => rw [Fin.sum_univ_castSucc]
    rfl

/-! ## The two result arrays are the reference's two sums -/

theorem sums5 (c : Dev nD) (g : Good m c) :
    (fun j => shapeCast S16 ((dats m 0 c).arrAt 5 cfg0.N) shapeCasts_S16x1x1_S16 j)
      = Cert.ReferenceIdeal.Spec.refSumSoft (Lg m c) (Sf m c) (Am m c) := by
  funext i
  obtain ⟨b, rfl⟩ : ∃ b : Fin 16, i = ix1 b := ⟨i 0, eq_ix1 i⟩
  refine (Ctc.shapeCast_a11_a_apply _ _ b).trans ?_
  rw [KFrame.final5 m c b, acc5 m c g b 7 (by decide),
    Cert.ReferenceIdeal.RefRead.refSumSoft_apply (Lg m c) (Sf m c) (Am m c) (lm_lt m c) b]
  exact Ctc.tiles_sum (fun t => G5 m c b t)

theorem sums6 (c : Dev nD) (g : Good m c) :
    (fun j => shapeCast S16 ((dats m 0 c).arrAt 6 cfg0.N) shapeCasts_S16x1x1_S16 j)
      = Cert.ReferenceIdeal.Spec.refSumHard (Lg m c) (Ys m c) (Am m c) := by
  funext i
  obtain ⟨b, rfl⟩ : ∃ b : Fin 16, i = ix1 b := ⟨i 0, eq_ix1 i⟩
  refine (Ctc.shapeCast_a11_a_apply _ _ b).trans ?_
  rw [KFrame.final6 m c b, acc6 m c g b 7 (by decide),
    Cert.ReferenceIdeal.RefRead.refSumHard_apply (Lg m c) (Ys m c) (Am m c) (yt_lt m c g) b]
  exact Ctc.tiles_sum (fun t => G6 m c g b t)

end Cert.KernelIdeal.Bridge

end
-- ==== Proof.lean ====
/-
  The certificate of the CTC-alignment distillation loss: a tiled kernel that, per batch entry and tile of 64
  frames, takes the log-softmax of the logits rows, gathers each frame's soft-label row by a one-hot matrix product,
  reads the frame's hard label's log-probability through an equality mask, and accumulates the two masked sums over
  the tiles — against the reference program that indexes the rows directly and sums under `where`.

  Over the extended reals the two programs compute the same number when the logits and soft labels are finite and
  the hard labels lie in `[0, 8000)`: the kernel's log-softmax `x − (log Σ exp(x − m) + m)` is the reference's
  `(x − m) − log Σ exp(x − m)` on a row of reals; a one-hot combination of rows is the selected row; an equality
  mask summed picks the one entry; a frame times its 0/1 flag is the frame kept under `where`; and eight tiles of
  64 frames are the 512 frames.  The integer tables (masked alignment, run index, hard label of a frame, non-blank
  counts) are computed by the same host operations in both programs, and both end with the same mean over the batch.

  The frames of the two kernel programs are the generated ones; the reference's run is written out operation by
  operation (RefRun), and its frame is that run with the result dropped.  The ideal pass rewrote nothing, so the
  preservation claim is trivial.
-/
import proofs.«426884_j75548474737115_1_alg».proof.Defs
import proofs.«426884_j75548474737115_1_alg».proof.Proof.Gen.Kernel
import proofs.«426884_j75548474737115_1_alg».proof.Proof.Gen.Kernel.Frame
import proofs.«426884_j75548474737115_1_alg».proof.Proof.Gen.KernelIdeal
import proofs.«426884_j75548474737115_1_alg».proof.Proof.Gen.KernelIdeal.Frame
import proofs.«426884_j75548474737115_1_alg».proof.Proof.Gen.ReferenceIdeal
import proofs.«426884_j75548474737115_1_alg».proof.Proof.Gen.Pre_finite_inputs
import proofs.«426884_j75548474737115_1_alg».proof.Proof.RefRun
import proofs.«426884_j75548474737115_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at the reference's composed value of the (agreeing) arguments: the kernel's two result
    arrays are the reference's two per-entry sums, the non-blank counts are one table, the end is shared. -/
theorem algebraic : Cert.algebraic_KernelIdeal_ReferenceIdeal := by
  intro m ρ m' ρ' hpre hagree
  have good : ∀ c, Cert.KernelIdeal.Bridge.Good m c := fun c => by
    obtain ⟨h1, h2, h3⟩ := Cert.ReferenceIdeal.IntFacts.pre_decode _ _ _ _ _ _ (hpre c)
    exact ⟨h1, h2, h3⟩
  refine ⟨fun c => Cert.ReferenceIdeal.Spec.refResult (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.KFrame.run (F := Ideal) m ρ)
    rw [Cert.KernelIdeal.Bridge.sums5 m c (good c), Cert.KernelIdeal.Bridge.sums6 m c (good c),
      Cert.KernelIdeal.KHost.V_nExists m c]
    rfl
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
